-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S16384x16 : Shape := ⟨2, ![16384, 16]⟩
abbrev S16384 : Shape := ⟨1, ![16384]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 8192#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S4096x8192 .f32) (main_arg1 : FVec F S16384x16 .f32) (main_arg2 : IVec S16384 32) (main_arg3 : IVec S16384 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 8192#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x8192 : Shape := ⟨2, ![4096, 8192]⟩
abbrev S16384x16 : Shape := ⟨2, ![16384, 16]⟩
abbrev S16384 : Shape := ⟨1, ![16384]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S8192x4096 : Shape := ⟨2, ![8192, 4096]⟩
abbrev S1024x1024 : Shape := ⟨2, ![1024, 1024]⟩
abbrev S8192x32x128 : Shape := ⟨3, ![8192, 32, 128]⟩
abbrev S4096x16384 : Shape := ⟨2, ![4096, 16384]⟩
abbrev S1x32x128 : Shape := ⟨3, ![1, 32, 128]⟩
abbrev S1 : Shape := ⟨1, ![1]⟩
abbrev S128x4 : Shape := ⟨2, ![128, 4]⟩
abbrev S4096x128 : Shape := ⟨2, ![4096, 128]⟩
abbrev S128x32x128 : Shape := ⟨3, ![128, 32, 128]⟩
abbrev S32x128 : Shape := ⟨2, ![32, 128]⟩
abbrev S1x4 : Shape := ⟨2, ![1, 4]⟩
abbrev S4 : Shape := ⟨1, ![4]⟩
abbrev S32x128x128 : Shape := ⟨3, ![32, 128, 128]⟩

abbrev nBuf : Space → Nat
  | .hbm => 21
  | .vmem => 13
  | .smem => 2
  | _ => 0

abbrev bufTy : (tb : Table) → Fin (tcTables nBuf tb) → BufTy
  | .hbm, ⟨0, _⟩ => ⟨S4096x8192, .f32⟩
  | .hbm, ⟨1, _⟩ => ⟨S16384x16, .f32⟩
  | .hbm, ⟨2, _⟩ => ⟨S16x4, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x4, .f32⟩
  | .hbm, ⟨18, _⟩ => ⟨S8192x4096, .f32⟩
  | .hbm, ⟨19, _⟩ => ⟨S8192x32x128, .f32⟩
  | .hbm, ⟨20, _⟩ => ⟨S4096x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S128x4, .f32⟩
  | .local _ .vmem, ⟨9, _⟩ => ⟨S128x4, .f32⟩
  | .local _ .vmem, ⟨10, _⟩ => ⟨S4096x128, .f32⟩
  | .local _ .vmem, ⟨11, _⟩ => ⟨S4096x128, .f32⟩
  | .local _ .vmem, ⟨12, _⟩ => ⟨S128x32x128, .f32⟩
  | .local _ .smem, ⟨0, _⟩ => ⟨S16384, .i32⟩
  | .local _ .smem, ⟨1, _⟩ => ⟨S16384, .i32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![128, 128], ![false, false]⟩

abbrev pre1 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k1_off2 (i : grid1.Coords) : Fin 2 → Nat :=
  let arg1 : BitVec 32 := BitVec.ofNat 32 (i 1).val
  let v4 : Index := Scalar.indexCast arg1
  let c0_5 : Index := 0#32
  ![v4.toNat, 0]
def k1_off3 (i : grid1.Coords) : Fin 3 → Nat :=
  let arg1 : BitVec 32 := BitVec.ofNat 32 (i 1).val
  let v26 : Index := Scalar.indexCast arg1
  let c0_6 : Index := 0#32
  let c0_7 : Index := 0#32
  ![v26.toNat, 0, 0]
def k1_cond1 (i : grid1.Coords) : BitVec 1 :=
  let arg1 : BitVec 32 := BitVec.ofNat 32 (i 1).val
  let c127_i32 : BitVec 32 := 127#32
  let v30 : BitVec 1 := Scalar.cmpi .eq arg1 c127_i32
  let v31 : BitVec 32 := Scalar.extui v30
  let c0_i32 : BitVec 32 := 0#32
  let v32 : BitVec 1 := Scalar.cmpi .ne v31 c0_i32
  v32

def cc1_transform_0 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let v2 : Index := Scalar.indexCast v1
  let v3 : BitVec 32 := pf.at 0 (Rect.unit (s := S16384) ![v2.toNat] S1.size (k1_off1_inb i)) numel1_S1
  let c0_i32 : BitVec 32 := 0#32
  let c0_i32_0 : BitVec 32 := 0#32
  let c0_i32_1 : BitVec 32 := 0#32
  ![v3.toNat, c0_i32.toNat, c0_i32_0.toNat]

def cc1_transform_1 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let v2 : Index := Scalar.indexCast v1
  let v3 : BitVec 32 := pf.at 1 (Rect.unit (s := S16384) ![v2.toNat] S1.size (k1_off1_inb i)) numel1_S1
  let c0_i32 : BitVec 32 := 0#32
  let c0_i32_0 : BitVec 32 := 0#32
  let c0_i32_1 : BitVec 32 := 0#32
  ![v3.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S8192x4096_S8192x32x128 : S8192x4096.ShapeCasts S8192x32x128
  numel1_S1 : S1.numel = 1
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  h_S1x4 : 0 < S1x4.numel
  shapeCasts_S1x4_S4 : S1x4.ShapeCasts S4
  slices_S4_o0_S1 : S4.Slices ![0] S1
  inpos_S1_p0 : ∀ a, (![0] : Fin 1 → Nat) a < S1.size a
  slices_S4_o1_S1 : S4.Slices ![1] S1
  slices_S4_o2_S1 : S4.Slices ![2] S1
  slices_S4_o3_S1 : S4.Slices ![3] S1
  shapeCasts_S32x128_S1x32x128 : S32x128.ShapeCasts S1x32x128
  inb_S128x32x128_S128x32x128_0_0_0 : ∀ a, (![0, 0, 0] : Fin 3 → Nat) a + S128x32x128.size a ≤ S128x32x128.size a
  h_S128x32x128 : 0 < S128x32x128.numel
  transposes_S128x32x128_p1_2_0_S32x128x128 : S128x32x128.Transposes [1, 2, 0] S32x128x128
  shapeCasts_S32x128x128_S4096x128 : S32x128x128.ShapeCasts S4096x128
  inb_S4096x128_S4096x128_0_0 : ∀ a, (![0, 0] : Fin 2 → Nat) a + S4096x128.size a ≤ S4096x128.size a
  h_S4096x128 : 0 < S4096x128.numel
  dot_S16384x16_S16x4_S16384x4_1_0_0_1_n_n_wf : DotDims.WF S16384x16 S16x4 S16384x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hrank1 : 0 < grid1.rank
  k1_off1_inb : ∀ i : grid1.Coords, ∀ a, (k1_off1 i) a + S1.size a ≤ S16384.size a
  k1_off2_inb : ∀ i : grid1.Coords, ∀ a, (k1_off2 i) a + S1x4.size a ≤ S128x4.size a
  k1_off3_inb : ∀ i : grid1.Coords, ∀ a, (k1_off3 i) a + S1x32x128.size a ≤ S128x32x128.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S16384x4.size a
  hwx1_2 : ∀ i : grid1.Coords, EltTy.bits .f32 = 32 ∨ (Rect.block (s := S16384x4) S128x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x16384.size a
  hwx1_3 : ∀ i : grid1.Coords, EltTy.bits .f32 = 32 ∨ (Rect.block (s := S4096x16384) S4096x128.size (cc1_transform_3 i) (hinb1_3 i)).WholeWords (EltTy.packing .f32)

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v13) S1x32x128.size reads1_0 false false 2 stage1_0 sem1_0 nbuf1_0 hstage1_0

abbrev spec1_1 : Pipeline.WinSpec sig grid1.rank :=
  Pipeline.WinSpec.ofSpec (Memref.whole main_v13) S1x32x128.size reads1_1 false false 2 stage1_1 sem1_1 nbuf1_1 hstage1_1

abbrev spec1_2 : Pipeline.WinSpec sig grid1.rank :=
  Pipeline.WinSpec.ofSpec (Memref.whole main_v11) S128x4.size reads1_2 false false 2 stage1_2 sem1_2 nbuf1_2 hstage1_2

abbrev spec1_3 : Pipeline.WinSpec sig grid1.rank :=
  Pipeline.WinSpec.ofSpec (Memref.whole main_v14) S4096x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x32x128.size a ≤ S8192x32x128.size a), EltTy.bits .f32 = 32 ∨ (Rect.block (s := S8192x32x128) S1x32x128.size (cc1_transform_0 k1_off1_inb numel1_S1 pf i) h).WholeWords (EltTy.packing .f32)) ∧
  (∀ i : grid1.Coords, ∃ h : (∀ a, (cc1_transform_1 k1_off1_inb numel1_S1 pf i a + 1) * S1x32x128.size a ≤ S8192x32x128.size a), EltTy.bits .f32 = 32 ∨ (Rect.block (s := S8192x32x128) S1x32x128.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond1 i == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4096x8192 : Shape := ⟨2, ![4096, 8192]⟩
abbrev S16384x16 : Shape := ⟨2, ![16384, 16]⟩
abbrev S16384 : Shape := ⟨1, ![16384]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S4096x16384 : Shape := ⟨2, ![4096, 16384]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S16384x16, .f32⟩
  | .hbm, ⟨2, _⟩ => ⟨S16384, .i32⟩
  | .hbm, ⟨3, _⟩ => ⟨S16384, .i32⟩
  | .hbm, ⟨4, _⟩ => ⟨S16x4, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x4, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S4096x16384, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S4096x16384, .f32⟩
  | .hbm, ⟨38, _⟩ => ⟨S16384x1, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S1x16384, .f32⟩
  | .hbm, ⟨43, _⟩ => ⟨S4096x16384, .f32⟩
  | .hbm, ⟨44, _⟩ => ⟨S4096x16384, .f32⟩
  | .hbm, ⟨45, _⟩ => ⟨S1x16384, .f32⟩
  | .hbm, ⟨46, _⟩ => ⟨S4096x16384, .f32⟩
  | .hbm, ⟨47, _⟩ => ⟨S4096x16384, .f32⟩
  | .hbm, ⟨48, _⟩ => ⟨S16384x1, .f32⟩
  | .hbm, ⟨49, _⟩ => ⟨S16384, .f32⟩
  | .hbm, ⟨50, _⟩ => ⟨S1x16384, .f32⟩
  | .hbm, ⟨51, _⟩ => ⟨S4096x16384, .f32⟩
  | .hbm, ⟨52, _⟩ => ⟨S4096x16384, .f32⟩
  | .hbm, ⟨53, _⟩ => ⟨S4096x16384, .f32⟩
  | .hbm, ⟨54, _⟩ => ⟨S16384x1, .f32⟩
  | .hbm, ⟨55, _⟩ => ⟨S16384, .f32⟩
  | .hbm, ⟨56, _⟩ => ⟨S4096x16384, .f32⟩
  | .hbm, ⟨57, _⟩ => ⟨S1x16384, .f32⟩
  | .hbm, ⟨58, _⟩ => ⟨S4096x16384, .f32⟩
  | .hbm, ⟨59, _⟩ => ⟨S4096x16384, .f32⟩
  | .hbm, ⟨60, _⟩ => ⟨S4096x16384, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S16384x4_S16384x1_0_0 : S16384x4.Slices ![0, 0] S16384x1
  shapeCasts_S16384x1_S16384 : S16384x1.ShapeCasts S16384
  slices_S16384x4_S16384x1_0_1 : S16384x4.Slices ![0, 1] S16384x1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S16384x4_S16384x1_0_2 : S16384x4.Slices ![0, 2] S16384x1
  slices_S16384x4_S16384x1_0_3 : S16384x4.Slices ![0, 3] S16384x1
  dot_S16384x16_S16x4_S16384x4_1_0_0_1_n_n_wf : DotDims.WF S16384x16 S16x4 S16384x4 [1] [0] [0] [1] [] []
  gather_S4096x8192_S16384x1_S4096x16384_0_1_n_n_1_1_40961_wf : GatherDims.WF S4096x8192 S16384x1 S4096x16384 [0] [1] [] [1] [] 1 ![4096, 1]

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def gather_S4096x8192_S16384x1_S4096x16384_0_1_n_n_1_1_40961 : GatherDims S4096x8192 S16384x1 S4096x16384 where
  offsetDims := [0]
  collapsedSliceDims := [1]
  operandBatchingDims := []
  startIndicesBatchingDims := []
  startIndexMap := [1]
  indexVectorDim := 1
  sliceSizes := ![4096, 1]
  wf := gather_S4096x8192_S16384x1_S4096x16384_0_1_n_n_1_1_40961_wf

class Facts : Prop extends Facts₀ where

variable [Facts]
-- ==== Proof.Spec.lean ====
/-
  The result both programs compute, as one function of the argument arrays.

  For output neuron `o` the sixteen gate logits collapse into four affine coefficients
  `coef (o, 0..3)`; the two index tables name, per neuron, a column of `x` each. Entry `(b, o)` of the
  result is the affine form `c0 + c1 * a + c2 * b' + c3 * (a * b')` of the two gathered entries
  `a = x (b, ia o)` and `b' = x (b, ib o)`, summed in exactly that order on the extended reals.
-/
import Idealize.ShloMosaic.PureOps.Ideal
import Idealize.ShloMosaic.Lib.ValueIdx

noncomputable section

namespace Cert.Spec

open Idealize.ShloMosaic Idealize.ShloMosaic.ValueIdx

/-- The column of `x` an index word names: the word read as a natural number, reduced below 8192
    (for a word in range the reduction changes nothing: `col_val`). -/
def col (w : BitVec 32) : Fin 8192 := ⟨w.toNat % 8192, Nat.mod_lt _ (by decide)⟩

theorem col_val (w : BitVec 32) (h : w.toNat < 8192) : (col w).val = w.toNat := Nat.mod_eq_of_lt h

/-- Entry `(b, o)` of the result from the gathered entries and the four coefficients of neuron `o`. -/
def entry (x : (⟨2, ![4096, 8192]⟩ : Shape).Idx → EReal) (coef : (⟨2, ![16384, 4]⟩ : Shape).Idx → EReal)
    (ia ib : (⟨1, ![16384]⟩ : Shape).Idx → BitVec 32) (b : Fin 4096) (o : Fin 16384) : EReal :=
  coef (ix2 o (0 : Fin 4)) + coef (ix2 o (1 : Fin 4)) * x (ix2 b (col (ia (ix1 o))))
    + coef (ix2 o (2 : Fin 4)) * x (ix2 b (col (ib (ix1 o))))
    + coef (ix2 o (3 : Fin 4)) * (x (ix2 b (col (ia (ix1 o)))) * x (ix2 b (col (ib (ix1 o)))))

/-- The whole result array. -/
def G (x : (⟨2, ![4096, 8192]⟩ : Shape).Idx → EReal) (coef : (⟨2, ![16384, 4]⟩ : Shape).Idx → EReal)
    (ia ib : (⟨1, ![16384]⟩ : Shape).Idx → BitVec 32) : (⟨2, ![4096, 16384]⟩ : Shape).Idx → EReal :=
  fun i => entry x coef ia ib (i 0) (i 1)

theorem G_apply (x : (⟨2, ![4096, 8192]⟩ : Shape).Idx → EReal) (coef : (⟨2, ![16384, 4]⟩ : Shape).Idx → EReal)
    (ia ib : (⟨1, ![16384]⟩ : Shape).Idx → BitVec 32) (b : Fin 4096) (o : Fin 16384) :
    G x coef ia ib (ix2 b o) = entry x coef ia ib b o := rfl

end Cert.Spec

end
-- ==== Proof.PreIdx.lean ====
/-
  The printed precondition, read back at the two index tables. The predicate is one bit: the conjunction of four
  "all" tests, each a reduction by "and" of a one-bit array from the constant one. When the bit is one, each
  reduction is one, so every element of each tested array is one; for the two index tables the element is the
  conjunction of two signed comparisons, 0 ≤ w and w < 8192, and a 32-bit word in [0, 8192) read signed is the
  same number read unsigned, so it is below 8192.
-/
import proofs.«428619_j54528904790310_2_alg».proof.Proof.Gen.Pre_finite_inputs
import Idealize.ShloMosaic.Lib.ReduceAll
import Idealize.ShloMosaic.Lib.ValueIdx

set_option maxRecDepth 16384

noncomputable section

namespace Cert.Pre_finite_inputs.Hand

open Cert.Pre_finite_inputs Cert.Pre_finite_inputs.Gen
open Idealize.ShloMosaic

/-- The rank-0 shape has one index. -/
instance subsingleton_scalar_idx : Subsingleton S_.Idx := ⟨fun a b => funext fun d => d.elim0⟩

/-- A word in [0, 8192) signed is below 8192 unsigned. -/
theorem toNat_lt_of_signed (w : BitVec 32) (h0 : IntOp.cmpi .sge w (0#32) = 1#1)
    (h8 : IntOp.cmpi .slt w (8192#32) = 1#1) : w.toNat < 8192 := by
  rw [IntOp.cmpi_sge] at h0
  rw [IntOp.cmpi_slt] at h8
  have e0 : (0#32 : BitVec 32).toInt = 0 := by decide
  have e8 : (8192#32 : BitVec 32).toInt = 8192 := by decide
  rw [e0] at h0
  rw [e8] at h8
  have hw := w.isLt
  rw [BitVec.toInt_eq_toNat_cond] at h0 h8
  split at h0 <;> omega

/-- One table's "all (0 ≤ t ∧ t < 8192)" bit being one bounds every word of the table. -/
theorem table_lt (t : IVec S16384 32) (init : IVec S_ 1) (j : S_.Idx)
    (e : Host.reduce IntOp.andi
        (andi (cmpi .sge t (broadcastInDim S16384 ![] Facts.bcast_S_S16384 (constantI S_ 32 0#32)))
          (cmpi .slt t (broadcastInDim S16384 ![] Facts.bcast_S_S16384 (constantI S_ 32 8192#32))))
        init Facts.reducesTo_S16384_S_d0 Facts.h_S_ j = 1#1) :
    ∀ k : S16384.Idx, (t k).toNat < 8192 := by
  intro k
  have hk := Host.reduce_andi_all _ _ _ _ _ e k
  simp only [andi, cmpi, broadcastInDim, constantI] at hk
  rw [IntOp.andi_eq_one] at hk
  exact toNat_lt_of_signed _ hk.1 hk.2

/-- The precondition bounds both index tables: every word of each, read unsigned, is below 8192. -/
theorem idx_lt {F : FTy → Type} [FloatOps F] (x : FVec F S4096x8192 .f32) (w : FVec F S16384x16 .f32)
    (ia ib : IVec S16384 32)
    (h : Cert.Pre_finite_inputs.fn (F := F) x w ia ib = fun _ => 1#1) :
    (∀ k : S16384.Idx, (ia k).toNat < 8192) ∧ (∀ k : S16384.Idx, (ib k).toNat < 8192) := by
  have e := congrFun h ValueIdx.ix0
  unfold Cert.Pre_finite_inputs.fn Cert.Pre_finite_inputs.fn_part1 at e
  dsimp only at e
  change IntOp.andi (IntOp.andi (IntOp.andi _ _) _) _ = 1#1 at e
  rw [IntOp.andi_eq_one, IntOp.andi_eq_one, IntOp.andi_eq_one] at e
  obtain ⟨⟨_, ha⟩, hb⟩ := e
  exact ⟨table_lt ia _ _ ha, table_lt ib _ _ hb⟩

end Cert.Pre_finite_inputs.Hand

end
-- ==== Proof.RefTerm.lean ====
/- The reference program's result as a pure term of its four arguments: its operations composed in the
   printed order, one binding per operation. The row weights are the softmax of the logits along axis 1
   contracted with the 16x4 literal table; each index table is wrapped (a negative entry takes 8192 more)
   and made a column; the result combines the two gathered column families with the four weight columns. -/
import proofs.«428619_j54528904790310_2_alg».proof.Proof.Gen.ReferenceIdeal
import Idealize.ShloMosaic.Lib.StableHlo.Run

noncomputable section

namespace Cert.ReferenceIdeal.Hand

open Cert.ReferenceIdeal Idealize.ShloMosaic Idealize.SL.Sem Idealize.ShloMosaic.StableHlo
open Cert.ReferenceIdeal.Facts₀

variable {F : FTy → Type} [FloatOps F]

/-- Operations %cst … %11: the softmax of the logits along axis 1 (the row maximum subtracted, the exponential,
    the row sum divided out), then the contraction of its 16 entries with the literal table's 4 columns. -/
def coefR (w : FVec F S16384x16 .f32) : FVec F S16384x4 .f32 :=
  let cst : (⟨S16x4, .f32⟩ : BufTy).Contents (Elt F) := fun i => FloatOps.ofBits .f32 (lit0 (S16x4.rowMajor i))
  let cst_0 : (⟨S_, .f32⟩ : BufTy).Contents (Elt F) := constant S_ .f32 0xFF800000#32
  let v0 : (⟨S16384, .f32⟩ : BufTy).Contents (Elt F) := Host.reduce FloatOps.maximumf w cst_0 reducesTo_S16384x16_S16384_d1 h_S_
  let cst_1 : (⟨S_, .f32⟩ : BufTy).Contents (Elt F) := constant S_ .f32 0xFF800000#32
  let v1 : (⟨S16384, .f32⟩ : BufTy).Contents (Elt F) := broadcastInDim S16384 ![] bcast_S_S16384 cst_1
  let v2 : (⟨S16384, .f32⟩ : BufTy).Contents (Elt F) := maximumf v1 v0
  let v3 : (⟨S16384x1, .f32⟩ : BufTy).Contents (Elt F) := broadcastInDim S16384x1 ![0] bcast_S16384_S16384x1_0 v2
  let v4 : (⟨S16384x16, .f32⟩ : BufTy).Contents (Elt F) := broadcastInDim S16384x16 ![0, 1] bcast_S16384x1_S16384x16_0_1 v3
  let v5 : (⟨S16384x16, .f32⟩ : BufTy).Contents (Elt F) := subf w v4
  let v6 : (⟨S16384x16, .f32⟩ : BufTy).Contents (Elt F) := Host.exp v5
  let cst_2 : (⟨S_, .f32⟩ : BufTy).Contents (Elt F) := constant S_ .f32 0x00000000#32
  let v7 : (⟨S16384, .f32⟩ : BufTy).Contents (Elt F) := Host.reduceAdd v6 cst_2 reducesTo_S16384x16_S16384_d1 h_S_
  let v8 : (⟨S16384x1, .f32⟩ : BufTy).Contents (Elt F) := broadcastInDim S16384x1 ![0] bcast_S16384_S16384x1_0 v7
  let v9 : (⟨S16384x16, .f32⟩ : BufTy).Contents (Elt F) := broadcastInDim S16384x16 ![0, 1] bcast_S16384x1_S16384x16_0_1 v8
  let v10 : (⟨S16384x16, .f32⟩ : BufTy).Contents (Elt F) := Host.divf v6 v9
  Host.dotGeneral dot_S16384x16_S16x4_S16384x4_1_0_0_1_n_n none v10 cst

/-- Operations %c … %17 (and, on the second table, %c_4 … %24): an entry below zero takes 8192 more, any other is
    kept; the wrapped table as a column. -/
def wrapCol (ia : IVec S16384 32) : IVec S16384x1 32 :=
  let c : IVec S_ 32 := constantI S_ 32 0#32
  let v12 : IVec S16384 32 := broadcastInDim S16384 ![] bcast_S_S16384 c
  let v13 : IVec S16384 1 := cmpi .slt ia v12
  let c_3 : IVec S_ 32 := constantI S_ 32 8192#32
  let v14 : IVec S16384 32 := broadcastInDim S16384 ![] bcast_S_S16384 c_3
  let v15 : IVec S16384 32 := addi ia v14
  let v16 : IVec S16384 32 := select v13 v15 ia
  broadcastInDim S16384x1 ![0] bcast_S16384_S16384x1_0 v16

/-- The whole result %48: with a, b the columns of x gathered at the two wrapped tables and k0 … k3 the four weight
    columns spread along the rows, (k0 + k1 * a + k2 * b) + k3 * (a * b), in the printed association. -/
def refOut (x : FVec F S4096x8192 .f32) (w : FVec F S16384x16 .f32) (ia ib : IVec S16384 32) : FVec F S4096x16384 .f32 :=
  let v11 : (⟨S16384x4, .f32⟩ : BufTy).Contents (Elt F) := coefR w
  let v17 : (⟨S16384x1, .i32⟩ : BufTy).Contents (Elt F) := wrapCol ia
  let v18 : (⟨S4096x16384, .f32⟩ : BufTy).Contents (Elt F) := Host.gather gather_S4096x8192_S16384x1_S4096x16384_0_1_n_n_1_1_40961 x v17
  let v24 : (⟨S16384x1, .i32⟩ : BufTy).Contents (Elt F) := wrapCol ib
  let v25 : (⟨S4096x16384, .f32⟩ : BufTy).Contents (Elt F) := Host.gather gather_S4096x8192_S16384x1_S4096x16384_0_1_n_n_1_1_40961 x v24
  let v26 : (⟨S16384x1, .f32⟩ : BufTy).Contents (Elt F) := extractStridedSlice S16384x1 ![0, 0] v11 slices_S16384x4_S16384x1_0_0
  let v27 : (⟨S16384, .f32⟩ : BufTy).Contents (Elt F) := shapeCast S16384 v26 shapeCasts_S16384x1_S16384
  let v28 : (⟨S16384x1, .f32⟩ : BufTy).Contents (Elt F) := extractStridedSlice S16384x1 ![0, 1] v11 slices_S16384x4_S16384x1_0_1
  let v29 : (⟨S16384, .f32⟩ : BufTy).Contents (Elt F) := shapeCast S16384 v28 shapeCasts_S16384x1_S16384
  let v30 : (⟨S1x16384, .f32⟩ : BufTy).Contents (Elt F) := broadcastInDim S1x16384 ![1] bcast_S16384_S1x16384_1 v29
  let v31 : (⟨S4096x16384, .f32⟩ : BufTy).Contents (Elt F) := broadcastInDim S4096x16384 ![0, 1] bcast_S1x16384_S4096x16384_0_1 v30
  let v32 : (⟨S4096x16384, .f32⟩ : BufTy).Contents (Elt F) := mulf v31 v18
  let v33 : (⟨S1x16384, .f32⟩ : BufTy).Contents (Elt F) := broadcastInDim S1x16384 ![1] bcast_S16384_S1x16384_1 v27
  let v34 : (⟨S4096x16384, .f32⟩ : BufTy).Contents (Elt F) := broadcastInDim S4096x16384 ![0, 1] bcast_S1x16384_S4096x16384_0_1 v33
  let v35 : (⟨S4096x16384, .f32⟩ : BufTy).Contents (Elt F) := addf v34 v32
  let v36 : (⟨S16384x1, .f32⟩ : BufTy).Contents (Elt F) := extractStridedSlice S16384x1 ![0, 2] v11 slices_S16384x4_S16384x1_0_2
  let v37 : (⟨S16384, .f32⟩ : BufTy).Contents (Elt F) := shapeCast S16384 v36 shapeCasts_S16384x1_S16384
  let v38 : (⟨S1x16384, .f32⟩ : BufTy).Contents (Elt F) := broadcastInDim S1x16384 ![1] bcast_S16384_S1x16384_1 v37
  let v39 : (⟨S4096x16384, .f32⟩ : BufTy).Contents (Elt F) := broadcastInDim S4096x16384 ![0, 1] bcast_S1x16384_S4096x16384_0_1 v38
  let v40 : (⟨S4096x16384, .f32⟩ : BufTy).Contents (Elt F) := mulf v39 v25
  let v41 : (⟨S4096x16384, .f32⟩ : BufTy).Contents (Elt F) := addf v35 v40
  let v42 : (⟨S16384x1, .f32⟩ : BufTy).Contents (Elt F) := extractStridedSlice S16384x1 ![0, 3] v11 slices_S16384x4_S16384x1_0_3
  let v43 : (⟨S16384, .f32⟩ : BufTy).Contents (Elt F) := shapeCast S16384 v42 shapeCasts_S16384x1_S16384
  let v44 : (⟨S4096x16384, .f32⟩ : BufTy).Contents (Elt F) := mulf v18 v25
  let v45 : (⟨S1x16384, .f32⟩ : BufTy).Contents (Elt F) := broadcastInDim S1x16384 ![1] bcast_S16384_S1x16384_1 v43
  let v46 : (⟨S4096x16384, .f32⟩ : BufTy).Contents (Elt F) := broadcastInDim S4096x16384 ![0, 1] bcast_S1x16384_S4096x16384_0_1 v45
  let v47 : (⟨S4096x16384, .f32⟩ : BufTy).Contents (Elt F) := mulf v46 v44
  addf v41 v47

end Cert.ReferenceIdeal.Hand

end
-- ==== Proof.RefRun.lean ====
/- The reference program's @main as the list of its 57 host operations, and its run read back: every weakly
   fair execution terminates with the result buffer at the composed pure term of the arguments' launch
   contents (the softmax weights contracted with the literal table, the two wrapped gathers, combined), and
   the four arguments unchanged. -/
import proofs.«428619_j54528904790310_2_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's 57 operations, in order. -/
abbrev ops : List (HloOp τ sig (Elt F)) :=
  [
    nullary main_cst (fun i => FloatOps.ofBits .f32 (lit0 (S16x4.rowMajor i))),
    nullary main_cst_0 (constant S_ .f32 0xFF800000#32),
    binary main_arg1 main_cst_0 main_v0 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_1 (constant S_ .f32 0xFF800000#32),
    unary main_cst_1 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x16 ![0, 1] bcast_S16384x1_S16384x16_0_1 : (⟨S16384x1, .f32⟩ : BufTy).Contents (Elt F) → (⟨S16384x16, .f32⟩ : BufTy).Contents (Elt F)),
    binary main_arg1 main_v4 main_v5 (subf : (⟨S16384x16, .f32⟩ : BufTy).Contents (Elt F) → (⟨S16384x16, .f32⟩ : BufTy).Contents (Elt F) → (⟨S16384x16, .f32⟩ : BufTy).Contents (Elt F)),
    unary main_v5 main_v6 (Host.exp : (⟨S16384x16, .f32⟩ : BufTy).Contents (Elt F) → (⟨S16384x16, .f32⟩ : BufTy).Contents (Elt F)),
    nullary main_cst_2 (constant S_ .f32 0x00000000#32),
    binary main_v6 main_cst_2 main_v7 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16 ![0, 1] bcast_S16384x1_S16384x16_0_1 : (⟨S16384x1, .f32⟩ : BufTy).Contents (Elt F) → (⟨S16384x16, .f32⟩ : BufTy).Contents (Elt F)),
    binary main_v6 main_v9 main_v10 (Host.divf : (⟨S16384x16, .f32⟩ : BufTy).Contents (Elt F) → (⟨S16384x16, .f32⟩ : BufTy).Contents (Elt F) → (⟨S16384x16, .f32⟩ : BufTy).Contents (Elt F)),
    binary main_v10 main_cst main_v11 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)),
    nullary main_c (constantI S_ 32 0#32),
    unary main_c main_v12 (broadcastInDim S16384 ![] bcast_S_S16384 : (⟨S_, .i32⟩ : BufTy).Contents (Elt F) → (⟨S16384, .i32⟩ : BufTy).Contents (Elt F)),
    binary main_arg2 main_v12 main_v13 (cmpi .slt : (⟨S16384, .i32⟩ : BufTy).Contents (Elt F) → (⟨S16384, .i32⟩ : BufTy).Contents (Elt F) → (⟨S16384, .i1⟩ : BufTy).Contents (Elt F)),
    nullary main_c_3 (constantI S_ 32 8192#32),
    unary main_c_3 main_v14 (broadcastInDim S16384 ![] bcast_S_S16384 : (⟨S_, .i32⟩ : BufTy).Contents (Elt F) → (⟨S16384, .i32⟩ : BufTy).Contents (Elt F)),
    binary main_arg2 main_v14 main_v15 (addi : (⟨S16384, .i32⟩ : BufTy).Contents (Elt F) → (⟨S16384, .i32⟩ : BufTy).Contents (Elt F) → (⟨S16384, .i32⟩ : BufTy).Contents (Elt F)),
    ternary main_v13 main_v15 main_arg2 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v16 main_v17 (broadcastInDim S16384x1 ![0] bcast_S16384_S16384x1_0 : (⟨S16384, .i32⟩ : BufTy).Contents (Elt F) → (⟨S16384x1, .i32⟩ : BufTy).Contents (Elt F)),
    binary main_arg0 main_v17 main_v18 ((fun x i => Host.gather gather_S4096x8192_S16384x1_S4096x16384_0_1_n_n_1_1_40961 x i) : (⟨S4096x8192, .f32⟩ : BufTy).Contents (Elt F) → (⟨S16384x1, .i32⟩ : BufTy).Contents (Elt F) → (⟨S4096x16384, .f32⟩ : BufTy).Contents (Elt F)),
    nullary main_c_4 (constantI S_ 32 0#32),
    unary main_c_4 main_v19 (broadcastInDim S16384 ![] bcast_S_S16384 : (⟨S_, .i32⟩ : BufTy).Contents (Elt F) → (⟨S16384, .i32⟩ : BufTy).Contents (Elt F)),
    binary main_arg3 main_v19 main_v20 (cmpi .slt : (⟨S16384, .i32⟩ : BufTy).Contents (Elt F) → (⟨S16384, .i32⟩ : BufTy).Contents (Elt F) → (⟨S16384, .i1⟩ : BufTy).Contents (Elt F)),
    nullary main_c_5 (constantI S_ 32 8192#32),
    unary main_c_5 main_v21 (broadcastInDim S16384 ![] bcast_S_S16384 : (⟨S_, .i32⟩ : BufTy).Contents (Elt F) → (⟨S16384, .i32⟩ : BufTy).Contents (Elt F)),
    binary main_arg3 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_arg3 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v23 main_v24 (broadcastInDim S16384x1 ![0] bcast_S16384_S16384x1_0 : (⟨S16384, .i32⟩ : BufTy).Contents (Elt F) → (⟨S16384x1, .i32⟩ : BufTy).Contents (Elt F)),
    binary main_arg0 main_v24 main_v25 ((fun x i => Host.gather gather_S4096x8192_S16384x1_S4096x16384_0_1_n_n_1_1_40961 x i) : (⟨S4096x8192, .f32⟩ : BufTy).Contents (Elt F) → (⟨S16384x1, .i32⟩ : BufTy).Contents (Elt F) → (⟨S4096x16384, .f32⟩ : BufTy).Contents (Elt F)),
    unary main_v11 main_v26 ((extractStridedSlice S16384x1 ![0, 0] · slices_S16384x4_S16384x1_0_0) : (⟨S16384x4, .f32⟩ : BufTy).Contents (Elt F) → (⟨S16384x1, .f32⟩ : BufTy).Contents (Elt F)),
    reshape main_v26 main_v27 rfl shapeCasts_S16384x1_S16384,
    unary main_v11 main_v28 ((extractStridedSlice S16384x1 ![0, 1] · slices_S16384x4_S16384x1_0_1) : (⟨S16384x4, .f32⟩ : BufTy).Contents (Elt F) → (⟨S16384x1, .f32⟩ : BufTy).Contents (Elt F)),
    reshape main_v28 main_v29 rfl shapeCasts_S16384x1_S16384,
    unary main_v29 main_v30 (broadcastInDim S1x16384 ![1] bcast_S16384_S1x16384_1 : (⟨S16384, .f32⟩ : BufTy).Contents (Elt F) → (⟨S1x16384, .f32⟩ : BufTy).Contents (Elt F)),
    unary main_v30 main_v31 (broadcastInDim S4096x16384 ![0, 1] bcast_S1x16384_S4096x16384_0_1 : (⟨S1x16384, .f32⟩ : BufTy).Contents (Elt F) → (⟨S4096x16384, .f32⟩ : BufTy).Contents (Elt F)),
    binary main_v31 main_v18 main_v32 (mulf : (⟨S4096x16384, .f32⟩ : BufTy).Contents (Elt F) → (⟨S4096x16384, .f32⟩ : BufTy).Contents (Elt F) → (⟨S4096x16384, .f32⟩ : BufTy).Contents (Elt F)),
    unary main_v27 main_v33 (broadcastInDim S1x16384 ![1] bcast_S16384_S1x16384_1 : (⟨S16384, .f32⟩ : BufTy).Contents (Elt F) → (⟨S1x16384, .f32⟩ : BufTy).Contents (Elt F)),
    unary main_v33 main_v34 (broadcastInDim S4096x16384 ![0, 1] bcast_S1x16384_S4096x16384_0_1 : (⟨S1x16384, .f32⟩ : BufTy).Contents (Elt F) → (⟨S4096x16384, .f32⟩ : BufTy).Contents (Elt F)),
    binary main_v34 main_v32 main_v35 (addf : (⟨S4096x16384, .f32⟩ : BufTy).Contents (Elt F) → (⟨S4096x16384, .f32⟩ : BufTy).Contents (Elt F) → (⟨S4096x16384, .f32⟩ : BufTy).Contents (Elt F)),
    unary main_v11 main_v36 ((extractStridedSlice S16384x1 ![0, 2] · slices_S16384x4_S16384x1_0_2) : (⟨S16384x4, .f32⟩ : BufTy).Contents (Elt F) → (⟨S16384x1, .f32⟩ : BufTy).Contents (Elt F)),
    reshape main_v36 main_v37 rfl shapeCasts_S16384x1_S16384,
    unary main_v37 main_v38 (broadcastInDim S1x16384 ![1] bcast_S16384_S1x16384_1 : (⟨S16384, .f32⟩ : BufTy).Contents (Elt F) → (⟨S1x16384, .f32⟩ : BufTy).Contents (Elt F)),
    unary main_v38 main_v39 (broadcastInDim S4096x16384 ![0, 1] bcast_S1x16384_S4096x16384_0_1 : (⟨S1x16384, .f32⟩ : BufTy).Contents (Elt F) → (⟨S4096x16384, .f32⟩ : BufTy).Contents (Elt F)),
    binary main_v39 main_v25 main_v40 (mulf : (⟨S4096x16384, .f32⟩ : BufTy).Contents (Elt F) → (⟨S4096x16384, .f32⟩ : BufTy).Contents (Elt F) → (⟨S4096x16384, .f32⟩ : BufTy).Contents (Elt F)),
    binary main_v35 main_v40 main_v41 (addf : (⟨S4096x16384, .f32⟩ : BufTy).Contents (Elt F) → (⟨S4096x16384, .f32⟩ : BufTy).Contents (Elt F) → (⟨S4096x16384, .f32⟩ : BufTy).Contents (Elt F)),
    unary main_v11 main_v42 ((extractStridedSlice S16384x1 ![0, 3] · slices_S16384x4_S16384x1_0_3) : (⟨S16384x4, .f32⟩ : BufTy).Contents (Elt F) → (⟨S16384x1, .f32⟩ : BufTy).Contents (Elt F)),
    reshape main_v42 main_v43 rfl shapeCasts_S16384x1_S16384,
    binary main_v18 main_v25 main_v44 (mulf : (⟨S4096x16384, .f32⟩ : BufTy).Contents (Elt F) → (⟨S4096x16384, .f32⟩ : BufTy).Contents (Elt F) → (⟨S4096x16384, .f32⟩ : BufTy).Contents (Elt F)),
    unary main_v43 main_v45 (broadcastInDim S1x16384 ![1] bcast_S16384_S1x16384_1 : (⟨S16384, .f32⟩ : BufTy).Contents (Elt F) → (⟨S1x16384, .f32⟩ : BufTy).Contents (Elt F)),
    unary main_v45 main_v46 (broadcastInDim S4096x16384 ![0, 1] bcast_S1x16384_S4096x16384_0_1 : (⟨S1x16384, .f32⟩ : BufTy).Contents (Elt F) → (⟨S4096x16384, .f32⟩ : BufTy).Contents (Elt F)),
    binary main_v46 main_v44 main_v47 (mulf : (⟨S4096x16384, .f32⟩ : BufTy).Contents (Elt F) → (⟨S4096x16384, .f32⟩ : BufTy).Contents (Elt F) → (⟨S4096x16384, .f32⟩ : BufTy).Contents (Elt F)),
    binary main_v41 main_v47 main_v48 (addf : (⟨S4096x16384, .f32⟩ : BufTy).Contents (Elt F) → (⟨S4096x16384, .f32⟩ : BufTy).Contents (Elt F) → (⟨S4096x16384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-- The result buffer after the whole line, from any contents: the composed term of the four arguments. -/
theorem after_v48 (V : Valuation τ sig (Elt F)) :
    after ops V (Proc.devRef .tc main_v48)
      = refOut (V (Proc.devRef .tc main_arg0)) (V (Proc.devRef .tc main_arg1)) (V (Proc.devRef .tc main_arg2)) (V (Proc.devRef .tc main_arg3)) := by
  after_results_simp
  rfl

/-- No operation of the line writes an argument. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp

/-- On the device, for any float values, from any memory with zero counters: every weakly fair execution of
    @main terminates with the result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v48)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (after_v48 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.Hand

end
-- ==== Proof.RefLemmas.lean ====
/-
  The reference's shape operations, each read at ONE index of its result, at the program's literal shapes.

  * the index wrap: a 32-bit word below 8192, read signed, is not negative, so the select
    "if the word is negative then the word plus 8192 else the word" returns the word;
  * a vector [16384] laid out as a column [16384, 1], and as a row [1, 16384]; a one-row matrix copied down 4096 rows;
  * the gather of COLUMNS of a matrix [4096, 8192] at a column of 16384 start indices: entry (b, o) of the
    result is the matrix at row b and at the column the o-th start index names, that index read as a signed
    integer and clamped into [0, 8191]; for a word below 8192 the clamp changes nothing;
  * one column K of a [16384, 4] matrix, cut out as [16384, 1], flattened to [16384], laid out as a row and
    copied down the rows: entry (b, o) is the matrix at (o, K).
-/
import proofs.«428619_j54528904790310_2_alg».proof.ReferenceIdeal
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate

namespace Cert.ReferenceIdeal.Hand

open Idealize.ShloMosaic Idealize.ShloMosaic.ValueIdx Idealize.ShloMosaic.StableHlo.Predicate

variable {α : Type}

/-! ## The index wrap -/

/-- A word below 8192 is not negative when read signed: the wrap's select returns it unchanged. -/
theorem wrap_word (v : BitVec 32) (h : v.toNat < 8192) :
    Scalar.select (IntOp.cmpi .slt v 0#32) (IntOp.addi v 8192#32) v = v := by
  have hne : ¬ IntOp.cmpi .slt v 0#32 = 1#1 := by
    intro hc
    have h0 := (slt_iff_toNat (a := v) (b := 0#32) (by omega) (by decide)).mp hc
    simp at h0
  rw [eq_zero_of_ne_one hne, select_zero]

/-- The wrap on a whole vector of words, read at an index whose word is below 8192. -/
theorem wrap_apply (ia : IVec S16384 32) (h0 hk : S_.BroadcastsInDim S16384 (![] : Fin 0 → Fin S16384.rank))
    (i : S16384.Idx) (h : (ia i).toNat < 8192) :
    select (cmpi .slt ia (broadcastInDim S16384 ![] h0 (constantI S_ 32 0#32)))
      (addi ia (broadcastInDim S16384 ![] hk (constantI S_ 32 8192#32))) ia i = ia i :=
  wrap_word (ia i) h

/-! ## Vectors as columns and rows -/

/-- A vector [16384] laid out as a column [16384, 1]: entry (o, u) is entry o. -/
theorem bcast_col_apply (v : S16384.Idx → α) (h : S16384.BroadcastsInDim S16384x1 (![0] : Fin 1 → Fin S16384x1.rank))
    (o : Fin 16384) (u : Fin 1) : broadcastInDim S16384x1 ![0] h v (ix2 o u) = v (ix1 o) := by
  refine broadcastInDim_apply _ h v _ _ ?_
  intro a
  match a with
  | ⟨0, _⟩ => rfl

/-- A vector [16384] laid out as a row [1, 16384]: entry (r, o) is entry o. -/
theorem bcast_row_apply (v : S16384.Idx → α) (h : S16384.BroadcastsInDim S1x16384 (![1] : Fin 1 → Fin S1x16384.rank))
    (r : Fin 1) (o : Fin 16384) : broadcastInDim S1x16384 ![1] h v (ix2 r o) = v (ix1 o) := by
  refine broadcastInDim_apply _ h v _ _ ?_
  intro a
  match a with
  | ⟨0, _⟩ => rfl

/-- A column [16384, 1] flattened to [16384]: entry o is entry (o, 0). -/
theorem reshape_col_apply (v : S16384x1.Idx → α) (h : S16384x1.ShapeCasts S16384) (o : Fin 16384) :
    shapeCast S16384 v h (ix1 o) = v (ix2 o (0 : Fin 1)) :=
  shapeCast_apply v h _ _ (by
    rw [Shape.rowMajor_val_two, Shape.rowMajor_val_one]
    show o.val * 1 + 0 = o.val
    omega)

/-- Column K of a [16384, 4] matrix cut out as [16384, 1]: entry (o, u) is the matrix at (o, K). -/
theorem slice_col_apply (K : Nat) (hK : K < 4) (X : S16384x4.Idx → α) (h : S16384x4.Slices ![0, K] S16384x1)
    (o : Fin 16384) (u : Fin 1) : extractStridedSlice S16384x1 ![0, K] X h (ix2 o u) = X (ix2 o ⟨K, hK⟩) := by
  refine extractStridedSlice_apply _ X h _ _ ?_
  intro a
  have hu := u.isLt
  match a with
  | ⟨0, _⟩ => show o.val = 0 + o.val; omega
  | ⟨1, _⟩ => show K = K + u.val; omega

/-- Column K of a [16384, 4] matrix, cut out, flattened, laid out as a row and copied down 4096 rows:
    entry (b, o) is the matrix at (o, K). -/
theorem coef_bcast_apply (K : Nat) (hK : K < 4) (C : S16384x4.Idx → α)
    (hs : S16384x4.Slices ![0, K] S16384x1) (hc : S16384x1.ShapeCasts S16384)
    (h1 : S16384.BroadcastsInDim S1x16384 (![1] : Fin 1 → Fin S1x16384.rank))
    (h2 : S1x16384.BroadcastsInDim S4096x16384 (![0, 1] : Fin 2 → Fin S4096x16384.rank))
    (b : Fin 4096) (o : Fin 16384) :
    broadcastInDim S4096x16384 ![0, 1] h2
        (broadcastInDim S1x16384 ![1] h1 (shapeCast S16384 (extractStridedSlice S16384x1 ![0, K] C hs) hc)) (ix2 b o)
      = C (ix2 o ⟨K, hK⟩) := by
  rw [broadcastInDim_oneRow_apply h2 _ b o, bcast_row_apply _ h1 0 o, reshape_col_apply _ hc o,
    slice_col_apply K hK C hs o 0]

/-! ## The gather of columns -/

/-- A word below 8192, read signed and clamped into [0, 8191], is its own value. -/
theorem clamp_word (v : BitVec 32) (h : v.toNat < 8192) : min v.toInt.toNat 8191 = v.toNat := by
  rw [toInt_eq_toNat_of_lt (a := v) (by omega), Int.toNat_natCast]
  omega

section Gather
variable [Facts₀]

/-- Entry (b, o) of the gather: row b of the matrix, at the column the start index (o, 0) names, that word read
    signed and clamped into [0, 8191]. -/
theorem gather_col_apply (x : S4096x8192.Idx → α) (idx : IVec S16384x1 32) (b : Fin 4096) (o : Fin 16384) :
    Host.gather gather_S4096x8192_S16384x1_S4096x16384_0_1_n_n_1_1_40961 x idx (ix2 b o)
      = x (ix2 b ⟨min (idx (ix2 o (0 : Fin 1))).toInt.toNat 8191, by omega⟩) := by
  unfold Host.gather
  refine congrArg x (funext fun a => Fin.ext ?_)
  match a with
  | ⟨0, _⟩ =>
    show GatherDims.start gather_S4096x8192_S16384x1_S4096x16384_0_1_n_n_1_1_40961 (ix2 b o) idx 0
        + GatherDims.batchCoord gather_S4096x8192_S16384x1_S4096x16384_0_1_n_n_1_1_40961 (ix2 b o) 0
        + GatherDims.offCoord gather_S4096x8192_S16384x1_S4096x16384_0_1_n_n_1_1_40961 (ix2 b o) 0 = b.val
    rw [GatherDims.batchCoord_eq_zero _ _ _ List.not_mem_nil]
    have hs : GatherDims.start gather_S4096x8192_S16384x1_S4096x16384_0_1_n_n_1_1_40961 (ix2 b o) idx 0 = 0 := by
      unfold GatherDims.start
      rw [dif_neg]
      intro hm
      exact absurd (List.mem_singleton.mp hm) (by decide)
    have ho : GatherDims.offCoord gather_S4096x8192_S16384x1_S4096x16384_0_1_n_n_1_1_40961 (ix2 b o) 0 = b.val := by
      unfold GatherDims.offCoord
      rw [dif_pos ((GatherDims.mem_sKept _ _).mpr ⟨fun hm => absurd (List.mem_singleton.mp hm) (by decide), List.not_mem_nil⟩)]
      rfl
    rw [hs, ho]
    omega
  | ⟨1, _⟩ =>
    show GatherDims.start gather_S4096x8192_S16384x1_S4096x16384_0_1_n_n_1_1_40961 (ix2 b o) idx 1
        + GatherDims.batchCoord gather_S4096x8192_S16384x1_S4096x16384_0_1_n_n_1_1_40961 (ix2 b o) 1
        + GatherDims.offCoord gather_S4096x8192_S16384x1_S4096x16384_0_1_n_n_1_1_40961 (ix2 b o) 1
      = min (idx (ix2 o (0 : Fin 1))).toInt.toNat 8191
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ (gather_S4096x8192_S16384x1_S4096x16384_0_1_n_n_1_1_40961).startIndexMap from
      List.mem_singleton.mpr rfl)]
    have hsi : GatherDims.siIdx gather_S4096x8192_S16384x1_S4096x16384_0_1_n_n_1_1_40961 (ix2 b o)
        ⟨List.idxOf (1 : Fin 2) (gather_S4096x8192_S16384x1_S4096x16384_0_1_n_n_1_1_40961).startIndexMap,
          List.idxOf_lt_length_iff.2 (List.mem_singleton.mpr rfl)⟩ = ix2 o (0 : Fin 1) := by
      funext c
      refine Fin.ext ?_
      match c with
      | ⟨0, _⟩ => rfl
      | ⟨1, _⟩ => rfl
    rw [hsi]
    rfl

/-- Under an in-range start index the gather reads the column the word names. -/
theorem gather_col_inrange (x : S4096x8192.Idx → α) (idx : IVec S16384x1 32) (b : Fin 4096) (o : Fin 16384)
    (h : (idx (ix2 o (0 : Fin 1))).toNat < 8192) :
    Host.gather gather_S4096x8192_S16384x1_S4096x16384_0_1_n_n_1_1_40961 x idx (ix2 b o)
      = x (ix2 b ⟨(idx (ix2 o (0 : Fin 1))).toNat, h⟩) := by
  rw [gather_col_apply x idx b o]
  exact congrArg (fun c => x (ix2 b c)) (Fin.ext (clamp_word _ h))

end Gather

end Cert.ReferenceIdeal.Hand
-- ==== Proof.RefRead.lean ====
/-
  The reference's result read at an index. Entry (b, o) of the reference's result is
  (c0 + c1 * a) + c2 * b' + c3 * (a * b'), where cK is the K-th coefficient of output neuron o (column K of the
  coefficient matrix, spread along the rows) and a, b' are the entries of row b of x at the columns the two
  index tables name for neuron o. With both tables in range (every word below 8192) the wrap of a negative index
  leaves each word as it is and the gather's clamp changes nothing, so the named column is the word itself:
  the result is the specification's array, entry by entry.
-/
import proofs.«428619_j54528904790310_2_alg».proof.Proof.RefTerm
import proofs.«428619_j54528904790310_2_alg».proof.Proof.RefLemmas
import proofs.«428619_j54528904790310_2_alg».proof.Proof.Spec

namespace Cert.ReferenceIdeal.Hand

open Cert.ReferenceIdeal Idealize.ShloMosaic Idealize.ShloMosaic.ValueIdx
open Cert.ReferenceIdeal.Facts₀

/-- The wrapped table as a column, read at (o, u): for a word in range, the word itself. -/
theorem wrapCol_apply (ia : IVec S16384 32) (o : Fin 16384) (u : Fin 1) (h : (ia (ix1 o)).toNat < 8192) :
    wrapCol ia (ix2 o u) = ia (ix1 o) :=
  (bcast_col_apply _ bcast_S16384_S16384x1_0 o u).trans (wrap_apply ia bcast_S_S16384 bcast_S_S16384 (ix1 o) h)

/-- The columns of x gathered at a wrapped in-range table: entry (b, o) is x at row b and the column the
    table names for o. -/
theorem gather_wrapCol_apply (x : FVec Ideal S4096x8192 .f32) (ia : IVec S16384 32) (b : Fin 4096) (o : Fin 16384)
    (h : (ia (ix1 o)).toNat < 8192) :
    Host.gather gather_S4096x8192_S16384x1_S4096x16384_0_1_n_n_1_1_40961 x (wrapCol ia) (ix2 b o)
      = x (ix2 b (Cert.Spec.col (ia (ix1 o)))) := by
  have hw : wrapCol ia (ix2 o (0 : Fin 1)) = ia (ix1 o) := wrapCol_apply ia o 0 h
  rw [gather_col_inrange x (wrapCol ia) b o (by rw [hw]; exact h)]
  refine congrArg (fun c => x (ix2 b c)) (Fin.ext ?_)
  show (wrapCol ia (ix2 o (0 : Fin 1))).toNat = (Cert.Spec.col (ia (ix1 o))).val
  rw [hw, Cert.Spec.col_val _ h]

/-- THE REFERENCE'S RESULT IS THE SPECIFICATION'S ARRAY, for index tables in range. -/
theorem refOut_eq (x : FVec Ideal S4096x8192 .f32) (w : FVec Ideal S16384x16 .f32) (ia ib : IVec S16384 32)
    (ha : ∀ k, (ia k).toNat < 8192) (hb : ∀ k, (ib k).toNat < 8192) :
    refOut (F := Ideal) x w ia ib = Cert.Spec.G x (coefR (F := Ideal) w) ia ib := by
  funext i
  obtain ⟨b, o, rfl⟩ : ∃ (b : Fin 4096) (o : Fin 16384), i = ix2 b o := ⟨i 0, i 1, eq_ix2 i⟩
  rw [Cert.Spec.G_apply]
  unfold Cert.Spec.entry
  simp only [refOut, addf_apply, mulf_apply]
  rw [coef_bcast_apply 0 (by decide) (coefR w) slices_S16384x4_S16384x1_0_0 shapeCasts_S16384x1_S16384
      bcast_S16384_S1x16384_1 bcast_S1x16384_S4096x16384_0_1 b o,
    coef_bcast_apply 1 (by decide) (coefR w) slices_S16384x4_S16384x1_0_1 shapeCasts_S16384x1_S16384
      bcast_S16384_S1x16384_1 bcast_S1x16384_S4096x16384_0_1 b o,
    coef_bcast_apply 2 (by decide) (coefR w) slices_S16384x4_S16384x1_0_2 shapeCasts_S16384x1_S16384
      bcast_S16384_S1x16384_1 bcast_S1x16384_S4096x16384_0_1 b o,
    coef_bcast_apply 3 (by decide) (coefR w) slices_S16384x4_S16384x1_0_3 shapeCasts_S16384x1_S16384
      bcast_S16384_S1x16384_1 bcast_S1x16384_S4096x16384_0_1 b o,
    gather_wrapCol_apply x ia b o (ha (ix1 o)), gather_wrapCol_apply x ib b o (hb (ix1 o))]
  rfl

end Cert.ReferenceIdeal.Hand
-- ==== Proof.KI.Host.lean ====
/- The host stretches of the program read as values. Between the kernel regions the program runs plain tensor
   operations: first the softmax of the logits along axis 1 contracted with the 16x4 literal table (the row
   weights), later one reshape of the first region's output. Here each buffer a later region reads is stated
   as a pure term of the launch contents (or of what the first region left): the weights as the sixteen
   operations composed in the printed order, the reshaped array as the row-major recast of the region's output,
   and every argument as launched, since no host operation writes an argument. -/
import proofs.«428619_j54528904790310_2_alg».proof.Proof.Gen.KernelIdeal.Regions
import Idealize.ShloMosaic.Lib.StableHlo.Run

noncomputable section

namespace Cert.KernelIdeal.Hand

open Cert.KernelIdeal Cert.KernelIdeal.Gen Idealize.ShloMosaic Idealize.ShloMosaic.TcCoe Idealize.SL.Sem

variable {F : FTy → Type} [FloatOps F]

/-- Operations %cst … %11: the softmax of the logits along axis 1 (the row maximum subtracted, the exponential,
    the row sum divided out), then the contraction of its 16 entries with the literal table's 4 columns. -/
def coefK (w : FVec F S16384x16 .f32) : FVec F S16384x4 .f32 :=
  let cst : (⟨S16x4, .f32⟩ : BufTy).Contents (Elt F) := fun i => FloatOps.ofBits .f32 (lit0 (S16x4.rowMajor i))
  let cst_0 : (⟨S_, .f32⟩ : BufTy).Contents (Elt F) := constant S_ .f32 0xFF800000#32
  let v0 : (⟨S16384, .f32⟩ : BufTy).Contents (Elt F) := Host.reduce FloatOps.maximumf w cst_0 reducesTo_S16384x16_S16384_d1 h_S_
  let cst_1 : (⟨S_, .f32⟩ : BufTy).Contents (Elt F) := constant S_ .f32 0xFF800000#32
  let v1 : (⟨S16384, .f32⟩ : BufTy).Contents (Elt F) := broadcastInDim S16384 ![] bcast_S_S16384 cst_1
  let v2 : (⟨S16384, .f32⟩ : BufTy).Contents (Elt F) := maximumf v1 v0
  let v3 : (⟨S16384x1, .f32⟩ : BufTy).Contents (Elt F) := broadcastInDim S16384x1 ![0] bcast_S16384_S16384x1_0 v2
  let v4 : (⟨S16384x16, .f32⟩ : BufTy).Contents (Elt F) := broadcastInDim S16384x16 ![0, 1] bcast_S16384x1_S16384x16_0_1 v3
  let v5 : (⟨S16384x16, .f32⟩ : BufTy).Contents (Elt F) := subf w v4
  let v6 : (⟨S16384x16, .f32⟩ : BufTy).Contents (Elt F) := Host.exp v5
  let cst_2 : (⟨S_, .f32⟩ : BufTy).Contents (Elt F) := constant S_ .f32 0x00000000#32
  let v7 : (⟨S16384, .f32⟩ : BufTy).Contents (Elt F) := Host.reduceAdd v6 cst_2 reducesTo_S16384x16_S16384_d1 h_S_
  let v8 : (⟨S16384x1, .f32⟩ : BufTy).Contents (Elt F) := broadcastInDim S16384x1 ![0] bcast_S16384_S16384x1_0 v7
  let v9 : (⟨S16384x16, .f32⟩ : BufTy).Contents (Elt F) := broadcastInDim S16384x16 ![0, 1] bcast_S16384x1_S16384x16_0_1 v8
  let v10 : (⟨S16384x16, .f32⟩ : BufTy).Contents (Elt F) := Host.divf v6 v9
  Host.dotGeneral dot_S16384x16_S16x4_S16384x4_1_0_0_1_n_n none v10 cst

variable (m : (ℓ : Loc nD τ sig) → Buf (Elt F) ℓ) (outs : Outs (F := F))

/-- After the first host stretch the weights' buffer holds the composed term of the launched logits. -/
theorem V1_coef (c : Dev nD) :
    V1 m c (Proc.devRef .tc main_v11) = coefK (m ((c : Thread nD τ).loc main_arg1)) := by
  dsimp only [V1, V0]
  simp only [hostOps0]
  after_results
  rfl

/-- Neither the first region nor the reshape writes the weights: the second region reads them as computed. -/
theorem V3_coef (c : Dev nD) :
    V3 m outs c (Proc.devRef .tc main_v11) = coefK (m ((c : Thread nD τ).loc main_arg1)) :=
  (V3_of m outs c main_v11 (by decide)).trans <| (V2_of m outs c main_v11 (by decide)).trans (V1_coef m c)

/-- The second host stretch is one reshape: the first region's 8192x4096 output recast, in row-major order, as
    8192x32x128. -/
theorem V3_v13 (c : Dev nD) :
    V3 m outs c (Proc.devRef .tc main_v13)
      = shapeCast S8192x32x128 (outs 2 main_v12 c) shapeCasts_S8192x4096_S8192x32x128 := by
  dsimp only [V3, V2]
  simp only [hostOps1]
  after_results
  rw [Function.update_self]
  rfl

/-- No host operation writes an argument: after the first stretch the first argument is as launched. -/
theorem V1_arg0 (c : Dev nD) : V1 m c (Proc.devRef .tc main_arg0) = m ((c : Thread nD τ).loc main_arg0) :=
  (V1_of m c main_arg0 (by decide)).trans rfl

/-- Before the second region every argument still holds its launch contents. -/
theorem V3_arg0 (c : Dev nD) : V3 m outs c (Proc.devRef .tc main_arg0) = m ((c : Thread nD τ).loc main_arg0) :=
  (V3_of m outs c main_arg0 (by decide)).trans <| (V2_of m outs c main_arg0 (by decide)).trans <| (V1_of m c main_arg0 (by decide)).trans rfl
theorem V3_arg2 (c : Dev nD) : V3 m outs c (Proc.devRef .tc main_arg2) = m ((c : Thread nD τ).loc main_arg2) :=
  (V3_of m outs c main_arg2 (by decide)).trans <| (V2_of m outs c main_arg2 (by decide)).trans <| (V1_of m c main_arg2 (by decide)).trans rfl
theorem V3_arg3 (c : Dev nD) : V3 m outs c (Proc.devRef .tc main_arg3) = m ((c : Thread nD τ).loc main_arg3) :=
  (V3_of m outs c main_arg3 (by decide)).trans <| (V2_of m outs c main_arg3 (by decide)).trans <| (V1_of m c main_arg3 (by decide)).trans rfl

end Cert.KernelIdeal.Hand

end
-- ==== Proof.CoefEq.lean ====
/- The two programs' row-weight chains are one function. Both compute the softmax of the logits along axis 1 and
   contract its 16 entries with the same 16x4 literal table, by the same sixteen operations in the same order;
   the two terms differ only in the names under which each program states its shapes (the same literals), its
   side conditions (proofs), its contraction's dimension record (the same fields) and its literal table (the same
   64 words). Nothing of the softmax arithmetic is looked into: the two compositions are unfolded once and agree
   term by term. -/
import proofs.«428619_j54528904790310_2_alg».proof.Proof.KI.Host
import proofs.«428619_j54528904790310_2_alg».proof.Proof.RefTerm
import Idealize.ShloMosaic.PureOps.Ideal

noncomputable section

namespace Cert.Hand

open Idealize.ShloMosaic Idealize.SL.Sem

/-- The kernel program's weights and the reference program's weights are the same function of the logits. -/
theorem coefK_eq_coefR (w : FVec Ideal (⟨2, ![16384, 16]⟩ : Shape) .f32) :
    Cert.KernelIdeal.Hand.coefK (F := Ideal) w = Cert.ReferenceIdeal.Hand.coefR (F := Ideal) w := by
  unfold Cert.KernelIdeal.Hand.coefK Cert.ReferenceIdeal.Hand.coefR
  rfl

end Cert.Hand

end
-- ==== Proof.Claims.lean ====
/- The certificate's claims, from the three programs' runs: each program terminates with its arguments unchanged;
   at the ideal instance the kernel's result and the reference's are one function of the arguments — the affine
   form of the two gathered columns with the softmax weights contracted with the literal table — whenever the two
   index tables are in range, which the precondition says. -/
import proofs.«428619_j54528904790310_2_alg».proof.Defs
import proofs.«428619_j54528904790310_2_alg».proof.Proof.Gen.Kernel
import proofs.«428619_j54528904790310_2_alg».proof.Proof.Gen.KernelIdeal
import proofs.«428619_j54528904790310_2_alg».proof.Proof.Gen.ReferenceIdeal
import proofs.«428619_j54528904790310_2_alg».proof.Proof.Gen.Pre_finite_inputs
import proofs.«428619_j54528904790310_2_alg».proof.Proof.Spec
import proofs.«428619_j54528904790310_2_alg».proof.Proof.PreIdx
import proofs.«428619_j54528904790310_2_alg».proof.Proof.RefRun
import proofs.«428619_j54528904790310_2_alg».proof.Proof.RefRead
import proofs.«428619_j54528904790310_2_alg».proof.Proof.CoefEq
import proofs.«428619_j54528904790310_2_alg».proof.Proof.KI.Host

noncomputable section

namespace Cert.Proof.Claims

open Idealize.ShloMosaic Idealize.SL.Sem

/-! ## The index tables are in range, from the precondition -/

/-- The precondition of the idealized kernel gives both index tables in range, on each device. -/
theorem inRange_KI (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ k, (m ((c.tc : Thread Cert.KernelIdeal.nD Cert.KernelIdeal.τ).loc Cert.KernelIdeal.main_arg2) k).toNat < 8192) ∧ (∀ k, (m ((c.tc : Thread Cert.KernelIdeal.nD Cert.KernelIdeal.τ).loc Cert.KernelIdeal.main_arg3) k).toNat < 8192) :=
  Cert.Pre_finite_inputs.Hand.idx_lt (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)

/-- The same of the kernel as printed. -/
theorem inRange_K (m : (ℓ : Loc Cert.Kernel.nD Cert.Kernel.τ Cert.Kernel.sig) → Buf (Elt Bits) ℓ)
    (hpre : Cert.Pre_Kernel m) (c : Dev Cert.Kernel.nD) :
    (∀ k, (m ((c.tc : Thread Cert.Kernel.nD Cert.Kernel.τ).loc Cert.Kernel.main_arg2) k).toNat < 8192) ∧ (∀ k, (m ((c.tc : Thread Cert.Kernel.nD Cert.Kernel.τ).loc Cert.Kernel.main_arg3) k).toNat < 8192) :=
  Cert.Pre_finite_inputs.Hand.idx_lt (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (hpre c)

/-! ## The claims -/

section

/- The two kernels' runs, taken here as given: each program, from a memory whose two index tables are in range on
   the one device, terminates with its result at a named array and its arguments unchanged; the idealized kernel's
   named array is the specification's function of the arguments. -/
variable
  (OutKI : (m : (ℓ : Loc Cert.KernelIdeal.nD Cert.KernelIdeal.τ Cert.KernelIdeal.sig) → Buf (Elt Ideal) ℓ) →
    (∀ k, (m (((0 : Dev Cert.KernelIdeal.nD).tc : Thread Cert.KernelIdeal.nD Cert.KernelIdeal.τ).loc Cert.KernelIdeal.main_arg2) k).toNat < 8192) → (∀ k, (m (((0 : Dev Cert.KernelIdeal.nD).tc : Thread Cert.KernelIdeal.nD Cert.KernelIdeal.τ).loc Cert.KernelIdeal.main_arg3) k).toNat < 8192) →
    (c : Dev Cert.KernelIdeal.nD) → Buf (Elt Ideal) ((c.tc : Thread Cert.KernelIdeal.nD Cert.KernelIdeal.τ).loc Cert.KernelIdeal.main_v14))
  (runKI : ∀ (m : (ℓ : Loc Cert.KernelIdeal.nD Cert.KernelIdeal.τ Cert.KernelIdeal.sig) → Buf (Elt Ideal) ℓ) (ρ : Dev Cert.KernelIdeal.nD → PrngReg)
    (h0 : ∀ k, (m (((0 : Dev Cert.KernelIdeal.nD).tc : Thread Cert.KernelIdeal.nD Cert.KernelIdeal.τ).loc Cert.KernelIdeal.main_arg2) k).toNat < 8192) (h1 : ∀ k, (m (((0 : Dev Cert.KernelIdeal.nD).tc : Thread Cert.KernelIdeal.nD Cert.KernelIdeal.τ).loc Cert.KernelIdeal.main_arg3) k).toNat < 8192),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14) = OutKI m h0 h1 c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)))
  (valKI : ∀ (m : (ℓ : Loc Cert.KernelIdeal.nD Cert.KernelIdeal.τ Cert.KernelIdeal.sig) → Buf (Elt Ideal) ℓ)
    (h0 : ∀ k, (m (((0 : Dev Cert.KernelIdeal.nD).tc : Thread Cert.KernelIdeal.nD Cert.KernelIdeal.τ).loc Cert.KernelIdeal.main_arg2) k).toNat < 8192) (h1 : ∀ k, (m (((0 : Dev Cert.KernelIdeal.nD).tc : Thread Cert.KernelIdeal.nD Cert.KernelIdeal.τ).loc Cert.KernelIdeal.main_arg3) k).toNat < 8192) (c : Dev Cert.KernelIdeal.nD),
    OutKI m h0 h1 c = Cert.Spec.G (m ((c.tc : Thread Cert.KernelIdeal.nD Cert.KernelIdeal.τ).loc Cert.KernelIdeal.main_arg0)) (Cert.KernelIdeal.Hand.coefK (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
  (OutK : (m : (ℓ : Loc Cert.Kernel.nD Cert.Kernel.τ Cert.Kernel.sig) → Buf (Elt Bits) ℓ) →
    (∀ k, (m (((0 : Dev Cert.Kernel.nD).tc : Thread Cert.Kernel.nD Cert.Kernel.τ).loc Cert.Kernel.main_arg2) k).toNat < 8192) → (∀ k, (m (((0 : Dev Cert.Kernel.nD).tc : Thread Cert.Kernel.nD Cert.Kernel.τ).loc Cert.Kernel.main_arg3) k).toNat < 8192) →
    (c : Dev Cert.Kernel.nD) → Buf (Elt Bits) ((c.tc : Thread Cert.Kernel.nD Cert.Kernel.τ).loc Cert.Kernel.main_v14))
  (runK : ∀ (m : (ℓ : Loc Cert.Kernel.nD Cert.Kernel.τ Cert.Kernel.sig) → Buf (Elt Bits) ℓ) (ρ : Dev Cert.Kernel.nD → PrngReg)
    (h0 : ∀ k, (m (((0 : Dev Cert.Kernel.nD).tc : Thread Cert.Kernel.nD Cert.Kernel.τ).loc Cert.Kernel.main_arg2) k).toNat < 8192) (h1 : ∀ k, (m (((0 : Dev Cert.Kernel.nD).tc : Thread Cert.Kernel.nD Cert.Kernel.τ).loc Cert.Kernel.main_arg3) k).toNat < 8192),
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_v14) = OutK m h0 h1 c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)))

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

include runKI in
/-- The idealized kernel terminates with its arguments unchanged: its run at the in-range tables, the result dropped. -/
theorem frame_ki : Cert.frame_KernelIdeal := fun m ρ hpre =>
  (θ_run Cert.KernelIdeal.defs _ _).mono (fun _ h c => (h c).2)
    (runKI m ρ (inRange_KI m hpre 0).1 (inRange_KI m hpre 0).2)

include runK in
/-- The kernel as printed terminates with its arguments unchanged. -/
theorem frame_k : Cert.frame_Kernel := fun m ρ hpre =>
  (θ_run Cert.Kernel.defs _ _).mono (fun _ h c => (h c).2)
    (runK m ρ (inRange_K m hpre 0).1 (inRange_K m hpre 0).2)

/-- The idealization rewrote no operation. -/
theorem preserves : Cert.preserves_Kernel_KernelIdeal := trivial

include runKI valKI in
/-- At the ideal instance, from memories agreeing on the arguments, the kernel's result array and the reference's end
    equal: the kernel's is the specification's function of the arguments with the kernel program's weights, the
    reference's composed term reads, the tables being in range, as the same function with the reference program's
    weights, and the two programs' weights are one function of the logits. -/
theorem algebraic : Cert.algebraic_KernelIdeal_ReferenceIdeal := by
  intro m ρ m' ρ' hpre hagree
  refine ⟨fun c => OutKI m (inRange_KI m hpre 0).1 (inRange_KI m hpre 0).2 c,
    runKI m ρ (inRange_KI m hpre 0).1 (inRange_KI m hpre 0).2, ?_⟩
  refine (θ_run Cert.ReferenceIdeal.defs _ _).mono (fun _ h c => ⟨(h c).1.trans ?_, (h c).2⟩)
    (Cert.ReferenceIdeal.Hand.run (F := Ideal) m' ρ')
  have hc := inRange_KI m hpre c
  rw [(hagree c).1, (hagree c).2.1, (hagree c).2.2.1, (hagree c).2.2.2,
    Cert.ReferenceIdeal.Hand.refOut_eq _ _ _ _ hc.1 hc.2, ← Cert.Hand.coefK_eq_coefR]
  exact (valKI m (inRange_KI m hpre 0).1 (inRange_KI m hpre 0).2 c).symm

include runKI valKI runK in
theorem claim : Cert.Claim :=
  ⟨Cert.Kernel.Gen.facts, Cert.KernelIdeal.Gen.facts, Cert.ReferenceIdeal.Gen.facts, Cert.Pre_finite_inputs.Gen.facts,
    frame_k OutK runK, frame_ki OutKI runKI, frame_ri, preserves, algebraic OutKI runKI valKI⟩

end

end Cert.Proof.Claims

end
-- ==== Proof.KI.Region0.lean ====
/- REGION 0 of the program's @main: the first TensorCore pallas_call, the blockwise transpose (pipeline 0,
   grid [4, 8]). Window 0 reads the [1024, 1024] block (i, j) of the input array, window 1 writes the
   [1024, 1024] block (j, i) of the output array, and the body stores the transpose of the block it loads.
   Everything is stated at a PARAMETER `V`, the TensorCore's buffer contents when the region is entered:
   each window's block at a grid point, what the body leaves in the output window's buffer, the body's
   triple, the pipeline's proof data and the body obligation at every grid point. -/
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    input array is the entry contents and whose body leaves the input block in place: the window is
    fetched at every point it moves, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [1024, 1024] block -/

abbrev r0_0 : Rect S1024x1024 := Rect.unit (s := S1024x1024) ![0, 0] S1024x1024.size inb_S1024x1024_S1024x1024_0_0

/-! ## What the body leaves in the output window's buffer -/

/-- The output window's staging buffer after the body, from the input block: the single whole-block store
    of the transposed load. -/
def out0_1 (x0 : Vec F S1024x1024 .f32) : Vec F S1024x1024 .f32 :=
  View.canon [⟨r0_0, k0_pay1 (View.ld x0 r0_0)⟩]

/-- The single store is the whole block, so it covers the buffer. -/
theorem cover0_1 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg2 : Memref sig .tc .vmem S1024x1024 .f32) (harg2 : arg2.IsWhole) (arg3 : Memref sig .tc .vmem S1024x1024 .f32) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them; after the body at point
    `t` the input's buffer at its block and the output's at the transposed block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second launch's body, in its two control cases

The second launch walks the 16384 output neurons in 128 blocks of 128: grid point `(g, j)` serves neuron `128 g + j`.
Its body loads the two gathered `[1, 32, 128]` rows `a`, `b` (a row of the re-laid transposed input is a column of the
input) and row `j` of the block's `[128, 4]` coefficients `(c0, c1, c2, c3)`, forms `((c0 + c1*a) + c2*b) + c3*(a*b)`
entry by entry, and stores it as row `j` of a `[128, 32, 128]` accumulator that lives across the points of the block.
Only when `j = 127` does it go on: it reads the whole accumulator, rotates its axes `[j, r, q] ↦ [r, q, j]`, flattens
`(r, q)` to the row `128 r + q` and stores the `[4096, 128]` result over the output block. The two cases are stated
over arbitrary whole staging memrefs and arbitrary prior contents of the accumulator: what the accumulator holds
afterwards is the one row written over what it held. -/

section Body

/-! ## The body's accesses -/

/-- A whole `[1,32,128]` staging block. -/
abbrev rA : Rect S1x32x128 := Rect.unit (s := S1x32x128) ![0, 0, 0] S1x32x128.size inb_S1x32x128_S1x32x128_0_0_0
/-- Row `j` of the `[128,4]` coefficient block: the four coefficients of the point's neuron. -/
abbrev rC (i : grid1.Coords) : Rect S128x4 := Rect.unit (s := S128x4) (k1_off2 i) S1x4.size (k1_off2_inb i)
/-- Row `j` of the `[128,32,128]` accumulator. -/
abbrev rRow (i : grid1.Coords) : Rect S128x32x128 := Rect.unit (s := S128x32x128) (k1_off3 i) S1x32x128.size (k1_off3_inb i)
/-- The whole accumulator. -/
abbrev rScr : Rect S128x32x128 := Rect.unit (s := S128x32x128) ![0, 0, 0] S128x32x128.size inb_S128x32x128_S128x32x128_0_0_0
/-- The whole `[4096,128]` output block. -/
abbrev rOut : Rect S4096x128 := Rect.unit (s := S4096x128) ![0, 0] S4096x128.size inb_S4096x128_S4096x128_0_0

/-- What a point stores into its accumulator row: the affine form of the two gathered blocks with the four
    coefficients of the point's neuron (the skeleton's payload of the three loads). -/
def row1 (i : grid1.Coords) (x0 x1 : Vec F S1x32x128 .f32) (x2 : Vec F S128x4 .f32) : Vec F S1x32x128 .f32 :=
  k1_pay1 (View.ld x0 rA) (View.ld x1 rA) (View.ld x2 (rC i))

/-- What the last point of a block of 128 neurons stores into the output block, from the accumulator as it then
    reads: the accumulator's axes rotated and flattened, as the canon of the one whole store. -/
def out3 (S : Vec F S128x32x128 .f32) : Vec F S4096x128 .f32 :=
  View.canon [⟨rOut, k1_pay2 (View.ld S rScr)⟩]

theorem cover3 (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triples, by case of its one conditional -/

set_option maxHeartbeats 1000000 in
/-- At a point that is not the last of its block the body reads its three input blocks and overwrites its own row of
    the accumulator; the output block's buffer is not touched. -/
theorem sound_kernel1_A (c : Dev nD) (E : Set ℕ) (i : grid1.Coords) (hi : ¬ k1_cond1 i = 1#1)
    (arg4 : Memref sig .tc .vmem S1x32x128 .f32) (harg4 : arg4.IsWhole) (arg5 : Memref sig .tc .vmem S1x32x128 .f32) (harg5 : arg5.IsWhole)
    (arg6 : Memref sig .tc .vmem S128x4 .f32) (harg6 : arg6.IsWhole) (arg7 : Memref sig .tc .vmem S4096x128 .f32) (harg7 : arg7.IsWhole)
    (arg8 : Memref sig .tc .vmem S128x32x128 .f32) (harg8 : arg8.IsWhole)
    (x0 x1 : Vec F S1x32x128 .f32) (x2 : Vec F S128x4 .f32) (fs : arg8.view.ty.Contents (Elt F))
    (K : PUnit → sProp 𝕄) :
    iprop(owns (c : Thread nD τ) arg4 fullShare x0 ∗ owns (c : Thread nD τ) arg5 fullShare x1 ∗ owns (c : Thread nD τ) arg6 fullShare x2
        ∗ (arg8.view.loc (c : Thread nD τ) ↦[arg8.view.set]{fullShare} fs)
        ∗ (iprop(owns (c : Thread nD τ) arg4 fullShare x0 ∗ owns (c : Thread nD τ) arg5 fullShare x1 ∗ owns (c : Thread nD τ) arg6 fullShare x2
            ∗ (arg8.view.loc (c : Thread nD τ) ↦[arg8.view.set]{fullShare} arg8.view.writes (Elt F) fs [⟨rRow i, row1 i x0 x1 x2⟩])) -∗ K ⟨⟩))
      ⊢ wp frame (wpE (defs₀ (F := F)) Variants.none c none) E (cc1__gather_kernel i (Memref.whole main_arg2) (Memref.isWhole_whole _) (Memref.whole main_arg3) (Memref.isWhole_whole _) arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, Hs, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact Hs

set_option maxHeartbeats 1000000 in
/-- At the last point of a block the body, after overwriting its row, reads the whole accumulator and stores it,
    re-laid, over the whole output block. -/
theorem sound_kernel1_B (c : Dev nD) (E : Set ℕ) (i : grid1.Coords) (hi : k1_cond1 i = 1#1)
    (arg4 : Memref sig .tc .vmem S1x32x128 .f32) (harg4 : arg4.IsWhole) (arg5 : Memref sig .tc .vmem S1x32x128 .f32) (harg5 : arg5.IsWhole)
    (arg6 : Memref sig .tc .vmem S128x4 .f32) (harg6 : arg6.IsWhole) (arg7 : Memref sig .tc .vmem S4096x128 .f32) (harg7 : arg7.IsWhole)
    (arg8 : Memref sig .tc .vmem S128x32x128 .f32) (harg8 : arg8.IsWhole)
    (x0 x1 : Vec F S1x32x128 .f32) (x2 : Vec F S128x4 .f32) (fs : arg8.view.ty.Contents (Elt F))
    (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d)
        ∗ (arg8.view.loc (c : Thread nD τ) ↦[arg8.view.set]{fullShare} fs)
        ∗ (iprop(owns (c : Thread nD τ) arg4 fullShare x0 ∗ owns (c : Thread nD τ) arg5 fullShare x1 ∗ owns (c : Thread nD τ) arg6 fullShare x2
            ∗ owns (c : Thread nD τ) arg7 fullShare (out3 (arg8.view.read (Elt F) (arg8.view.writes (Elt F) fs [⟨rRow i, row1 i x0 x1 x2⟩])))
            ∗ (arg8.view.loc (c : Thread nD τ) ↦[arg8.view.set]{fullShare} arg8.view.writes (Elt F) fs [⟨rRow i, row1 i x0 x1 x2⟩])) -∗ K ⟨⟩))
      ⊢ wp frame (wpE (defs₀ (F := F)) Variants.none c none) E (cc1__gather_kernel i (Memref.whole main_arg2) (Memref.isWhole_whole _) (Memref.whole main_arg3) (Memref.isWhole_whole _) arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, Hs, Hk⟩
  subst hf0 hf1 hf2
  sl_exec
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexact Hs

end Body

end Cert.KernelIdeal.Hand

end
-- ==== Proof.KI.Data1.lean ====
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import proofs.«428619_j54528904790310_2_alg».proof.Proof.KI.Body1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the second launch

What the second launch leaves, point by point. The input windows are only read: after the body each still holds its
block (`iblk1`). Point `t = 128 g + j` computes one accumulator row, `rowAt t`, from its three blocks. The accumulator
is carried from point to point inside a block of 128 points, so it is described by an invariant rather than a value:
before point `t`, the rows `j' < t % 128` hold `rowAt (128 g + j')`, the others anything (`ScrInv`; at the first point
of a block it says nothing, which is why the accumulator may enter the region holding anything). Once the block's
last point has stored its row the accumulator is `accOf t`, row `j'` being `rowAt (128 g + j')`, and the output block
is its re-laying `out3 (accOf t)` — consulted only at those points, the only ones that write the block back. The array
the two gathered windows share is held half and half (`q`), the coefficient array and the output array whole. -/

/-! ## The proof data of the second pallas_call, at the region-entry contents `V` and admissible tables `a` -/

section Data

/-- The accumulator's buffer as a whole memref. -/
abbrev mscr : Memref sig .tc .vmem S128x32x128 .f32 := Memref.whole cc1_scratch0
theorem mscr_whole : (mscr).IsWhole := Memref.isWhole_whole _

variable (V : (c : Dev nD) → (b : Ref sig .tc) → Buf (Elt F) ((c : Thread nD τ).loc b))
variable (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The three input blocks at a point, at their literal types: the row of the re-laid transposed input the first table
    names, the row the second table names, and the block of 128 neurons' coefficients. -/
abbrev xa (c : Dev nD) (t : Fin (cfg1 a).N) : Vec F S1x32x128 .f32 := iblk1 V a c 0 t
abbrev xb (c : Dev nD) (t : Fin (cfg1 a).N) : Vec F S1x32x128 .f32 := iblk1 V a c 1 t
abbrev xc (c : Dev nD) (t : Fin (cfg1 a).N) : Vec F S128x4 .f32 := iblk1 V a c 2 t

/-- The accumulator row point `t` computes. -/
def rowAt (c : Dev nD) (t : Fin (cfg1 a).N) : Vec F S1x32x128 .f32 :=
  row1 ((cfg1 a).grid.coords t) (xa V a c t) (xb V a c t) (xc V a c t)

/-- The point of `t`'s block of 128 neurons whose position in the block is `j`. -/
def blockPoint (t : Fin (cfg1 a).N) (j : Fin 128) : Fin (cfg1 a).N :=
  ⟨t.val / 128 * 128 + j.val, by
    have h : (cfg1 a).N = 16384 := N_1
    have := t.isLt; have := j.isLt; omega⟩

/-- The accumulator once every point of `t`'s block has stored its row: row `j` is what the block's `j`-th point computes. -/
def accOf (c : Dev nD) (t : Fin (cfg1 a).N) : Vec F S128x32x128 .f32 :=
  fun y => rowAt V a c (blockPoint a t (y 0)) (ValueIdx.ix3 (0 : Fin 1) (y 1) (y 2))

/-- What the accumulator's buffer holds before point `t` (after point `t - 1`): the rows of the block's points already
    run are theirs; the other rows hold anything. -/
def ScrInv (c : Dev nD) (t : Fin ((cfg1 a).N + 1)) (fs : mscr.view.ty.Contents (Elt F)) : Prop :=
  ∀ (h : t.val < (cfg1 a).N) (y : S128x32x128.Idx), (y 0).val < t.val % 128 → mscr.view.read (Elt F) fs y = accOf V a c ⟨t.val, h⟩ y

/-- The region's invariant between points: the scoped buffers the second pallas_call does not stage, the accumulator
    among them at contents satisfying `ScrInv`; the two tables whole; the generator register. -/
def Phi1 (c : Dev nD) (t : Fin ((cfg1 a).N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ fs : mscr.view.ty.Contents (Elt F), ⌜ScrInv V a c t fs⌝ ∗ (mscr.view.loc (c : Thread nD τ) ↦[mscr.view.set]{fullShare} fs))
    ∗ Pipeline.prefHeld (Ix := Unit) (Name := ℕ) (U := UR sig nD τ) (Lvl := ℕ) pre1 c (fun _ => fullShare) a.1
    ∗ ∃ r, prngReg c r)

/-- The proof data: the arrays as the region finds them; after the body each input's buffer at its block, the output's at
    the re-laid accumulator of the point's block (consulted only where the body stores it: the last point of each block);
    the invariant `Phi1`; the array shared by the two gathered windows held half and half; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out3 (accOf V a c t)
  Φ t := Phi1 V a c t
  q w := match w with
    | ⟨0, _⟩ => fullShare.left
    | ⟨1, _⟩ => fullShare.right
    | ⟨2, _⟩ => fullShare
    | ⟨3, _⟩ => fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = out3 (accOf V a c t) := by dsimp only [dat1]; rfl
theorem q1_0 (c : Dev nD) : (dat1 V a c).q 0 = fullShare.left := by dsimp only [dat1]; rfl
theorem q1_1 (c : Dev nD) : (dat1 V a c).q 1 = fullShare.right := by dsimp only [dat1]; rfl
theorem q1_2 (c : Dev nD) : (dat1 V a c).q 2 = fullShare := by dsimp only [dat1]; rfl
theorem owed1 (c : Dev nD) (t) : (dat1 V a c).owed t = 0 := by dsimp only [dat1]
theorem Phi_eq1 (c : Dev nD) (t) : (dat1 V a c).Φ t = Phi1 V a c t := by dsimp only [dat1]

end Data

end Cert.KernelIdeal.Hand

end
-- ==== Proof.KI.Split1.lean ====
/-
  The second launch's array holdings, at entry and at exit. Its four windows name three buffers: input windows
  0 and 1 both read one array, input window 2 another, and the output window 3 a third. A TensorCore's unscoped
  buffers, each held whole at the full share, are the three buffers behind the windowed arrays, the two prefetched
  index tables, and the rest. At entry the full share of the twice-read array is split into its left and right
  halves, one for each of the two windows that read it; the other two arrays go whole to their windows. At exit
  the two halves, at the same unchanged contents, make the full share again, the output array holds what the
  pipeline left in it, and every other buffer is as it was.
-/
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

/-- The buffers behind the second launch's four windowed arrays are three: windows 0 and 1 read one array. -/
theorem arrImage1 : Finset.univ.image (Pipeline.arrRef spec1) = [main_v13, main_v11, main_v14].toFinset := by decide

/-- A TensorCore's unscoped buffers at contents V, dealt for the second launch: the three buffers behind its
    windowed arrays, its two prefetched tables, and the rest. -/
theorem unscopedBufs_eq1 (a : (pcfg1 (F := F)).Adm) (c : Dev nD) (V : (b : Ref sig .tc) → Buf (Elt F) ((c : Thread nD τ).loc b)) :
    (unscopedBufs c V : sProp 𝕄) = iprop(
      ((((c : Thread nD τ).loc main_v13) ↦{fullShare} V main_v13) ∗ (((c : Thread nD τ).loc main_v11) ↦{fullShare} V main_v11)
        ∗ (((c : Thread nD τ).loc main_v14) ↦{fullShare} V main_v14))
      ∗ Pipeline.prefHeld pre1 c (fun _ => fullShare) (fun k => V (pre1.ref k)) ∗ Pipeline.unscopedRestP pre1 spec1 c V) := by
  rw [Pipeline.PerCore.unscopedBufs_split₀ (fun (_ : Dev nD) (_ : Unit) => cfg1 a) () c winFacts₀1.arr_unscoped V]
  show iprop(Pipeline.arrBufs spec1 c V ∗ Pipeline.unscopedRest spec1 c V) = _
  rw [Pipeline.unscopedRest_split preFacts1 c V]
  unfold Pipeline.arrBufs
  rw [bigSep_eq_bigSepL_of_eq [main_v13, main_v11, main_v14] arrImage1 (by decide)]
  rfl

variable (a : (pcfg1 (F := F)).Adm) (c : Dev nD)
variable (dat : Dat τ (Elt F) Unit ℕ (UR sig nD τ) ℕ (cfg1 a) c)

/-- The pipeline's windowed arrays, window by window: each array is a whole buffer, held at the window's share;
    windows 0 and 1 hold the two halves of one buffer. -/
theorem arrays_eq1 (hq0 : dat.q 0 = fullShare.left) (hq1 : dat.q 1 = fullShare.right) (hq2 : dat.q 2 = fullShare)
    (F₀ : (w : Fin (cfg1 a).W) → Buf (Elt F) (((cfg1 a).win w).arr.view.loc (c : Thread nD τ))) :
    (dat.arrays F₀ : sProp 𝕄) = iprop(
        (((c : Thread nD τ).loc main_v13) ↦{fullShare.left} F₀ 0) ∗ (((c : Thread nD τ).loc main_v13) ↦{fullShare.right} F₀ 1)
        ∗ (((c : Thread nD τ).loc main_v11) ↦{fullShare} F₀ 2) ∗ (((c : Thread nD τ).loc main_v14) ↦{fullShare} F₀ 3)) := by
  have s0 : dat.share 0 = fullShare.left := by unfold Dat.share; exact hq0
  have s1 : dat.share 1 = fullShare.right := by unfold Dat.share; exact hq1
  have s2 : dat.share 2 = fullShare := by unfold Dat.share; exact hq2
  have s3 : dat.share 3 = fullShare := by unfold Dat.share; rfl
  unfold Dat.arrays
  refine (bigSep_congr (Ψ := fun w => (((cfg1 a).win w).arr.view.loc (c : Thread nD τ)) ↦{dat.share w} F₀ w)
    fun w _ => by rw [(arr_whole1 w).set_eq_univ]).trans ?_
  refine (bigSep_W1 _).trans ?_
  show iprop((_ ↦{dat.share 0} F₀ 0) ∗ (_ ↦{dat.share 1} F₀ 1) ∗ (_ ↦{dat.share 2} F₀ 2) ∗ (_ ↦{dat.share 3} F₀ 3)) = _
  rw [s0, s1, s2, s3]
  rfl

variable (V V' : (b : Ref sig .tc) → Buf (Elt F) ((c : Thread nD τ).loc b))

/-- Entering the second launch: the full share of the array windows 0 and 1 both read is dealt to them as its two
    halves; the other two arrays go whole to their windows; the tables and the rest stay as they are. -/
theorem entry1 (hq0 : dat.q 0 = fullShare.left) (hq1 : dat.q 1 = fullShare.right) (hq2 : dat.q 2 = fullShare)
    (F₀ : (w : Fin (cfg1 a).W) → Buf (Elt F) (((cfg1 a).win w).arr.view.loc (c : Thread nD τ)))
    (hF : ∀ w, F₀ w = V (Pipeline.arrRef spec1 w)) :
    (unscopedBufs c V : sProp 𝕄) ⊢ iprop(dat.arrays F₀ ∗ Pipeline.prefHeld pre1 c (fun _ => fullShare) (fun k => V (pre1.ref k))
      ∗ Pipeline.unscopedRestP pre1 spec1 c V) := by
  rw [unscopedBufs_eq1 a c V, arrays_eq1 a c dat hq0 hq1 hq2 F₀, hF 0, hF 1, hF 2, hF 3]
  iintro ⟨⟨H13, H11, H14⟩, HP, HR⟩
  ihave H := (pointsTo_share (PosShare.mem_left_op_right fullShare)).1 $$ H13
  icases H with ⟨Hl, Hr⟩
  isplitl [Hl Hr H11 H14]
  · isplitl [Hl]; · iexact Hl
    isplitl [Hr]; · iexact Hr
    isplitl [H11]; · iexact H11
    iexact H14
  · isplitl [HP]; · iexact HP
    iexact HR

/-- Leaving the second launch: the two halves of the shared array, unchanged, are the full share again; the output
    array holds what the pipeline left in it; everything else is as it was. -/
theorem exit1 (hq0 : dat.q 0 = fullShare.left) (hq1 : dat.q 1 = fullShare.right) (hq2 : dat.q 2 = fullShare)
    (F₁ : (w : Fin (cfg1 a).W) → Buf (Elt F) (((cfg1 a).win w).arr.view.loc (c : Thread nD τ)))
    (h0 : F₁ 0 = V main_v13) (h1 : F₁ 1 = V main_v13) (h2 : F₁ 2 = V main_v11)
    (hV' : ∀ b, b ≠ main_v14 → V' b = V b) (h3 : V' main_v14 = F₁ 3) :
    iprop(dat.arrays F₁ ∗ Pipeline.prefHeld pre1 c (fun _ => fullShare) (fun k => V (pre1.ref k))
      ∗ Pipeline.unscopedRestP pre1 spec1 c V) ⊢ (unscopedBufs c V' : sProp 𝕄) := by
  have eP : (fun k => V' (pre1.ref k)) = (fun k => V (pre1.ref k)) := funext fun k => hV' _ (preFacts1.disj k 3)
  have eR : (Pipeline.unscopedRestP pre1 spec1 c V' : sProp 𝕄) = Pipeline.unscopedRestP pre1 spec1 c V := by
    unfold Pipeline.unscopedRestP
    refine bigSep_congr fun b hb => ?_
    have hb' : b ≠ main_v14 := fun e =>
      (Finset.mem_sdiff.mp (Finset.mem_sdiff.mp hb).1).2 (Finset.mem_image.mpr ⟨3, Finset.mem_univ _, e.symm⟩)
    rw [hV' b hb']
  rw [unscopedBufs_eq1 a c V', arrays_eq1 a c dat hq0 hq1 hq2 F₁, h0, h1, h2, ← h3, eP, eR,
    hV' main_v13 (by decide), hV' main_v11 (by decide)]
  iintro ⟨⟨Hl, Hr, H11, H14⟩, HP, HR⟩
  isplitl [Hl Hr H11 H14]
  · isplitl [Hl Hr]
    · iapply (pointsTo_share (PosShare.mem_left_op_right fullShare)).2
      isplitl [Hl]; · iexact Hl
      iexact Hr
    isplitl [H11]; · iexact H11
    iexact H14
  · isplitl [HP]; · iexact HP
    iexact HR

end Split1

end Cert.KernelIdeal.Hand

end
-- ==== Proof.KI.Ok.lean ====
/-
  The second launch's side condition on its two prefetched index tables, from a bound on their words. At each
  grid point the block index of either gathered window is (t, 0, 0), t the table word at the offset the point
  names, read unsigned; the block is [1, 32, 128] of an [8192, 32, 128] array, so it is inside the array exactly
  when t + 1 ≤ 8192 (the other two axes hold one block each: 1·32 ≤ 32, 1·128 ≤ 128). Every word of each table
  is below 8192, in particular the one read, whichever index that is. The element type is 32 bits wide, so the
  transfer ends are word-exact.
-/
import proofs.«428619_j54528904790310_2_alg».proof.KernelIdeal

set_option maxRecDepth 16384

noncomputable section

namespace Cert.KernelIdeal.Hand

open Cert.KernelIdeal
open Idealize.ShloMosaic Idealize.SL.Sem

variable {F : FTy → Type} [FloatOps F] [Facts₀]
open Facts₀

/-- The block (t, 0, 0) of extents [1, 32, 128] is inside the [8192, 32, 128] array when t < 8192. -/
theorem block_inb (t : Nat) (ht : t < 8192) :
    ∀ a : Fin 3, ((![t, (0#32 : BitVec 32).toNat, (0#32 : BitVec 32).toNat] : Fin 3 → Nat) a + 1) * S1x32x128.size a
      ≤ S8192x32x128.size a := by
  intro a
  have z : (0#32 : BitVec 32).toNat = 0 := rfl
  fin_cases a
  · show (t + 1) * 1 ≤ 8192
    omega
  · show ((0#32 : BitVec 32).toNat + 1) * 32 ≤ 32
    rw [z]
  · show ((0#32 : BitVec 32).toNat + 1) * 128 ≤ 128
    rw [z]

/-- The side condition holds of any table contents whose words are all below 8192. -/
theorem ok1_of_lt (pf : pre1.Contents (Elt F)) (h0 : ∀ k, ((pf 0) k).toNat < 8192)
    (h1 : ∀ k, ((pf 1) k).toNat < 8192) : ok1 pf := by
  refine ⟨fun i => ⟨fun a => ?_, Or.inl rfl⟩, fun i => ⟨fun a => ?_, Or.inl rfl⟩⟩
  · unfold cc1_transform_0
    exact block_inb _ (h0 _) a
  · unfold cc1_transform_1
    exact block_inb _ (h1 _) a

end Cert.KernelIdeal.Hand

end
-- ==== Proof.KI.Sched1.lean ====
/-
  The second pipeline's schedule over its 128 × 128 grid, in closed form.

  Point t of the grid (row-major, last axis fastest) has coordinates (g, j) = (t / 128, t % 128).
  The words the index maps and the body compute from the coordinates are small, so 32-bit
  arithmetic on them is arithmetic on the naturals: 128 * g + j = t is the position the two
  prefetched tables are read at, j is the row of the coefficient block and of the scratch buffer,
  and the body's store into the output block is guarded by j = 127. The output block is
  (0, g): it changes exactly after the points with j = 127, which are the points where the
  output is written back, and the only points where the body stores into it.
-/
import proofs.«428619_j54528904790310_2_alg».proof.Proof.Gen.KernelIdeal.Launch
import proofs.«428619_j54528904790310_2_alg».proof.Proof.Gen.KernelIdeal.Points
import Idealize.ShloMosaic.Lib.ValueIdx
import Idealize.ShloMosaic.Lib.Pipeline.Cells

namespace Cert.KernelIdeal.Hand

open Cert.KernelIdeal Cert.KernelIdeal.Gen Idealize.ShloMosaic

variable {F : FTy → Type} [FloatOps F]

/-! ## Small words -/

/-- A natural below 2³² is the value of its 32-bit word. -/
theorem toNat_ofNat_small (n : Nat) (h : n < 2 ^ 32) : (BitVec.ofNat 32 n).toNat = n := by
  rw [BitVec.toNat_ofNat]; exact Nat.mod_eq_of_lt h

/-- The word 128 * g + j, for g, j below 128, has that value. -/
theorem off1_word (g j : Nat) (hg : g < 128) (hj : j < 128) :
    (Scalar.indexCast (Scalar.addi (Scalar.muli (BitVec.ofNat 32 g) 128#32) (BitVec.ofNat 32 j))).toNat = g * 128 + j := by
  unfold Scalar.indexCast Scalar.addi Scalar.muli IntOp.addi IntOp.muli
  rw [BitVec.toNat_add, BitVec.toNat_mul, toNat_ofNat_small g (by omega), toNat_ofNat_small j (by omega)]
  show (g * 128 % 2 ^ 32 + j) % 2 ^ 32 = g * 128 + j
  omega

/-- The store's guard, computed on the word of j below 128: it holds exactly when j = 127. -/
theorem cond1_word (n : Nat) (hn : n < 128) :
    Scalar.cmpi .ne (Scalar.extui (Scalar.cmpi .eq (BitVec.ofNat 32 n) 127#32)) 0#32 = 1#1 ↔ n = 127 := by
  by_cases h : n = 127
  · subst h
    simp only [iff_true]
    decide
  · have hne : ¬ BitVec.ofNat 32 n = 127#32 := by
      intro he
      have h2 := congrArg BitVec.toNat he
      rw [toNat_ofNat_small n (by omega)] at h2
      exact h h2
    have hb : (BitVec.ofNat 32 n == 127#32) = false := beq_eq_false_iff_ne.mpr hne
    have h0 : Scalar.cmpi .eq (BitVec.ofNat 32 n) 127#32 = 0#1 := by
      show BitVec.ofBool (BitVec.ofNat 32 n == 127#32) = 0#1
      rw [hb]
      rfl
    rw [h0]
    simp only [h, iff_false]
    decide

/-! ## The index maps, the offsets and the guard as functions of the coordinates -/

theorem cond1_iff (i : grid1.Coords) : k1_cond1 i = 1#1 ↔ (i 1).val = 127 :=
  cond1_word (i 1).val (i 1).isLt

theorem off2_eq (i : grid1.Coords) : k1_off2 i = ![(i 1).val, 0] := k1_off2_eq i

theorem off3_eq (i : grid1.Coords) : k1_off3 i = ![(i 1).val, 0, 0] := k1_off3_eq i

theorem off1_eq (i : grid1.Coords) : k1_off1 i = ![(i 0).val * 128 + (i 1).val] := by
  have hg : (i 0).val < 128 := (i 0).isLt
  have hj : (i 1).val < 128 := (i 1).isLt
  show ![(Scalar.indexCast (Scalar.addi (Scalar.muli (BitVec.ofNat 32 (i 0).val) 128#32) (BitVec.ofNat 32 (i 1).val))).toNat] = _
  rw [off1_word _ _ hg hj]

theorem transform2_eq (i : grid1.Coords) : cc1_transform_2 i = ![(i 0).val, 0] := by
  have hg : (i 0).val < 128 := (i 0).isLt
  show ![(BitVec.ofNat 32 (i 0).val).toNat, (0#32).toNat] = _
  rw [toNat_ofNat_small (i 0).val (by omega)]
  rfl

theorem transform3_eq (i : grid1.Coords) : cc1_transform_3 i = ![0, (i 0).val] := by
  have hg : (i 0).val < 128 := (i 0).isLt
  show ![(0#32).toNat, (BitVec.ofNat 32 (i 0).val).toNat] = _
  rw [toNat_ofNat_small (i 0).val (by omega)]
  rfl

/-- A rank-2 block index with first coordinate 0 is determined by its second coordinate. -/
theorem vec2_ne_iff (x y : Nat) : (![0, x] : Fin 2 → Nat) ≠ ![0, y] ↔ x ≠ y := by
  constructor
  · intro h hxy
    exact h (by rw [hxy])
  · intro h he
    exact h (congrFun he 1)

/-! ## The pipeline at any admissible contents of the two tables -/

section AtContents
variable (a : (pcfg1 (F := F)).Adm)

/-- The grid has 16384 points. -/
theorem lt1 (t : Fin (cfg1 a).N) : t.val < 16384 := by
  have h : t.val < grid1.N := t.isLt
  rwa [N_1] at h

theorem coords1_0 (t : Fin (cfg1 a).N) : (((cfg1 a).grid.coords t) 0).val = t.val / 128 := by
  have ht := lt1 a t
  show t.val / grid1.stride 0 % 128 = t.val / 128
  have hs : grid1.stride 0 = 128 := by decide
  rw [hs]
  omega

theorem coords1_1 (t : Fin (cfg1 a).N) : (((cfg1 a).grid.coords t) 1).val = t.val % 128 := by
  show t.val / grid1.stride 1 % 128 = t.val % 128
  have hs : grid1.stride 1 = 1 := by decide
  rw [hs, Nat.div_one]

theorem idle1_0 (t : Fin (cfg1 a).N) : (cfg1 a).idle 0 ((cfg1 a).grid.coords t) = false := rfl
theorem idle1_1 (t : Fin (cfg1 a).N) : (cfg1 a).idle 1 ((cfg1 a).grid.coords t) = false := rfl
theorem idle1_2 (t : Fin (cfg1 a).N) : (cfg1 a).idle 2 ((cfg1 a).grid.coords t) = false := rfl

theorem idle1_3 (t : Fin (cfg1 a).N) :
    (cfg1 a).idle 3 ((cfg1 a).grid.coords t) = !decide (t.val % 128 = 127) := by
  have h : k1_cond1 ((cfg1 a).grid.coords t) = 1#1 ↔ t.val % 128 = 127 := by
    rw [cond1_iff, coords1_1 a t]
  show (!(k1_cond1 ((cfg1 a).grid.coords t) == 1#1)) = _
  rw [beq_eq_decide, decide_eq_decide.mpr h]

theorem index1_3 (t : Fin (cfg1 a).N) : ((cfg1 a).win 3).index t = ![0, t.val / 128] := by
  show cc1_transform_3 ((cfg1 a).grid.coords t) = _
  rw [transform3_eq, coords1_0 a t]

theorem index1_2 (t : Fin (cfg1 a).N) : ((cfg1 a).win 2).index t = ![t.val / 128, 0] := by
  show cc1_transform_2 ((cfg1 a).grid.coords t) = _
  rw [transform2_eq, coords1_0 a t]

/-- The block of the first gathered operand at a point: the word the first table holds at the point's position
    128 * g + j, then 0, 0. -/
theorem transform0_eq (pf : pre1.Contents (Elt F)) (i : grid1.Coords) (h : (i 0).val * 128 + (i 1).val < 16384) :
    cc1_transform_0 k1_off1_inb numel1_S1 pf i
      = ![BitVec.toNat (pf 0 (ValueIdx.ix1 ⟨(i 0).val * 128 + (i 1).val, h⟩)), 0, 0] := by
  have hk : (Rect.unit (s := S16384) (k1_off1 i) S1.size (k1_off1_inb i)).emb
      (Shape.Idx.first (numel1_S1.symm ▸ Nat.one_pos)) = ValueIdx.ix1 ⟨(i 0).val * 128 + (i 1).val, h⟩ := by
    funext d
    refine Fin.ext ?_
    match d with
    | ⟨0, _⟩ =>
      show k1_off1 i 0 + 1 * 0 = (i 0).val * 128 + (i 1).val
      rw [off1_eq]
      rfl
  funext c
  match c with
  | ⟨0, _⟩ => exact congrArg (fun k => BitVec.toNat (pf 0 k)) hk
  | ⟨1, _⟩ => rfl
  | ⟨2, _⟩ => rfl

/-- The same for the second gathered operand and the second table. -/
theorem transform1_eq (pf : pre1.Contents (Elt F)) (i : grid1.Coords) (h : (i 0).val * 128 + (i 1).val < 16384) :
    cc1_transform_1 k1_off1_inb numel1_S1 pf i
      = ![BitVec.toNat (pf 1 (ValueIdx.ix1 ⟨(i 0).val * 128 + (i 1).val, h⟩)), 0, 0] := by
  have hk : (Rect.unit (s := S16384) (k1_off1 i) S1.size (k1_off1_inb i)).emb
      (Shape.Idx.first (numel1_S1.symm ▸ Nat.one_pos)) = ValueIdx.ix1 ⟨(i 0).val * 128 + (i 1).val, h⟩ := by
    funext d
    refine Fin.ext ?_
    match d with
    | ⟨0, _⟩ =>
      show k1_off1 i 0 + 1 * 0 = (i 0).val * 128 + (i 1).val
      rw [off1_eq]
      rfl
  funext c
  match c with
  | ⟨0, _⟩ => exact congrArg (fun k => BitVec.toNat (pf 1 k)) hk
  | ⟨1, _⟩ => rfl
  | ⟨2, _⟩ => rfl

/-- The coordinates of point t put back together give t. -/
theorem coords1_sum (t : Fin (cfg1 a).N) :
    (((cfg1 a).grid.coords t) 0).val * 128 + (((cfg1 a).grid.coords t) 1).val = t.val := by
  rw [coords1_0 a t, coords1_1 a t]
  omega

theorem index1_0 (t : Fin (cfg1 a).N) :
    ((cfg1 a).win 0).index t = ![BitVec.toNat (a.1 0 (ValueIdx.ix1 ⟨t.val, lt1 a t⟩)), 0, 0] := by
  have hs := coords1_sum a t
  have hlt : (((cfg1 a).grid.coords t) 0).val * 128 + (((cfg1 a).grid.coords t) 1).val < 16384 := by
    rw [hs]; exact lt1 a t
  show cc1_transform_0 k1_off1_inb numel1_S1 a.1 ((cfg1 a).grid.coords t) = _
  rw [transform0_eq a.1 _ hlt]
  have he : (⟨(((cfg1 a).grid.coords t) 0).val * 128 + (((cfg1 a).grid.coords t) 1).val, hlt⟩ : Fin 16384)
      = ⟨t.val, lt1 a t⟩ := Fin.ext hs
  rw [he]

theorem index1_1 (t : Fin (cfg1 a).N) :
    ((cfg1 a).win 1).index t = ![BitVec.toNat (a.1 1 (ValueIdx.ix1 ⟨t.val, lt1 a t⟩)), 0, 0] := by
  have hs := coords1_sum a t
  have hlt : (((cfg1 a).grid.coords t) 0).val * 128 + (((cfg1 a).grid.coords t) 1).val < 16384 := by
    rw [hs]; exact lt1 a t
  show cc1_transform_1 k1_off1_inb numel1_S1 a.1 ((cfg1 a).grid.coords t) = _
  rw [transform1_eq a.1 _ hlt]
  have he : (⟨(((cfg1 a).grid.coords t) 0).val * 128 + (((cfg1 a).grid.coords t) 1).val, hlt⟩ : Fin 16384)
      = ⟨t.val, lt1 a t⟩ := Fin.ext hs
  rw [he]

/-- The output is never fetched. -/
theorem fetch1_3 (t : Fin (cfg1 a).N) : ((cfg1 a).win 3).fetch t = false :=
  Pipeline.Window.fetch_out _ rfl t

/-- The output block (0, g) is written back exactly at the last point of each row of the grid. -/
theorem flush1_3 (t : Fin (cfg1 a).N) : ((cfg1 a).win 3).flush t = decide (t.val % 128 = 127) := by
  have ht := lt1 a t
  have hN := N_1
  show (true && (decide (t.val + 1 = grid1.N) || decide (∃ h : t.val + 1 < grid1.N,
    ((cfg1 a).win 3).index ⟨t.val + 1, h⟩ ≠ ((cfg1 a).win 3).index t))) = _
  rw [Bool.true_and, Bool.eq_iff_iff]
  simp only [Bool.or_eq_true, decide_eq_true_eq]
  constructor
  · rintro (h | ⟨h, hne⟩)
    · omega
    · rw [index1_3 a ⟨t.val + 1, h⟩, index1_3 a t] at hne
      have hne' : (t.val + 1) / 128 ≠ t.val / 128 := (vec2_ne_iff _ _).mp hne
      omega
  · intro h
    by_cases hl : t.val + 1 = grid1.N
    · exact Or.inl hl
    · have hlt : t.val + 1 < grid1.N := by omega
      refine Or.inr ⟨hlt, ?_⟩
      rw [index1_3 a ⟨t.val + 1, hlt⟩, index1_3 a t]
      have hne' : (t.val + 1) / 128 ≠ t.val / 128 := by omega
      exact (vec2_ne_iff _ _).mpr hne'

end AtContents

end Cert.KernelIdeal.Hand
-- ==== Proof.KI.Inv1.lean ====
import proofs.«428619_j54528904790310_2_alg».proof.Proof.KI.Data1
import proofs.«428619_j54528904790310_2_alg».proof.Proof.KI.Sched1
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The accumulator between the points of the second pallas_call

Point `t` of the `[128,128]` grid stores the row it computes at accumulator row `t % 128`. Reading the accumulator
after that store: the stored row at that row, what was there at every other. Hence the invariant "the rows of the
block's points already run are theirs" passes from before a point to after it, and after the last point of a block
(`t % 128 = 127`) the accumulator is the block's whole. -/

/-- A point of `Fin n` read in `Fin (n + 1)` and back is itself. -/
theorem mk_castSucc_val {n : Nat} (t : Fin n) (h : (t.castSucc : Fin (n + 1)).val < n) :
    (⟨(t.castSucc : Fin (n + 1)).val, h⟩ : Fin n) = t := rfl

section Inv

variable (V : (c : Dev nD) → (b : Ref sig .tc) → Buf (Elt F) ((c : Thread nD τ).loc b))
variable (a : (pcfg1 (F := F)).Adm)

/-- Point `t`'s row store is at accumulator row `t % 128`, from its first column and lane. -/
theorem off3_at (t : Fin (cfg1 a).N) : k1_off3 ((cfg1 a).grid.coords t) = ![t.val % 128, 0, 0] := by
  rw [off3_eq, coords1_1]

/-- The accumulator read after one row store at row `t % 128`: the stored row there, the earlier contents elsewhere. -/
theorem read_row_store (t : Fin (cfg1 a).N) (fs : mscr.view.ty.Contents (Elt F)) (w : Vec F S1x32x128 .f32)
    (y : S128x32x128.Idx) :
    mscr.view.read (Elt F) (mscr.view.writes (Elt F) fs [⟨rRow ((cfg1 a).grid.coords t), w⟩]) y
      = if (y 0).val = t.val % 128 then w (ValueIdx.ix3 (0 : Fin 1) (y 1) (y 2)) else mscr.view.read (Elt F) fs y := by
  have hoff := off3_at a t
  by_cases h : (y 0).val = t.val % 128
  · rw [if_pos h]
    refine View.read_writes_cons_unit_of_mem mscr.view fs _ w [] y (ValueIdx.ix3 (0 : Fin 1) (y 1) (y 2)) hoff ?_
    intro d
    match d with
    | ⟨0, _⟩ => exact h
    | ⟨1, _⟩ => exact (Nat.zero_add _).symm
    | ⟨2, _⟩ => exact (Nat.zero_add _).symm
  · rw [if_neg h]
    refine (View.read_writes_cons_unit_of_not_mem mscr.view fs _ w [] y hoff (0 : Fin 3) ?_).trans rfl
    show (y 0).val < t.val % 128 ∨ t.val % 128 + 1 ≤ (y 0).val
    omega

/-- The block's whole depends on the block alone: two points of one block of 128 have the same one. -/
theorem accOf_congr (c : Dev nD) (t t' : Fin (cfg1 a).N) (h : t'.val / 128 = t.val / 128) :
    accOf V a c t' = accOf V a c t := by
  funext y
  have hb : blockPoint a t' (y 0) = blockPoint a t (y 0) := Fin.ext (by
    show t'.val / 128 * 128 + (y 0).val = t.val / 128 * 128 + (y 0).val
    rw [h])
  unfold accOf
  rw [hb]

/-- The point of `t`'s block at `t`'s own position is `t`. -/
theorem blockPoint_self (t : Fin (cfg1 a).N) (j : Fin 128) (hj : j.val = t.val % 128) : blockPoint a t j = t :=
  Fin.ext (by
    show t.val / 128 * 128 + j.val = t.val
    omega)

/-- The invariant passes over point `t`'s row store: within a block the rows of the points already run, `t`'s now among
    them, are theirs; past a block's last point (and past the last point of all) it asks nothing. -/
theorem inv_step (c : Dev nD) (t : Fin (cfg1 a).N) (fs : mscr.view.ty.Contents (Elt F))
    (h : ScrInv V a c t.castSucc fs) :
    ScrInv V a c t.succ (mscr.view.writes (Elt F) fs [⟨rRow ((cfg1 a).grid.coords t), rowAt V a c t⟩]) := by
  intro hlt y hy
  have hs : (t.succ : Fin ((cfg1 a).N + 1)).val = t.val + 1 := Fin.val_succ t
  rw [hs] at hy
  have hlt' : t.val + 1 < (cfg1 a).N := hs ▸ hlt
  have hmod : t.val % 128 < 127 := by omega
  have hdiv : (t.val + 1) / 128 = t.val / 128 := by omega
  have hcg : accOf V a c ⟨(t.succ : Fin ((cfg1 a).N + 1)).val, hlt⟩ = accOf V a c t :=
    accOf_congr V a c t ⟨(t.succ : Fin ((cfg1 a).N + 1)).val, hlt⟩ (by
      show (t.succ : Fin ((cfg1 a).N + 1)).val / 128 = t.val / 128
      rw [hs]; exact hdiv)
  rw [hcg, read_row_store a t fs _ y]
  by_cases h0 : (y 0).val = t.val % 128
  · rw [if_pos h0]
    show rowAt V a c t _ = rowAt V a c (blockPoint a t (y 0)) _
    rw [blockPoint_self a t (y 0) h0]
  · rw [if_neg h0]
    have hc : (t.castSucc : Fin ((cfg1 a).N + 1)).val = t.val := Fin.coe_castSucc t
    have hlt0 : (t.castSucc : Fin ((cfg1 a).N + 1)).val < (cfg1 a).N := lt_of_eq_of_lt hc t.isLt
    have hy' : (y 0).val < (t.castSucc : Fin ((cfg1 a).N + 1)).val % 128 := by rw [hc]; omega
    have ht : (⟨(t.castSucc : Fin ((cfg1 a).N + 1)).val, hlt0⟩ : Fin (cfg1 a).N) = t := mk_castSucc_val t hlt0
    have hr := h hlt0 y hy'
    rw [ht] at hr
    exact hr

/-- After the last point of a block the accumulator is the block's whole. -/
theorem inv_full (c : Dev nD) (t : Fin (cfg1 a).N) (fs : mscr.view.ty.Contents (Elt F))
    (hlast : t.val % 128 = 127)
    (h : ScrInv V a c t.castSucc fs) :
    mscr.view.read (Elt F) (mscr.view.writes (Elt F) fs [⟨rRow ((cfg1 a).grid.coords t), rowAt V a c t⟩]) = accOf V a c t := by
  funext y
  have hy0 : (y 0).val < 128 := (y 0).isLt
  rw [read_row_store a t fs _ y]
  by_cases h0 : (y 0).val = t.val % 128
  · rw [if_pos h0]
    show rowAt V a c t _ = rowAt V a c (blockPoint a t (y 0)) _
    rw [blockPoint_self a t (y 0) h0]
  · rw [if_neg h0]
    have hc : (t.castSucc : Fin ((cfg1 a).N + 1)).val = t.val := Fin.coe_castSucc t
    have hlt0 : (t.castSucc : Fin ((cfg1 a).N + 1)).val < (cfg1 a).N := lt_of_eq_of_lt hc t.isLt
    have hy' : (y 0).val < (t.castSucc : Fin ((cfg1 a).N + 1)).val % 128 := by rw [hc]; omega
    have ht : (⟨(t.castSucc : Fin ((cfg1 a).N + 1)).val, hlt0⟩ : Fin (cfg1 a).N) = t := mk_castSucc_val t hlt0
    have hr := h hlt0 y hy'
    rw [ht] at hr
    exact hr

end Inv

end Cert.KernelIdeal.Hand

end
-- ==== Proof.KI.Oblig1.lean ====
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import proofs.«428619_j54528904790310_2_alg».proof.Proof.KI.Data1
import proofs.«428619_j54528904790310_2_alg».proof.Proof.KI.Sched1
import proofs.«428619_j54528904790310_2_alg».proof.Proof.KI.Inv1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: its body obligation and its invariant at the region's ends

At every point the body reads its three input blocks and overwrites its own row of the accumulator; the rows the
block's earlier points stored are still theirs. At the last point of a block of 128 neurons every row of the accumulator
is therefore the row its point computed, and the body stores the accumulator, re-laid, over the output block; at the
other points the output block's buffer is handed back as it was found. -/

section Obligation

variable (V : (c : Dev nD) → (b : Ref sig .tc) → Buf (Elt F) ((c : Thread nD τ).loc b))
variable (a : (pcfg1 (F := F)).Adm)

/-! ## What each input window's staging buffer holds when the body runs -/

/-- An input window's current buffer holds its block at every point, fetched there or not: an unfetched point has the
    block index of the point before (the table's word did not change), and the body leaves the block in place. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg2) (Memref.isWhole_whole _) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _)

/-- What the body is called with at point `t`, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- and what it returns: the output window's buffer as found where the point stores nothing into it. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare ((dat1 V a c).after 3 t)
        | false => owns (c : Thread nD τ) (st1_3 a t) fullShare ((dat1 V a c).after 3 t)))

set_option maxHeartbeats 1000000 in
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2]
  rw [Phi_eq1, Phi_eq1, after1_0, after1_1, after1_2, after1_3,
    show (dat1 V a c).owesAt () t.succ = (dat1 V a c).owesAt () t.castSucc from rfl]
  unfold Phi1
  iintro ⟨⟨Ha, Hb, Hc, Hd, ⟨%fs, %hinv, Hs⟩, Hpf, Hr⟩, Ho, ⟨%d0, H0⟩, ⟨%d1, H1⟩, ⟨%d2, H2⟩, H3⟩
  by_cases hj : k1_cond1 ((cfg1 a).grid.coords t) = 1#1
  · have hlast : t.val % 128 = 127 := by rw [← coords1_1 a t]; exact (cond1_iff _).mp hj
    have hidle : (cfg1 a).idle 3 ((cfg1 a).grid.coords t) = false := by rw [idle1_3 a t, hlast]; rfl
    rw [show (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare (out3 (accOf V a c t))
        | false => owns (c : Thread nD τ) (st1_3 a t) fullShare (out3 (accOf V a c t)))
        = (owns (c : Thread nD τ) (st1_3 a t) fullShare (out3 (accOf V a c t)) : sProp 𝕄) from by rw [hidle]]
    have hfull := inv_full V a c t fs hlast hinv
    iapply (sound_kernel1_B c Set.univ _ hj _ _ _ _ _ _ _ _ mscr mscr_whole (xa V a c t) (xb V a c t) (xc V a c t) fs _)
    isplitl [H0]; · iexact H0
    isplitl [H1]; · iexact H1
    isplitl [H2]; · iexact H2
    isplitl [H3]; · icases H3 with ⟨%d3, H3⟩; iexists _; iexact H3
    isplitl [Hs]; · iexact Hs
    iintro ⟨H0, H1, H2, H3, Hs⟩
    isplitl [Ha Hb Hc Hd Hs Hpf Hr]
    · isplitl [Ha]; · iexact Ha
      isplitl [Hb]; · iexact Hb
      isplitl [Hc]; · iexact Hc
      isplitl [Hd]; · iexact Hd
      isplitl [Hs]
      · iexists _; isplitr; · ipureintro; exact inv_step V a c t fs hinv
        iexact Hs
      isplitl [Hpf]; · iexact Hpf
      iexact Hr
    isplitl [Ho]; · iexact Ho
    isplitl [H0]; · iexact H0
    isplitl [H1]; · iexact H1
    isplitl [H2]; · iexact H2
    rw [← hfull]
    iexact H3
  · have hnl : ¬ t.val % 128 = 127 := fun h => hj ((cond1_iff _).mpr (by rw [coords1_1]; exact h))
    have hidle : (cfg1 a).idle 3 ((cfg1 a).grid.coords t) = true := by rw [idle1_3 a t]; simp [hnl]
    have hflush : ((cfg1 a).win 3).flush t = false := by rw [flush1_3 a t]; simp [hnl]
    rw [show (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare (out3 (accOf V a c t))
        | false => owns (c : Thread nD τ) (st1_3 a t) fullShare (out3 (accOf V a c t)))
        = (iprop(∃ d, owns (c : Thread nD τ) (st1_3 a t) fullShare ((dat1 V a c).before 3 t d)) : sProp 𝕄) from by rw [hidle, hflush]]
    iapply (sound_kernel1_A c Set.univ _ hj _ _ _ _ _ _ _ _ mscr mscr_whole (xa V a c t) (xb V a c t) (xc V a c t) fs _)
    isplitl [H0]; · iexact H0
    isplitl [H1]; · iexact H1
    isplitl [H2]; · iexact H2
    isplitl [Hs]; · iexact Hs
    iintro ⟨H0, H1, H2, Hs⟩
    isplitl [Ha Hb Hc Hd Hs Hpf Hr]
    · isplitl [Ha]; · iexact Ha
      isplitl [Hb]; · iexact Hb
      isplitl [Hc]; · iexact Hc
      isplitl [Hd]; · iexact Hd
      isplitl [Hs]
      · iexists _; isplitr; · ipureintro; exact inv_step V a c t fs hinv
        iexact Hs
      isplitl [Hpf]; · iexact Hpf
      iexact Hr
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## The invariant at the region's two ends -/

/-- At the first point: the scoped buffers the region does not stage as the region finds them (the accumulator at
    anything: no row of the first block has been stored yet), the tables, the generator register. -/
theorem phi1_intro (c : Dev nD) :
    iprop((∃ r, prngReg c r) ∗ Pipeline.prefHeld (Ix := Unit) (Name := ℕ) (U := UR sig nD τ) (Lvl := ℕ) pre1 c (fun _ => fullShare) a.1
      ∗ Pipeline.scopedRest (Ix := Unit) (Name := ℕ) (U := UR sig nD τ) (Lvl := ℕ) (Val := Elt F) spec1 c) ⊢ (Phi1 V a c 0 : sProp 𝕄) := by
  rw [scopedRest1_eq]
  unfold Phi1
  iintro ⟨Hr, Hpf, Ha, Hb, Hc, Hd, ⟨%fs, Hs⟩⟩
  isplitl [Ha]; · iexact Ha
  isplitl [Hb]; · iexact Hb
  isplitl [Hc]; · iexact Hc
  isplitl [Hd]; · iexact Hd
  isplitl [Hs]
  · iexists fs
    isplitr
    · ipureintro
      intro h y hy
      exact absurd hy (by simp)
    rw [mscr_whole.set_eq_univ]
    iexact Hs
  isplitl [Hpf]; · iexact Hpf
  iexact Hr

/-- At the last point the same resources come back, the accumulator at whatever it then holds. -/
theorem phi1_exit (c : Dev nD) (t : Fin ((cfg1 a).N + 1)) :
    (Phi1 V a c t : sProp 𝕄) ⊢ iprop(((∃ r, prngReg c r) ∗ Pipeline.prefHeld (Ix := Unit) (Name := ℕ) (U := UR sig nD τ) (Lvl := ℕ) pre1 c (fun _ => fullShare) a.1)
      ∗ Pipeline.scopedRest (Ix := Unit) (Name := ℕ) (U := UR sig nD τ) (Lvl := ℕ) (Val := Elt F) spec1 c) := by
  rw [scopedRest1_eq]
  unfold Phi1
  iintro ⟨Ha, Hb, Hc, Hd, ⟨%fs, -, Hs⟩, Hpf, Hr⟩
  isplitl [Hr Hpf]
  · isplitl [Hr]; · iexact Hr
    iexact Hpf
  isplitl [Ha]; · iexact Ha
  isplitl [Hb]; · iexact Hb
  isplitl [Hc]; · iexact Hc
  isplitl [Hd]; · iexact Hd
  iexists fs
  rw [mscr_whole.set_eq_univ]
  iexact Hs

end Obligation

end Cert.KernelIdeal.Hand

end
-- ==== Proof.KI.Run.lean ====
/-
  THE RUN of the program: @main is a host stretch, the first TensorCore region (the blockwise transpose), a second host
  stretch, and the second TensorCore region (the gather-and-accumulate, whose index maps read two prefetched tables).
  Between items a core holds every unscoped buffer whole at a known valuation, beside its generator register at some
  state and the fact that it owes nothing. The valuations are a fold from the launch memory: a host stretch's
  operations applied, a region's output array replaced by what its pipeline's write-backs leave. The tables are the
  two index arguments as launched; under the bound on their words every block the second region's index maps name is
  inside the gathered array, which is what makes the tables admissible. Each region is entered by sorting its arrays
  out of the unscoped buffers and left by putting them back; the second region's two gathered windows read one array,
  whose full share is dealt to them in halves and rejoined. The launch theorem then says: every weakly fair execution
  terminates, the result array holds what the second pipeline leaves, and every argument is as launched.
-/
import proofs.«428619_j54528904790310_2_alg».proof.Proof.Gen.KernelIdeal.Launch
import proofs.«428619_j54528904790310_2_alg».proof.Proof.Gen.KernelIdeal.Skeleton
import proofs.«428619_j54528904790310_2_alg».proof.Proof.Gen.KernelIdeal.Points
import proofs.«428619_j54528904790310_2_alg».proof.Proof.Gen.KernelIdeal.Regions
import proofs.«428619_j54528904790310_2_alg».proof.Proof.KI.Region0
import proofs.«428619_j54528904790310_2_alg».proof.Proof.KI.Data1
import proofs.«428619_j54528904790310_2_alg».proof.Proof.KI.Split1
import proofs.«428619_j54528904790310_2_alg».proof.Proof.KI.Ok
import proofs.«428619_j54528904790310_2_alg».proof.Proof.KI.Host
import proofs.«428619_j54528904790310_2_alg».proof.Proof.KI.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-! ## The prefetched tables and their admissibility -/

/-- The two index tables' contents: what the launch memory holds at them (the mesh has one device). -/
def tbl : pre1.Contents (Elt F) := fun k => m (((0 : Dev nD) : Thread nD τ).loc (pre1.ref k))

variable (h0 : ∀ k, ((tbl m 0) k).toNat < 8192) (h1 : ∀ k, ((tbl m 1) k).toNat < 8192)

/-- The tables, admissible: every word of either names a row of the gathered array. -/
def adm1 : (pcfg1 (F := F)).Adm := ⟨tbl m, ok1_of_lt (tbl m) h0 h1⟩

theorem adm1_val : (adm1 m h0 h1).1 = tbl m := rfl

/-- Every pipeline's admissible table contents: pipeline 0 has no table. -/
def adm : (p : Fin 2) → (pcfgs (F := F) p).Adm
  | ⟨0, _⟩ => cfg0.toPCfg_adm
  | ⟨1, _⟩ => adm1 m h0 h1

/-! ## The buffers' contents at the regions' ends -/

/-- The contents the first region is entered from, read at the TensorCore's references. -/
abbrev V1r : (c : Dev nD) → (b : Ref sig .tc) → Buf (Elt F) ((c : Thread nD τ).loc b) := fun c b => V1 m c b

/-- What the first region leaves in its output array. -/
def out12 (c : Dev nD) : Buf (Elt F) ((c : Thread nD τ).loc main_v12) := (dat0 (V1r m) c).arrAt 1 cfg0.N

/-- The regions' leavings, first stage: the first region's output array; elsewhere (never read) the entry contents. -/
def outsA : Outs (F := F) := fun _ r c => if h : r = main_v12 then h ▸ out12 m c else V1 m c r

theorem outsA_12 (J : ℕ) (c : Dev nD) : outsA m J main_v12 c = out12 m c := by
  unfold outsA; rw [dif_pos rfl]

/-- The first region's output array, as the second host stretch reads it. -/
theorem outsA_12' (c : Dev nD) : outsA m 2 main_v12 c = (dat0 (V1r m) c).arrAt 1 cfg0.N := outsA_12 m 2 c

/-- The contents the second region is entered from, read at the TensorCore's references. -/
abbrev V3r : (c : Dev nD) → (b : Ref sig .tc) → Buf (Elt F) ((c : Thread nD τ).loc b) := fun c b => V3 m (outsA m) c b

/-- What the second region leaves in its output array. -/
def out14 (c : Dev nD) : Buf (Elt F) ((c : Thread nD τ).loc main_v14) :=
  (dat1 (V3r m) (adm1 m h0 h1) c).arrAt 3 (cfg1 (adm1 m h0 h1)).N

/-- The regions' leavings: each region's output array as its pipeline leaves it. -/
def outs : Outs (F := F) := fun J r c => if h : r = main_v14 then h ▸ out14 m h0 h1 c else outsA m J r c

theorem outs_12 (J : ℕ) (c : Dev nD) : outs m h0 h1 J main_v12 c = out12 m c := by
  unfold outs; rw [dif_neg (by decide), outsA_12]

theorem outs_14 (J : ℕ) (c : Dev nD) : outs m h0 h1 J main_v14 c = out14 m h0 h1 c := by
  unfold outs; rw [dif_pos rfl]

/-- The second host stretch reads of the regions' leavings only the first region's output array. -/
theorem V2_outs (c : Dev nD) : V2 m (outs m h0 h1) c = V2 m (outsA m) c := by
  dsimp only [V2]; rw [outs_12, outsA_12]

theorem V3_outs (c : Dev nD) : V3 m (outs m h0 h1) c = V3 m (outsA m) c := by
  dsimp only [V3]; rw [V2_outs]

/-! ## The proof data family -/

/-- Every pipeline's proof data, each at its region's entry contents. -/
def pdats : (p : Fin 2) → (c : Dev nD) → Dat τ (Elt F) Unit ℕ (UR sig nD τ) ℕ (Pipeline.pin (pcfgs (F := F)) (adm m h0 h1) p) c
  | ⟨0, _⟩ => fun c => dat0 (V1r m) c
  | ⟨1, _⟩ => fun c => dat1 (V3r m) (adm1 m h0 h1) c

/-! ## The thread state -/

/-- No core waits on another: no level is assigned. -/
abbrev Lv : GSem nD τ sig → Finset Unit := fun _ => ∅
abbrev lv0 : GSem nD τ sig → Unit → ℕ := fun _ _ => 0
/-- What rides beside the buffers between items: the generator register at some state, and the core owing nothing. -/
abbrev Rest (c : Dev nD) : sProp 𝕄 :=
  iprop((∃ r, prngReg c r) ∗ ∃ W, owes (c : Thread nD τ) (0 : CellTallies nD τ sig Unit) W)

/-! ## The first region -/

/-- What the first region's arrays hold when it is left: the input as entered, the output as the pipeline leaves it. -/
theorem hF0 (c : Dev nD) : ∀ w : Fin cfg0.W, (dat0 (V1r m) c).arrAt w cfg0.N = V2 m (outs m h0 h1) c (Pipeline.arrRef spec0 w)
  | ⟨0, _⟩ => (((dat0 (V1r m) c).arrAt_in 0 rfl _).trans (A_eq0 (V1r m) c 0)).trans (V2_of m (outs m h0 h1) c main_arg0 (by decide)).symm
  | ⟨1, _⟩ => by
    show out12 m c = Function.update (V1 m c) (Proc.devRef .tc main_v12) (outs m h0 h1 2 main_v12 c) (Proc.devRef .tc main_v12)
    rw [Function.update_self, outs_12]

/-- Off its arrays the first region changes nothing. -/
theorem hrest0 (c : Dev nD) (b : Ref sig .tc) (hb : b ∉ Finset.univ.image (Pipeline.arrRef spec0)) :
    V2 m (outs m h0 h1) c b = V1 m c b :=
  V2_of m (outs m h0 h1) c b fun hm =>
    hb (by rw [List.mem_singleton.mp hm]; exact Finset.mem_image.mpr ⟨1, Finset.mem_univ _, rfl⟩)

set_option backward.isDefEq.respectTransparency.types false in
/-- The first region over the thread state: entered from every unscoped buffer at the contents after the first host
    stretch, left at those contents with the output array replaced by what the pipeline leaves. -/
def reg0 : Pipeline.RegionSeg (pcfgs (F := F)) (adm m h0 h1) (pdats m h0 h1) () defs₀ Variants.none Lv lv0 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1r m) c).loose
  hwaits := Pipeline.hwaits_of_owed_zero _ _ _ _ Lv lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m h0 h1) c) ∗ Rest c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    have hsplit := Pipeline.arrays_of_unscopedBufs (p := 0) (pcfgs (F := F)) (adm m h0 h1) (pdats m h0 h1) (launch0 (F := F)).win (launch0 (F := F)).arr_whole c
      ((pdats m h0 h1 0 c).share_full fun _ => rfl) (V1r m c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m h0 h1 0 c).Φ 0 = Pipeline.ΦA spec0 c from rfl]
    unfold Pipeline.ΦA
    iintro ⟨Hprng, -, Hsc⟩
    isplitl [Hsc]; · iexact Hsc
    iexact Hprng
  hout c := by
    rw [Pipeline.ownSems0_none, show (pdats m h0 h1 0 c).Φ (Fin.last _) = Pipeline.ΦA spec0 c from rfl]
    unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) (adm m h0 h1) (Ix := Unit) (Name := ℕ) (U := UR sig nD τ) (Lvl := ℕ)
      (launch0 (F := F)).win (launch0 (F := F)).arr_whole c (pdats m h0 h1) ((pdats m h0 h1 0 c).share_full fun _ => rfl)
      (V1r m c) (fun b => V2 m (outs m h0 h1) c b) ((pdats m h0 h1 0 c).arrAt · cfg0.N) (hF0 m h0 h1 c) (hrest0 m h0 h1 c)
    rw [Pipeline.unscopedBufs_held] at hjoin
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

/-! ## The second region -/

/-- The second region finds the two index tables as launched: no host stretch writes an argument, the first region
    changes none, and the mesh has one device. -/
theorem tbl_eq (c : Dev nD) : ((fun k => V3r m c (pre1.ref k)) : pre1.Contents (Elt F)) = tbl m := by
  obtain rfl : c = 0 := Subsingleton.elim _ _
  funext k
  revert k
  show ∀ k : Fin 2, V3r m 0 (pre1.ref k) = tbl m k
  intro k
  fin_cases k
  · exact V3_arg2 m (outsA m) 0
  · exact V3_arg3 m (outsA m) 0

/-- Off its output array the second region changes nothing. -/
theorem hrest1 (c : Dev nD) (b : Ref sig .tc) (hb : b ≠ main_v14) : V4 m (outs m h0 h1) c b = V3r m c b :=
  (V4_of m (outs m h0 h1) c b fun hm => hb (List.mem_singleton.mp hm)).trans (congrFun (V3_outs m h0 h1 c) _)

/-- Its output array is left as the pipeline leaves it. -/
theorem hout14 (c : Dev nD) : V4 m (outs m h0 h1) c main_v14 = (dat1 (V3r m) (adm1 m h0 h1) c).arrAt 3 (cfg1 (adm1 m h0 h1)).N := by
  show Function.update (V3 m (outs m h0 h1) c) (Proc.devRef .tc main_v14) (outs m h0 h1 4 main_v14 c) (Proc.devRef .tc main_v14) = _
  rw [Function.update_self, outs_14]
  rfl

/-- An input window's array ends as the region found it. -/
theorem arrAt1_in (c : Dev nD) (w : Fin (cfg1 (adm1 m h0 h1)).W) (hw : ((cfg1 (adm1 m h0 h1)).win w).isOut = false) (n : ℕ) :
    (dat1 (V3r m) (adm1 m h0 h1) c).arrAt w n = V3r m c (Pipeline.arrRef spec1 w) :=
  ((dat1 (V3r m) (adm1 m h0 h1) c).arrAt_in w hw n).trans (A_eq1 (V3r m) (adm1 m h0 h1) c w)

set_option backward.isDefEq.respectTransparency.types false in
/-- The second region over the thread state: entered from every unscoped buffer at the contents after the second host
    stretch, left at those contents with the output array replaced by what the pipeline leaves. The array its two
    gathered windows both read is dealt to them in halves and made whole again; the tables go into the invariant and
    come back beside the generator register. -/
def reg1 : Pipeline.RegionSeg (pcfgs (F := F)) (adm m h0 h1) (pdats m h0 h1) () defs₀ Variants.none Lv lv0 1 where
  win := winFacts₀1
  block_pos := block_pos1
  stage_whole := stage_whole1
  K := PEmpty
  osem k := k.elim
  ho := Pipeline.OwnSemFacts.none _
  hbody c := (body_obligation1 (V3r m) (adm1 m h0 h1) c).loose
  hwaits := Pipeline.hwaits_of_owed_zero _ _ _ _ Lv lv0 1 fun c t => owed1 (V3r m) (adm1 m h0 h1) c t
  pre c := iprop(StableHlo.held (c : Thread nD τ) (Pipeline.ucRefs τ sig) (V3 m (outsA m) c) ∗ Rest c)
  post c := iprop(StableHlo.held (c : Thread nD τ) (Pipeline.ucRefs τ sig) (V4 m (outs m h0 h1) c) ∗ Rest c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (V3r m c)
  hentry c := by
    have hsplit := entry1 (adm1 m h0 h1) c (pdats m h0 h1 1 c) (V3r m c) (q1_0 _ _ c) (q1_1 _ _ c) (q1_2 _ _ c)
      ((pdats m h0 h1 1 c).arrAt · 0) (fun w => A_eq1 (V3r m) (adm1 m h0 h1) c w)
    rw [tbl_eq m c, Pipeline.unscopedBufs_held] at hsplit
    rw [Pipeline.ownSems0_none]
    iintro ⟨⟨Hbufs, Hprng, Howes⟩, -, -⟩
    ihave Hs := hsplit $$ Hbufs
    icases Hs with ⟨Harr, Htbl, Hrest⟩
    imodintro
    isplitl [Harr]; · iexact Harr
    isplitl [Htbl]; · iexact Htbl
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m h0 h1 1 c).Φ 0 = Phi1 (V3r m) (adm1 m h0 h1) c 0 from Phi_eq1 (V3r m) (adm1 m h0 h1) c 0]
    exact phi1_intro (V3r m) (adm1 m h0 h1) c
  hout c := by
    rw [Pipeline.ownSems0_none,
      show (pdats m h0 h1 1 c).Φ (Fin.last _) = Phi1 (V3r m) (adm1 m h0 h1) c (Fin.last _) from Phi_eq1 (V3r m) (adm1 m h0 h1) c _]
    refine (phi1_exit (V3r m) (adm1 m h0 h1) c (Fin.last _)).trans ?_
    iintro ⟨HY, Hsc⟩
    isplitl [HY]; · iexact HY
    isplitr; · iempintro
    iexact Hsc
  hexit c := by
    have hjoin := exit1 (adm1 m h0 h1) c (pdats m h0 h1 1 c) (V3r m c) (fun b => V4 m (outs m h0 h1) c b)
      (q1_0 _ _ c) (q1_1 _ _ c) (q1_2 _ _ c) ((pdats m h0 h1 1 c).arrAt · (cfg1 (adm1 m h0 h1)).N)
      (arrAt1_in m h0 h1 c 0 rfl _) (arrAt1_in m h0 h1 c 1 rfl _) (arrAt1_in m h0 h1 c 2 rfl _)
      (hrest1 m h0 h1 c) (hout14 m h0 h1 c)
    rw [tbl_eq m c, Pipeline.unscopedBufs_held] at hjoin
    iintro ⟨Harr, Howes, ⟨Hprng, Htbl⟩, Hrest⟩
    imodintro
    isplitl [Harr Htbl Hrest]
    · iapply hjoin
      isplitl [Harr]; · iexact Harr
      isplitl [Htbl]; · iexact Htbl
      iexact Hrest
    isplitl [Hprng]; · iexact Hprng
    unfold Pipeline.Dat.owesAt Pipeline.owesWithin
    icases Howes with ⟨%W, -, Howes⟩
    iexists W
    iexact Howes

/-! ## @main as segments, and the launch -/

/-- The rest of the thread state between items: the same at every boundary. -/
abbrev Ej : Fin 3 → Dev nD → sProp 𝕄 := fun _ c => Rest c

variable (ρ : Dev nD → PrngReg)

set_option backward.isDefEq.respectTransparency.types false in
/-- THE RUN. From any memory with zero counters, every weakly fair execution of @main on the TensorCore terminates,
    and every final memory holds, in the result array, what the second pipeline leaves in its output array from the
    contents the second host stretch leaves, and every argument array as launched. -/
theorem run_main : θ_run defs (onTc (τ := τ) (main (F := F))) ⟨m, fun _ => 0, ρ⟩ (fun r => ∀ c : Dev nD,
      r.2.mem ((c.tc : Thread nD τ).loc main_v14) = (dat1 (V3r m) (adm1 m h0 h1) c).arrAt 3 (cfg1 (adm1 m h0 h1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) (adm m h0 h1) (pdats m h0 h1) () (cellOf_inj (adm m h0 h1)) emb₁ defs₀ Variants.none Lv lv0 m ρ main
    (segs m (outs m h0 h1) Variants.none Lv lv0 Ej () (adm m h0 h1) (pdats m h0 h1) (reg0 m h0 h1) (reg1 m h0 h1))
    (fun c Q => by
      rewrite [main_chain c, Pipeline.Seg.run_eq_chain,
        show (segs m (outs m h0 h1) Variants.none Lv lv0 Ej () (adm m h0 h1) (pdats m h0 h1) (reg0 m h0 h1) (reg1 m h0 h1) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m h0 h1)) (cellOf_inj (adm m h0 h1)))
      (Pipeline.launchToks (Pipeline.pin (pcfgs (F := F)) (adm m h0 h1)) (cellOf_inj (adm m h0 h1))))
    (hu₀ := ?_)
    (T₀ := fun c => iprop(StableHlo.held (c : Thread nD τ) (Pipeline.ucRefs τ sig) (V0 m c) ∗ Rest c))
    (Tₙ := fun c => iprop(StableHlo.held (c : Thread nD τ) (Pipeline.ucRefs τ sig) (V4 m (outs m h0 h1) c) ∗ ∃ r, prngReg c r))
    (hch := fun c => ⟨.rfl, .rfl, .rfl,
      Entails.of_eq (show iprop(StableHlo.held (c : Thread nD τ) (Pipeline.ucRefs τ sig) (V3 m (outs m h0 h1) c) ∗ Rest c)
        = iprop(StableHlo.held (c : Thread nD τ) (Pipeline.ucRefs τ sig) (V3 m (outsA m) c) ∗ Rest c) from by rw [V3_outs]),
      show iprop(StableHlo.held (c : Thread nD τ) (Pipeline.ucRefs τ sig) (V4 m (outs m h0 h1) c) ∗ Rest c)
        ⊢ iprop((StableHlo.held (c : Thread nD τ) (Pipeline.ucRefs τ sig) (V4 m (outs m h0 h1) c) ∗ ∃ r, prngReg c r)
          ∗ ∃ W, owes (c : Thread nD τ) (0 : CellTallies nD τ sig Unit) W) from ?_⟩)
    (hinit := ?_)
    (QY := fun c s =>
      s.mem ((c.tc : Thread nD τ).loc main_v14) = (dat1 (V3r m) (adm1 m h0 h1) c).arrAt 3 (cfg1 (adm1 m h0 h1)).N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipelines' rounds state, whole; no other ghost resource
    have hG : (BI.emp : sProp 𝕄) ⊢ bigSep Finset.univ (fun _ : Dev nD => (BI.emp : sProp 𝕄)) :=
      Entails.of_eq (BI.bigSep_emp_const _).symm
    rw [ownU_emb₁]
    iintro Hu
    imodintro
    isplitl [Hu]; · iexact Hu
    iapply hG
    iempintro
  · -- the last region's state, regrouped: the core owing nothing stands apart
    iintro ⟨Hh, Hp, Ho⟩
    isplitr [Ho]
    · isplitl [Hh]; · iexact Hh
      iexact Hp
    iexact Ho
  · -- the launch: on each core the unscoped buffers at the launch contents, the generator register, nothing owed
    refine Pipeline.initEach Lv lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, Ho, -, Hp, -⟩, -⟩
    imodintro
    isplitl [Hh]; · iexact Hh
    isplitl [Hp]; · iexists _; iexact Hp
    iexists ∅; iexact Ho
  · -- the end: the result array and each argument read off the last valuation
    unfold StableHlo.held
    iintro ⟨⟨Hh, -⟩, HSI⟩
    ihave Hr := (pointsTo_read_all (Pipeline.ucRefs τ sig) (fun b => ((c : Thread nD τ).1, b)) (V4 m (outs m h0 h1) c) s') $$ [Hh HSI]
    · isplitl [Hh] <;> iassumption
    icases Hr with ⟨%h, HSI⟩
    imodintro
    isplitr
    · ipureintro
      exact ⟨(h (Proc.devRef .tc main_v14) (Finset.mem_filter.mpr ⟨StableHlo.devRef_mem_tcRefs main_v14, by decide⟩)).trans (hout14 m h0 h1 c),
        (h (Proc.devRef .tc main_arg0) (Finset.mem_filter.mpr ⟨StableHlo.devRef_mem_tcRefs main_arg0, by decide⟩)).trans (V4_main_arg0 m (outs m h0 h1) c),
        (h (Proc.devRef .tc main_arg1) (Finset.mem_filter.mpr ⟨StableHlo.devRef_mem_tcRefs main_arg1, by decide⟩)).trans (V4_main_arg1 m (outs m h0 h1) c),
        (h (Proc.devRef .tc main_arg2) (Finset.mem_filter.mpr ⟨StableHlo.devRef_mem_tcRefs main_arg2, by decide⟩)).trans (V4_main_arg2 m (outs m h0 h1) c),
        (h (Proc.devRef .tc main_arg3) (Finset.mem_filter.mpr ⟨StableHlo.devRef_mem_tcRefs main_arg3, by decide⟩)).trans (V4_main_arg3 m (outs m h0 h1) c)⟩
    · iexact HSI

end Run

end Cert.KernelIdeal.Hand

end
-- ==== Proof.KI.Value0.lean ====
/- REGION 0's VALUE: what the arrays hold after the blockwise transpose, as functions of the buffer
   contents `V` when the region is entered. Grid point `t` loads block (i, j) of the input array and writes
   back its transpose as block (j, i) of the output array; an element of a block sits at
   (block index) × 1024 + (coordinate inside the block) on each axis, so what point `t` writes back is block
   `t` of ONE function of the input array: the output at (r, s) is the input at (s, r). The 32 output blocks
   tile the [8192, 4096] output array, so the array ends holding that function; the input array, whose
   window is never written back, is unchanged. -/
import proofs.«428619_j54528904790310_2_alg».proof.Proof.KI.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

section Value0
variable (V : (c : Dev nD) → (b : Ref sig .tc) → Buf (Elt F) ((c : Thread nD τ).loc b))

/-- The zero offsets, as a function. -/
theorem hz0 : (![0, 0] : Fin 2 → Nat) = fun _ => 0 := funext fun a => by fin_cases a <;> rfl

/-- The output array as one function of the input array: the transpose, index by index. -/
abbrev G0 (c : Dev nD) : S8192x4096.Idx → Elt F .f32 :=
  fun i => (V c main_arg0 : S4096x8192.Idx → Elt F .f32) (ValueIdx.ix2 (i 1) (i 0))

/-- The two index maps over the grid: the input's block index is the output's with the axes swapped,
    and the output's block indices stay in their ranges. -/
theorem idx_facts0 : ∀ t : Fin cfg0.N, win0_0.index t (0 : Fin 2) = win0_1.index t (1 : Fin 2)
    ∧ win0_0.index t (1 : Fin 2) = win0_1.index t (0 : Fin 2)
    ∧ win0_1.index t (0 : Fin 2) ≤ 7 ∧ win0_1.index t (1 : Fin 2) ≤ 3 :=
  (by decide +kernel : ∀ t : Fin grid0.N, _)

/-- Every block of the output array is some grid point's. -/
theorem idx_onto0 : ∀ (q0 : Fin 8) (q1 : Fin 4), ∃ t : Fin cfg0.N, win0_1.index t = ![q0.val, q1.val] :=
  (by decide +kernel : ∀ (q0 : Fin 8) (q1 : Fin 4), ∃ t : Fin grid0.N, win0_1.index t = ![q0.val, q1.val])

/-- What point `t` writes back is block `t` of the transpose of the input array: the single whole-block
    store leaves its payload, the transposed input block, whose element at `j` is the input block's at `j`
    with its coordinates swapped, and the swapped block indices place that element at the swapped array index. -/
theorem flushed0_1_eq (c : Dev nD) (t : Fin cfg0.N) :
    (dat0 V c).flushed 1 t = ((cfg0.win 1).blk t).view.read (Elt F) (G0 V c) := by
  show (cfg0.win 1).cut (grid0.coords t) ((dat0 V c).after 1 t) = _
  rw [after0_1]
  unfold out0_1
  rw [View.canon_unit_zero hz0]
  simp only [View.ld_unit_zero (S := S1024x1024) hz0]
  obtain ⟨e0, e1, e2, e3⟩ := idx_facts0 t
  funext j
  show transpose S1024x1024 [1, 0] (iblk0 V c 0 t : Vec F S1024x1024 .f32) transposes_S1024x1024_p1_0_S1024x1024 j = G0 V c (((cfg0.win 1).blk t).view.emb j)
  refine (transpose_apply (s := S1024x1024) (t := S1024x1024) [1, 0] (iblk0 V c 0 t : Vec F S1024x1024 .f32) transposes_S1024x1024_p1_0_S1024x1024 j (ValueIdx.ix2 (j 1) (j 0)) (fun b => ?_)).trans ?_
  · match b with
    | ⟨0, _⟩ => rfl
    | ⟨1, _⟩ => rfl
  · show (V c main_arg0 : S4096x8192.Idx → Elt F .f32) (((cfg0.win 0).blk t).view.emb (ValueIdx.ix2 (j 1) (j 0))) = (V c main_arg0 : S4096x8192.Idx → Elt F .f32) (ValueIdx.ix2 ((((cfg0.win 1).blk t).view.emb j) 1) ((((cfg0.win 1).blk t).view.emb j) 0))
    refine congrArg (V c main_arg0 : S4096x8192.Idx → Elt F .f32) (funext fun a => Fin.ext ?_)
    match a with
    | ⟨0, _⟩ => show win0_0.index t (0 : Fin 2) * 1024 + 1 * (j 1).val = win0_1.index t (1 : Fin 2) * 1024 + 1 * (j 1).val; omega
    | ⟨1, _⟩ => show win0_0.index t (1 : Fin 2) * 1024 + 1 * (j 0).val = win0_1.index t (0 : Fin 2) * 1024 + 1 * (j 0).val; omega

/-- An index of the output array is in point `t`'s block iff each coordinate is in the block's range on its axis. -/
theorem mem_blk0_1 (t : Fin cfg0.N) (i : S8192x4096.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v12).slice (win0_1.rect t)).set ↔ _
  rw [View.set_slice_whole, Rect.mem_set_unit]
  exact Iff.rfl

/-- Every index of the output array is in some point's block. -/
theorem cover0_out (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := idx_onto0 ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk0_1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- The output array after the region: the transpose of the input array as the region finds it. -/
theorem final0 (c : Dev nD) : (dat0 V c).arrAt 1 cfg0.N = fun i : S8192x4096.Idx => V c main_arg0 (ValueIdx.ix2 (i 1) (i 0)) :=
  (dat0 V c).arrAt_eq_of_cover 1 (G0 V c) (fun t _ => flushed0_1_eq V c t) cover0_out

/-- The input array after the region is as the region found it: its window is never written back. -/
theorem arrAt0_in (c : Dev nD) : (dat0 V c).arrAt 0 cfg0.N = V c main_arg0 :=
  ((dat0 V c).arrAt_in 0 rfl _).trans (A_eq0 V c 0)

end Value0

end Cert.KernelIdeal.Hand

end
-- ==== Proof.KI.Read1.lean ====
/- The second pallas_call's two payloads READ AT AN INDEX.
   `row1`: at grid point (g, n) the body loads the two gathered [1, 32, 128] blocks a, b and row n of the
   [128, 4] coefficient block, (c0, c1, c2, c3), and stores, at every (r, q) of the [32, 128] tile,
   ((c0 + c1·a) + c2·b) + c3·(a·b), each scalar coefficient broadcast over the tile; the leading unit axis is
   dropped before the arithmetic and put back after it, which changes no element.
   `out3`: the [128, 32, 128] accumulator S is rotated by the permutation [1, 2, 0], which sends S's index
   (j, r, q) to (r, q, j), and the two leading axes are flattened row-major, (r, q) to 128·r + q; the single
   whole-block store leaves that payload, so the output block at (p, j) is S at (j, p / 128, p % 128). -/
import proofs.«428619_j54528904790310_2_alg».proof.Proof.KI.Body1
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]

/-- The zero offsets of a rank-3 whole-block access, as a function. -/
theorem rd_hz3 : (![0, 0, 0] : Fin 3 → Nat) = fun _ => 0 := funext fun a => by fin_cases a <;> rfl
/-- The zero offsets of a rank-2 whole-block access, as a function. -/
theorem rd_hz2 : (![0, 0] : Fin 2 → Nat) = fun _ => 0 := funext fun a => by fin_cases a <;> rfl

/-- Coefficient `o` of the point's neuron: the coefficient row is row `n` of the [128, 4] block (the load's
    offset is `[n, 0]`), flattened to a 4-vector, whose entry `o` is sliced out and extracted. -/
theorem coef1_apply (i : grid1.Coords) (x2 : Vec F S128x4 .f32) (o : Nat) (ho : o < 4) (hs : S4.Slices ![o] S1) :
    extractAt ![0] (extractStridedSlice S1 ![o] (shapeCast S4 (View.ld x2 (rC i)) shapeCasts_S1x4_S4) hs) inpos_S1_p0
      = x2 (ValueIdx.ix2 (⟨(i 1).val, (i 1).isLt⟩ : Fin 128) (⟨o, ho⟩ : Fin 4)) := by
  unfold extractAt
  refine (extractStridedSlice_apply (s := S4) (t := S1) ![o] _ hs _ (ValueIdx.ix1 (⟨o, ho⟩ : Fin 4)) (fun a => ?_)).trans ?_
  · match a with
    | ⟨0, _⟩ => rfl
  · refine (shapeCast_1a_a_apply _ shapeCasts_S1x4_S4 (⟨o, ho⟩ : Fin 4)).trans ?_
    show x2 ((rC i).idx (ValueIdx.ix2 (0 : Fin 1) (⟨o, ho⟩ : Fin 4))) = _
    refine congrArg x2 (funext fun a => Fin.ext ?_)
    have hoff := k1_off2_eq i
    match a with
    | ⟨0, _⟩ => show k1_off2 i 0 + 1 * 0 = (i 1).val; rw [hoff]; show (i 1).val + 1 * 0 = (i 1).val; omega
    | ⟨1, _⟩ => show k1_off2 i 1 + 1 * o = o; rw [hoff]; show 0 + 1 * o = o; omega

/-- The output block at `(p, j)` is the accumulator at `(j, p / 128, p % 128)`: a flattening read at a
    row-major position, then a rotation of the axes read at an index. -/
theorem out3_apply (S : Vec F S128x32x128 .f32) (p : Fin 4096) (j : Fin 128) :
    out3 (F := F) S (ValueIdx.ix2 p j) = S (ValueIdx.ix3 j (⟨p.val / 128, by omega⟩ : Fin 32) (⟨p.val % 128, by omega⟩ : Fin 128)) := by
  unfold out3
  rw [View.canon_unit_zero rd_hz2]
  simp only [View.ld_unit_zero (S := S128x32x128) rd_hz3]
  unfold k1_pay2
  refine (shapeCast_apply (s := S32x128x128) (t := S4096x128) _ shapeCasts_S32x128x128_S4096x128 (ValueIdx.ix2 p j)
    (ValueIdx.ix3 (⟨p.val / 128, by omega⟩ : Fin 32) (⟨p.val % 128, by omega⟩ : Fin 128) j) ?_).trans ?_
  · rw [Shape.rowMajor_val_three, Shape.rowMajor_val_two]
    show (p.val / 128 * 128 + p.val % 128) * 128 + j.val = p.val * 128 + j.val
    omega
  · exact transpose_apply (s := S128x32x128) (t := S32x128x128) [1, 2, 0] S transposes_S128x32x128_p1_2_0_S32x128x128 _
      (ValueIdx.ix3 j (⟨p.val / 128, by omega⟩ : Fin 32) (⟨p.val % 128, by omega⟩ : Fin 128))
      (fun b => match b with | ⟨0, _⟩ => rfl | ⟨1, _⟩ => rfl | ⟨2, _⟩ => rfl)

/-- The stored row at `(0, r, q)`: the affine form of the two gathered elements with the four coefficients,
    associated as the body computes it. -/
theorem row1_apply (i : grid1.Coords) (x0 x1 : Vec Ideal S1x32x128 .f32) (x2 : Vec Ideal S128x4 .f32) (r : Fin 32) (q : Fin 128) :
    row1 (F := Ideal) i x0 x1 x2 (ValueIdx.ix3 (0 : Fin 1) r q)
      = x2 (ValueIdx.ix2 (⟨(i 1).val, (i 1).isLt⟩ : Fin 128) (0 : Fin 4)) + x2 (ValueIdx.ix2 (⟨(i 1).val, (i 1).isLt⟩ : Fin 128) (1 : Fin 4)) * x0 (ValueIdx.ix3 (0 : Fin 1) r q)
        + x2 (ValueIdx.ix2 (⟨(i 1).val, (i 1).isLt⟩ : Fin 128) (2 : Fin 4)) * x1 (ValueIdx.ix3 (0 : Fin 1) r q)
        + x2 (ValueIdx.ix2 (⟨(i 1).val, (i 1).isLt⟩ : Fin 128) (3 : Fin 4)) * (x0 (ValueIdx.ix3 (0 : Fin 1) r q) * x1 (ValueIdx.ix3 (0 : Fin 1) r q)) := by
  unfold row1 k1_pay1
  simp only [View.ld_unit_zero (S := S1x32x128) rd_hz3]
  refine (shapeCast_ab_1ab_apply _ shapeCasts_S32x128_S1x32x128 (0 : Fin 1) r q).trans ?_
  simp only [addf_apply, mulf_apply, broadcast_apply, shapeCast_1ab_ab_apply]
  rw [coef1_apply i x2 0 (by decide) slices_S4_o0_S1, coef1_apply i x2 1 (by decide) slices_S4_o1_S1,
    coef1_apply i x2 2 (by decide) slices_S4_o2_S1, coef1_apply i x2 3 (by decide) slices_S4_o3_S1]
  rfl

end Cert.KernelIdeal.Hand

end
-- ==== Proof.KI.ValueK.lean ====
/- THE VALUE of the second pallas_call's output array, against the specification.
   Entry `(p, o)` of the [4096, 16384] output, with `g = o / 128` and `j = o % 128`, is written back by the last point
   `128·g + 127` of neuron `o`'s block of 128 grid points, from the accumulator re-laid: the output block's entry
   `(p, j)` is the accumulator's entry `(j, p / 128, p % 128)`. Row `j` of the accumulator is what point `128·g + j = o`
   stored: `c0 + c1·A + c2·B + c3·(A·B)`, where `cK` is entry `(o, K)` of the coefficient array (block `g` of 128
   rows, row `j`), and `A`, `B` are entries `(wa, r, q)`, `(wb, r, q)` of the re-laid transposed input, `wa`, `wb`
   the values of the words the two index tables hold at position `o` and `(r, q) = (p / 128, p % 128)`. A block's
   coordinate is always (block index) × (block size) + (coordinate inside the block). The [8192, 4096] transposed input
   re-laid as [8192, 32, 128] reads at `(w, r, q)` the matrix entry `(w, 128·r + q) = (w, p)`, which is `x (p, w)`;
   a table word in range is the column the specification names. -/
import proofs.«428619_j54528904790310_2_alg».proof.Proof.KI.Data1
import proofs.«428619_j54528904790310_2_alg».proof.Proof.KI.Read1
import proofs.«428619_j54528904790310_2_alg».proof.Proof.KI.Sched1
import proofs.«428619_j54528904790310_2_alg».proof.Proof.Spec
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

section ValueK
variable (V : (c : Dev nD) → (b : Ref sig .tc) → Buf (Elt Ideal) ((c : Thread nD τ).loc b))
variable (a : (pcfg1 (F := Ideal)).Adm)

/-- The coefficient block at a point: row `jj` of block `t / 128` of the [16384, 4] array is its row `128·(t / 128) + jj`. -/
theorem xc_apply (c : Dev nD) (t : Fin (cfg1 a).N)
    (hi2 : ((cfg1 a).win 2).index t = ![t.val / 128, 0]) (jj : Fin 128) (K : Fin 4) :
    xc V a c t (ValueIdx.ix2 jj K)
      = (V c main_v11 : S16384x4.Idx → Elt Ideal .f32) (ValueIdx.ix2 (⟨t.val / 128 * 128 + jj.val, by have := lt1 a t; have := jj.isLt; omega⟩ : Fin 16384) K) := by
  unfold xc iblk1
  show (V c main_v11 : S16384x4.Idx → Elt Ideal .f32) ((((cfg1 a).win 2).blk t).view.emb (ValueIdx.ix2 jj K)) = _
  refine congrArg (V c main_v11 : S16384x4.Idx → Elt Ideal .f32) (funext fun d => Fin.ext ?_)
  match d with
  | ⟨0, _⟩ =>
    show ((cfg1 a).win 2).index t (0 : Fin 2) * 128 + 1 * jj.val = t.val / 128 * 128 + jj.val
    rw [hi2]; show t.val / 128 * 128 + 1 * jj.val = _; omega
  | ⟨1, _⟩ =>
    show ((cfg1 a).win 2).index t (1 : Fin 2) * 4 + 1 * K.val = K.val
    rw [hi2]; show 0 * 4 + 1 * K.val = _; omega

/-- A gathered block at a point: block `(w, 0, 0)` of the [8192, 32, 128] array at `(0, r, q)` is the array at `(w, r, q)`,
    `w` the value of the word the first table holds at the point's position. -/
theorem xa_apply (c : Dev nD) (t : Fin (cfg1 a).N) (w : Fin 8192)
    (hi0 : ((cfg1 a).win 0).index t = ![w.val, 0, 0]) (r : Fin 32) (q : Fin 128) :
    xa V a c t (ValueIdx.ix3 (0 : Fin 1) r q)
      = (V c main_v13 : S8192x32x128.Idx → Elt Ideal .f32) (ValueIdx.ix3 w r q) := by
  unfold xa iblk1
  show (V c main_v13 : S8192x32x128.Idx → Elt Ideal .f32) ((((cfg1 a).win 0).blk t).view.emb (ValueIdx.ix3 (0 : Fin 1) r q)) = _
  refine congrArg (V c main_v13 : S8192x32x128.Idx → Elt Ideal .f32) (funext fun d => Fin.ext ?_)
  match d with
  | ⟨0, _⟩ =>
    show ((cfg1 a).win 0).index t (0 : Fin 3) * 1 + 1 * 0 = w.val
    rw [hi0]; show w.val * 1 + 1 * 0 = _; omega
  | ⟨1, _⟩ =>
    show ((cfg1 a).win 0).index t (1 : Fin 3) * 32 + 1 * r.val = r.val
    rw [hi0]; show 0 * 32 + 1 * r.val = _; omega
  | ⟨2, _⟩ =>
    show ((cfg1 a).win 0).index t (2 : Fin 3) * 128 + 1 * q.val = q.val
    rw [hi0]; show 0 * 128 + 1 * q.val = _; omega

/-- The same for the second gathered block and the second table. -/
theorem xb_apply (c : Dev nD) (t : Fin (cfg1 a).N) (w : Fin 8192)
    (hi1 : ((cfg1 a).win 1).index t = ![w.val, 0, 0]) (r : Fin 32) (q : Fin 128) :
    xb V a c t (ValueIdx.ix3 (0 : Fin 1) r q)
      = (V c main_v13 : S8192x32x128.Idx → Elt Ideal .f32) (ValueIdx.ix3 w r q) := by
  unfold xb iblk1
  show (V c main_v13 : S8192x32x128.Idx → Elt Ideal .f32) ((((cfg1 a).win 1).blk t).view.emb (ValueIdx.ix3 (0 : Fin 1) r q)) = _
  refine congrArg (V c main_v13 : S8192x32x128.Idx → Elt Ideal .f32) (funext fun d => Fin.ext ?_)
  match d with
  | ⟨0, _⟩ =>
    show ((cfg1 a).win 1).index t (0 : Fin 3) * 1 + 1 * 0 = w.val
    rw [hi1]; show w.val * 1 + 1 * 0 = _; omega
  | ⟨1, _⟩ =>
    show ((cfg1 a).win 1).index t (1 : Fin 3) * 32 + 1 * r.val = r.val
    rw [hi1]; show 0 * 32 + 1 * r.val = _; omega
  | ⟨2, _⟩ =>
    show ((cfg1 a).win 1).index t (2 : Fin 3) * 128 + 1 * q.val = q.val
    rw [hi1]; show 0 * 128 + 1 * q.val = _; omega

/-- The [8192, 4096] matrix re-laid as [8192, 32, 128] reads, at `(w, r, q)`, the matrix at `(w, 128·r + q)`. -/
theorem relay_apply {α : Type} (M : S8192x4096.Idx → α) (w : Fin 8192) (r : Fin 32) (q : Fin 128) :
    shapeCast S8192x32x128 M shapeCasts_S8192x4096_S8192x32x128 (ValueIdx.ix3 w r q)
      = M (ValueIdx.ix2 w (⟨128 * r.val + q.val, by have := r.isLt; have := q.isLt; omega⟩ : Fin 4096)) := by
  refine shapeCast_apply (s := S8192x4096) (t := S8192x32x128) M shapeCasts_S8192x4096_S8192x32x128 _ _ ?_
  rw [Shape.rowMajor_val_three, Shape.rowMajor_val_two]
  show w.val * 4096 + (128 * r.val + q.val) = (w.val * 32 + r.val) * 128 + q.val
  omega

/-- The point of the block of the point `128·g + 127` at position `o % 128`, `g = o / 128`, is the point `o`. -/
theorem blockPoint_last (o : Fin 16384) (h1 : o.val / 128 * 128 + 127 < (cfg1 a).N) (h2 : o.val < (cfg1 a).N) :
    blockPoint a ⟨o.val / 128 * 128 + 127, h1⟩ (⟨o.val % 128, Nat.mod_lt _ (by decide)⟩ : Fin 128) = ⟨o.val, h2⟩ := by
  unfold blockPoint
  refine Fin.ext ?_
  show (o.val / 128 * 128 + 127) / 128 * 128 + o.val % 128 = o.val
  omega

/-- What point `t` stores in its accumulator row, at `(0, r, q)`: the affine form of the two gathered entries with the
    four coefficients of neuron `t`, all read off the arrays as the region finds them (`C` the coefficient array,
    `M` the re-laid transposed input). -/
theorem rowAt_apply (c : Dev nD) (t : Fin (cfg1 a).N) (C : Vec Ideal S16384x4 .f32) (M : Vec Ideal S8192x32x128 .f32)
    (hC : (V c main_v11 : Vec Ideal S16384x4 .f32) = C) (hM : (V c main_v13 : Vec Ideal S8192x32x128 .f32) = M)
    (wa wb : Fin 8192)
    (hwa : BitVec.toNat (a.1 0 (ValueIdx.ix1 ⟨t.val, lt1 a t⟩)) = wa.val)
    (hwb : BitVec.toNat (a.1 1 (ValueIdx.ix1 ⟨t.val, lt1 a t⟩)) = wb.val) (r : Fin 32) (q : Fin 128) :
    rowAt V a c t (ValueIdx.ix3 (0 : Fin 1) r q)
      = C (ValueIdx.ix2 (⟨t.val, lt1 a t⟩ : Fin 16384) (0 : Fin 4))
        + C (ValueIdx.ix2 (⟨t.val, lt1 a t⟩ : Fin 16384) (1 : Fin 4)) * M (ValueIdx.ix3 wa r q)
        + C (ValueIdx.ix2 (⟨t.val, lt1 a t⟩ : Fin 16384) (2 : Fin 4)) * M (ValueIdx.ix3 wb r q)
        + C (ValueIdx.ix2 (⟨t.val, lt1 a t⟩ : Fin 16384) (3 : Fin 4)) * (M (ValueIdx.ix3 wa r q) * M (ValueIdx.ix3 wb r q)) := by
  unfold rowAt
  rw [row1_apply]
  have hi0 : ((cfg1 a).win 0).index t = ![wa.val, 0, 0] := (index1_0 a t).trans (by rw [hwa])
  have hi1 : ((cfg1 a).win 1).index t = ![wb.val, 0, 0] := (index1_1 a t).trans (by rw [hwb])
  rw [xa_apply V a c t wa hi0, xb_apply V a c t wb hi1, hM]
  have hrow : ∀ K : Fin 4, xc V a c t (ValueIdx.ix2 (⟨(((cfg1 a).grid.coords t) 1).val, (((cfg1 a).grid.coords t) 1).isLt⟩ : Fin 128) K)
      = C (ValueIdx.ix2 (⟨t.val, lt1 a t⟩ : Fin 16384) K) := fun K => by
    rw [xc_apply V a c t (index1_2 a t), hC]
    refine congrArg C (funext fun d => Fin.ext ?_)
    match d with
    | ⟨0, _⟩ =>
      show t.val / 128 * 128 + (((cfg1 a).grid.coords t) 1).val = t.val
      rw [coords1_1 a t]; omega
    | ⟨1, _⟩ => rfl
  rw [hrow 0, hrow 1, hrow 2, hrow 3]

/-- The last point of the block of 128 neurons that holds neuron `o` is a grid point. -/
theorem vk_last (o : Fin 16384) : o.val / 128 * 128 + 127 < (cfg1 a).N := by
  show _ < grid1.N
  rw [N_1]; have := o.isLt; omega

/-- A neuron's number is a grid point. -/
theorem vk_pt (o : Fin 16384) : o.val < (cfg1 a).N := by
  show _ < grid1.N
  rw [N_1]; exact o.isLt

/-- THE OUTPUT ARRAY of the second pallas_call, as the write-backs leave it, is the specification's result: entry
    `(p, o)` is written by the last point of neuron `o`'s block from row `o % 128` of the accumulator, which point `o`
    stored — the affine form of the two gathered entries `x (p, ia o)`, `x (p, ib o)` with neuron `o`'s coefficients. -/
theorem Gout_eq (c : Dev nD) (x : FVec Ideal S4096x8192 .f32) (coef : FVec Ideal S16384x4 .f32) (ia ib : IVec S16384 32)
    (hV11 : (V c main_v11 : Vec Ideal S16384x4 .f32) = coef)
    (hV13 : (V c main_v13 : Vec Ideal S8192x32x128 .f32)
      = shapeCast S8192x32x128 (fun i : S8192x4096.Idx => x (ValueIdx.ix2 (i 1) (i 0))) shapeCasts_S8192x4096_S8192x32x128)
    (ht0 : (a.1 0 : IVec S16384 32) = ia) (ht1 : (a.1 1 : IVec S16384 32) = ib)
    (ha : ∀ k, (ia k).toNat < 8192) (hb : ∀ k, (ib k).toNat < 8192) :
    (fun i : S4096x16384.Idx => out3 (accOf V a c ⟨(i 1).val / 128 * 128 + 127, vk_last a ((i 1 : Fin 16384))⟩)
        (ValueIdx.ix2 (i 0) (⟨(i 1).val % 128, Nat.mod_lt _ (by decide)⟩ : Fin 128)))
      = Cert.Spec.G x coef ia ib := by
  funext i
  obtain ⟨p, o, rfl⟩ : ∃ (p : Fin 4096) (o : Fin 16384), i = ValueIdx.ix2 p o := ⟨i 0, i 1, ValueIdx.eq_ix2 i⟩
  show out3 (accOf V a c ⟨o.val / 128 * 128 + 127, vk_last a o⟩)
        (ValueIdx.ix2 p (⟨o.val % 128, Nat.mod_lt _ (by decide)⟩ : Fin 128))
      = Cert.Spec.entry x coef ia ib p o
  rw [out3_apply]
  show rowAt V a c (blockPoint a ⟨o.val / 128 * 128 + 127, vk_last a o⟩ (⟨o.val % 128, Nat.mod_lt _ (by decide)⟩ : Fin 128))
      (ValueIdx.ix3 (0 : Fin 1) (⟨p.val / 128, by have := p.isLt; omega⟩ : Fin 32) (⟨p.val % 128, Nat.mod_lt _ (by decide)⟩ : Fin 128)) = _
  rw [blockPoint_last a o (vk_last a o) (vk_pt a o)]
  rw [rowAt_apply V a c ⟨o.val, vk_pt a o⟩ coef _ hV11 hV13
    ⟨(ia (ValueIdx.ix1 o)).toNat, ha _⟩ ⟨(ib (ValueIdx.ix1 o)).toNat, hb _⟩ (by rw [ht0]) (by rw [ht1])]
  rw [relay_apply, relay_apply]
  have hx : ∀ (w : BitVec 32) (hw : w.toNat < 8192) (P : Fin 4096), P.val = p.val →
      x (ValueIdx.ix2 ((ValueIdx.ix2 (⟨w.toNat, hw⟩ : Fin 8192) P) 1) ((ValueIdx.ix2 (⟨w.toNat, hw⟩ : Fin 8192) P) 0))
        = x (ValueIdx.ix2 p (Cert.Spec.col w)) := fun w hw P hP =>
    congrArg x (funext fun d => Fin.ext (match d with
      | ⟨0, _⟩ => hP
      | ⟨1, _⟩ => (Cert.Spec.col_val w hw).symm))
  have hp : 128 * (p.val / 128) + p.val % 128 = p.val := by omega
  rw [hx (ia (ValueIdx.ix1 o)) (ha _) ⟨128 * (p.val / 128) + p.val % 128, by have := p.isLt; omega⟩ hp,
    hx (ib (ValueIdx.ix1 o)) (hb _) ⟨128 * (p.val / 128) + p.val % 128, by have := p.isLt; omega⟩ hp]
  rfl

end ValueK

end Cert.KernelIdeal.Hand

end
-- ==== Proof.KI.Value1.lean ====
/- The second pallas_call's output array after the region, as ONE function of the buffer contents the region finds.
   The grid has 128 x 128 points; point t has coordinates (g, j) = (t / 128, t % 128). The output window's blocks
   are the [4096, 128] column panels of the [4096, 16384] output array, panel g at point t, and a panel is written
   back exactly at the last point of its block of 128 points (j = 127), where it holds the re-laid accumulator of
   that block. An element of panel g sits at row (0 * 4096 + its row) and column (g * 128 + its column); so entry
   (p, o) of the array is the entry (p, o % 128) of the re-laid accumulator of block o / 128. The accumulator of a
   block depends on the point only through t / 128, and the 128 panels tile the array: it ends holding that
   function everywhere. -/
import proofs.«428619_j54528904790310_2_alg».proof.Proof.KI.Inv1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Value1

variable (V : (c : Dev nD) → (b : Ref sig .tc) → Buf (Elt F) ((c : Thread nD τ).loc b))
variable (a : (pcfg1 (F := F)).Adm)

/-- The output array as one function: entry (p, o) is entry (p, o % 128) of the re-laid accumulator of the block
    o / 128 of 128 neurons, read at the block's last point. -/
def Gout (c : Dev nD) : S4096x16384.Idx → Elt F .f32 := fun i =>
  out3 (accOf V a c ⟨(i 1).val / 128 * 128 + 127, by
      have h : (cfg1 a).N = 16384 := N_1
      have hi : (i 1).val < 16384 := (i 1).isLt
      omega⟩)
    (ValueIdx.ix2 (i 0) ⟨(i 1).val % 128, Nat.mod_lt _ (by decide)⟩)

/-- The function at an index (p, o) of block t / 128 is the re-laid accumulator of point t's block at (p, o % 128). -/
theorem Gout_apply (c : Dev nD) (t : Fin (cfg1 a).N) (i : S4096x16384.Idx) (y : S4096x128.Idx)
    (h1 : (i 1).val / 128 = t.val / 128) (h0 : (y 0).val = (i 0).val) (h2 : (y 1).val = (i 1).val % 128) :
    Gout V a c i = out3 (accOf V a c t) y := by
  have ht : t.val < 16384 := lt1 a t
  have hi : (i 1).val < 16384 := (i 1).isLt
  have hN : (cfg1 a).N = 16384 := N_1
  have e : accOf V a c ⟨(i 1).val / 128 * 128 + 127, by omega⟩ = accOf V a c t :=
    accOf_congr V a c t ⟨(i 1).val / 128 * 128 + 127, by omega⟩ (by
      show ((i 1).val / 128 * 128 + 127) / 128 = t.val / 128
      omega)
  unfold Gout
  rw [e]
  refine congrArg (out3 (accOf V a c t)) (funext fun b => Fin.ext ?_)
  match b with
  | ⟨0, _⟩ => show (i 0).val = (y 0).val; omega
  | ⟨1, _⟩ => show (i 1).val % 128 = (y 1).val; omega

/-- The panel's element (y0, y1) at point t sits at row y0 and column (t / 128) * 128 + y1 of the array, whose block
    is t's and whose position in it is y1. -/
theorem flushed1_3_apply (c : Dev nD) (t : Fin (cfg1 a).N) (j : S4096x128.Idx) :
    out3 (accOf V a c t) j = Gout V a c ((((cfg1 a).win 3).blk t).view.emb j) := by
  have i0 : ((cfg1 a).win 3).index t (0 : Fin 2) = 0 := congrFun (index1_3 a t) (0 : Fin 2)
  have i1 : ((cfg1 a).win 3).index t (1 : Fin 2) = t.val / 128 := congrFun (index1_3 a t) (1 : Fin 2)
  have hj0 : (j 0).val < 4096 := (j 0).isLt
  have hj1 : (j 1).val < 128 := (j 1).isLt
  refine (Gout_apply V a c t _ j ?_ ?_ ?_).symm
  · show (((cfg1 a).win 3).index t (1 : Fin 2) * 128 + 1 * (j 1).val) / 128 = t.val / 128
    omega
  · show (j 0).val = ((cfg1 a).win 3).index t (0 : Fin 2) * 4096 + 1 * (j 0).val
    omega
  · show (j 1).val = (((cfg1 a).win 3).index t (1 : Fin 2) * 128 + 1 * (j 1).val) % 128
    omega

/-- The panel is moved whole: what is written back at an index is what the body left there. -/
theorem cut1_3_apply (X : Vec F S4096x128 .f32) (t : Fin (cfg1 a).N) (j : S4096x128.Idx) :
    ((cfg1 a).win 3).cut ((cfg1 a).grid.coords t) X j = X j := rfl

/-- Reading a function of the array through point t's panel is the function at the element's place in the array. -/
theorem read_blk1_3_apply (G : S4096x16384.Idx → Elt F .f32) (t : Fin (cfg1 a).N) (j : S4096x128.Idx) :
    (((cfg1 a).win 3).blk t).view.read (Elt F) G j = G ((((cfg1 a).win 3).blk t).view.emb j) := rfl

/-- What point t writes back is panel t of that function. -/
theorem flushed1_3_eq (c : Dev nD) (t : Fin (cfg1 a).N) :
    (dat1 V a c).flushed 3 t = (((cfg1 a).win 3).blk t).view.read (Elt F) (Gout V a c) := by
  show ((cfg1 a).win 3).cut ((cfg1 a).grid.coords t) ((dat1 V a c).after 3 t) = _
  rw [after1_3]
  funext j
  exact (cut1_3_apply a _ t j).trans ((flushed1_3_apply V a c t j).trans (read_blk1_3_apply a _ t j).symm)

/-- An index of the output array is in a unit-stride rectangle iff each coordinate is in its range on its axis. -/
theorem mem_slice_unit14 (off size : Fin 2 → Nat) (inb : ∀ b, off b + size b ≤ S4096x16384.size b) (i : S4096x16384.Idx) :
    i ∈ ((View.whole main_v14).slice (Rect.unit (s := S4096x16384) off size inb)).set ↔ ∀ b : Fin 2, off b ≤ (i b).val ∧ (i b).val < off b + size b := by
  rw [View.set_slice_whole, Rect.mem_set_unit]
  exact Iff.rfl

/-- An index of the output array is in point t's panel iff each coordinate is in the panel's range on its axis. -/
theorem mem_blk1_3 (t : Fin (cfg1 a).N) (i : S4096x16384.Idx) :
    i ∈ (((cfg1 a).win 3).blk t).view.set ↔ ∀ b : Fin 2, ((cfg1 a).win 3).index t b * S4096x128.size b ≤ (i b).val ∧ (i b).val < ((cfg1 a).win 3).index t b * S4096x128.size b + S4096x128.size b :=
  mem_slice_unit14 (fun b => ((cfg1 a).win 3).index t b * S4096x128.size b) S4096x128.size _ i

/-- Every index of the output array is in the panel of a point that writes back: column o is in the panel of the last
    point of block o / 128. -/
theorem cover1_out (i : S4096x16384.Idx) :
    ∃ t : Fin (cfg1 a).N, ((cfg1 a).win 3).flush t = true ∧ i ∈ (((cfg1 a).win 3).blk t).view.set := by
  have hN : (cfg1 a).N = 16384 := N_1
  have hi0 : (i 0).val < 4096 := (i 0).isLt
  have hi1 : (i 1).val < 16384 := (i 1).isLt
  refine ⟨⟨(i 1).val / 128 * 128 + 127, by omega⟩, ?_, ?_⟩
  · rw [flush1_3]
    exact decide_eq_true (by show ((i 1).val / 128 * 128 + 127) % 128 = 127; omega)
  · rw [mem_blk1_3, index1_3]
    intro b
    match b with
    | ⟨0, _⟩ => show 0 * 4096 ≤ (i 0).val ∧ (i 0).val < 0 * 4096 + 4096; omega
    | ⟨1, _⟩ => show ((i 1).val / 128 * 128 + 127) / 128 * 128 ≤ (i 1).val ∧ (i 1).val < ((i 1).val / 128 * 128 + 127) / 128 * 128 + 128; omega

/-- The output array after the region: the re-laid accumulators of the 128 blocks, panel by panel. -/
theorem final1 (c : Dev nD) : (dat1 V a c).arrAt 3 (cfg1 a).N = Gout V a c :=
  (dat1 V a c).arrAt_eq_of_cover 3 (Gout V a c) (fun t _ => flushed1_3_eq V a c t) (cover1_out a)

end Value1

end Cert.KernelIdeal.Hand

end
-- ==== Proof.K.Region0.lean ====
/- REGION 0 of the program's @main: the first TensorCore pallas_call, the blockwise transpose (pipeline 0,
   grid [4, 8]). Window 0 reads the [1024, 1024] block (i, j) of the input array, window 1 writes the
   [1024, 1024] block (j, i) of the output array, and the body stores the transpose of the block it loads.
   Everything is stated at a PARAMETER `V`, the TensorCore's buffer contents when the region is entered:
   each window's block at a grid point, what the body leaves in the output window's buffer, the body's
   triple, the pipeline's proof data and the body obligation at every grid point. -/
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    input array is the entry contents and whose body leaves the input block in place: the window is
    fetched at every point it moves, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [1024, 1024] block -/

abbrev r0_0 : Rect S1024x1024 := Rect.unit (s := S1024x1024) ![0, 0] S1024x1024.size inb_S1024x1024_S1024x1024_0_0

/-! ## What the body leaves in the output window's buffer -/

/-- The output window's staging buffer after the body, from the input block: the single whole-block store
    of the transposed load. -/
def out0_1 (x0 : Vec F S1024x1024 .f32) : Vec F S1024x1024 .f32 :=
  View.canon [⟨r0_0, k0_pay1 (View.ld x0 r0_0)⟩]

/-- The single store is the whole block, so it covers the buffer. -/
theorem cover0_1 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg2 : Memref sig .tc .vmem S1024x1024 .f32) (harg2 : arg2.IsWhole) (arg3 : Memref sig .tc .vmem S1024x1024 .f32) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them; after the body at point
    `t` the input's buffer at its block and the output's at the transposed block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second launch's body, in its two control cases

The second launch walks the 16384 output neurons in 128 blocks of 128: grid point `(g, j)` serves neuron `128 g + j`.
Its body loads the two gathered `[1, 32, 128]` rows `a`, `b` (a row of the re-laid transposed input is a column of the
input) and row `j` of the block's `[128, 4]` coefficients `(c0, c1, c2, c3)`, forms `((c0 + c1*a) + c2*b) + c3*(a*b)`
entry by entry, and stores it as row `j` of a `[128, 32, 128]` accumulator that lives across the points of the block.
Only when `j = 127` does it go on: it reads the whole accumulator, rotates its axes `[j, r, q] ↦ [r, q, j]`, flattens
`(r, q)` to the row `128 r + q` and stores the `[4096, 128]` result over the output block. The two cases are stated
over arbitrary whole staging memrefs and arbitrary prior contents of the accumulator: what the accumulator holds
afterwards is the one row written over what it held. -/

section Body

/-! ## The body's accesses -/

/-- A whole `[1,32,128]` staging block. -/
abbrev rA : Rect S1x32x128 := Rect.unit (s := S1x32x128) ![0, 0, 0] S1x32x128.size inb_S1x32x128_S1x32x128_0_0_0
/-- Row `j` of the `[128,4]` coefficient block: the four coefficients of the point's neuron. -/
abbrev rC (i : grid1.Coords) : Rect S128x4 := Rect.unit (s := S128x4) (k1_off2 i) S1x4.size (k1_off2_inb i)
/-- Row `j` of the `[128,32,128]` accumulator. -/
abbrev rRow (i : grid1.Coords) : Rect S128x32x128 := Rect.unit (s := S128x32x128) (k1_off3 i) S1x32x128.size (k1_off3_inb i)
/-- The whole accumulator. -/
abbrev rScr : Rect S128x32x128 := Rect.unit (s := S128x32x128) ![0, 0, 0] S128x32x128.size inb_S128x32x128_S128x32x128_0_0_0
/-- The whole `[4096,128]` output block. -/
abbrev rOut : Rect S4096x128 := Rect.unit (s := S4096x128) ![0, 0] S4096x128.size inb_S4096x128_S4096x128_0_0

/-- What a point stores into its accumulator row: the affine form of the two gathered blocks with the four
    coefficients of the point's neuron (the skeleton's payload of the three loads). -/
def row1 (i : grid1.Coords) (x0 x1 : Vec F S1x32x128 .f32) (x2 : Vec F S128x4 .f32) : Vec F S1x32x128 .f32 :=
  k1_pay1 (View.ld x0 rA) (View.ld x1 rA) (View.ld x2 (rC i))

/-- What the last point of a block of 128 neurons stores into the output block, from the accumulator as it then
    reads: the accumulator's axes rotated and flattened, as the canon of the one whole store. -/
def out3 (S : Vec F S128x32x128 .f32) : Vec F S4096x128 .f32 :=
  View.canon [⟨rOut, k1_pay2 (View.ld S rScr)⟩]

theorem cover3 (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triples, by case of its one conditional -/

set_option maxHeartbeats 1000000 in
/-- At a point that is not the last of its block the body reads its three input blocks and overwrites its own row of
    the accumulator; the output block's buffer is not touched. -/
theorem sound_kernel1_A (c : Dev nD) (E : Set ℕ) (i : grid1.Coords) (hi : ¬ k1_cond1 i = 1#1)
    (arg4 : Memref sig .tc .vmem S1x32x128 .f32) (harg4 : arg4.IsWhole) (arg5 : Memref sig .tc .vmem S1x32x128 .f32) (harg5 : arg5.IsWhole)
    (arg6 : Memref sig .tc .vmem S128x4 .f32) (harg6 : arg6.IsWhole) (arg7 : Memref sig .tc .vmem S4096x128 .f32) (harg7 : arg7.IsWhole)
    (arg8 : Memref sig .tc .vmem S128x32x128 .f32) (harg8 : arg8.IsWhole)
    (x0 x1 : Vec F S1x32x128 .f32) (x2 : Vec F S128x4 .f32) (fs : arg8.view.ty.Contents (Elt F))
    (K : PUnit → sProp 𝕄) :
    iprop(owns (c : Thread nD τ) arg4 fullShare x0 ∗ owns (c : Thread nD τ) arg5 fullShare x1 ∗ owns (c : Thread nD τ) arg6 fullShare x2
        ∗ (arg8.view.loc (c : Thread nD τ) ↦[arg8.view.set]{fullShare} fs)
        ∗ (iprop(owns (c : Thread nD τ) arg4 fullShare x0 ∗ owns (c : Thread nD τ) arg5 fullShare x1 ∗ owns (c : Thread nD τ) arg6 fullShare x2
            ∗ (arg8.view.loc (c : Thread nD τ) ↦[arg8.view.set]{fullShare} arg8.view.writes (Elt F) fs [⟨rRow i, row1 i x0 x1 x2⟩])) -∗ K ⟨⟩))
      ⊢ wp frame (wpE (defs₀ (F := F)) Variants.none c none) E (cc1__gather_kernel i (Memref.whole main_arg2) (Memref.isWhole_whole _) (Memref.whole main_arg3) (Memref.isWhole_whole _) arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, Hs, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact Hs

set_option maxHeartbeats 1000000 in
/-- At the last point of a block the body, after overwriting its row, reads the whole accumulator and stores it,
    re-laid, over the whole output block. -/
theorem sound_kernel1_B (c : Dev nD) (E : Set ℕ) (i : grid1.Coords) (hi : k1_cond1 i = 1#1)
    (arg4 : Memref sig .tc .vmem S1x32x128 .f32) (harg4 : arg4.IsWhole) (arg5 : Memref sig .tc .vmem S1x32x128 .f32) (harg5 : arg5.IsWhole)
    (arg6 : Memref sig .tc .vmem S128x4 .f32) (harg6 : arg6.IsWhole) (arg7 : Memref sig .tc .vmem S4096x128 .f32) (harg7 : arg7.IsWhole)
    (arg8 : Memref sig .tc .vmem S128x32x128 .f32) (harg8 : arg8.IsWhole)
    (x0 x1 : Vec F S1x32x128 .f32) (x2 : Vec F S128x4 .f32) (fs : arg8.view.ty.Contents (Elt F))
    (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d)
        ∗ (arg8.view.loc (c : Thread nD τ) ↦[arg8.view.set]{fullShare} fs)
        ∗ (iprop(owns (c : Thread nD τ) arg4 fullShare x0 ∗ owns (c : Thread nD τ) arg5 fullShare x1 ∗ owns (c : Thread nD τ) arg6 fullShare x2
            ∗ owns (c : Thread nD τ) arg7 fullShare (out3 (arg8.view.read (Elt F) (arg8.view.writes (Elt F) fs [⟨rRow i, row1 i x0 x1 x2⟩])))
            ∗ (arg8.view.loc (c : Thread nD τ) ↦[arg8.view.set]{fullShare} arg8.view.writes (Elt F) fs [⟨rRow i, row1 i x0 x1 x2⟩])) -∗ K ⟨⟩))
      ⊢ wp frame (wpE (defs₀ (F := F)) Variants.none c none) E (cc1__gather_kernel i (Memref.whole main_arg2) (Memref.isWhole_whole _) (Memref.whole main_arg3) (Memref.isWhole_whole _) arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, Hs, Hk⟩
  subst hf0 hf1 hf2
  sl_exec
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexact Hs

end Body

end Cert.Kernel.Hand

end
-- ==== Proof.K.Data1.lean ====
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import proofs.«428619_j54528904790310_2_alg».proof.Proof.K.Body1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the second launch

What the second launch leaves, point by point. The input windows are only read: after the body each still holds its
block (`iblk1`). Point `t = 128 g + j` computes one accumulator row, `rowAt t`, from its three blocks. The accumulator
is carried from point to point inside a block of 128 points, so it is described by an invariant rather than a value:
before point `t`, the rows `j' < t % 128` hold `rowAt (128 g + j')`, the others anything (`ScrInv`; at the first point
of a block it says nothing, which is why the accumulator may enter the region holding anything). Once the block's
last point has stored its row the accumulator is `accOf t`, row `j'` being `rowAt (128 g + j')`, and the output block
is its re-laying `out3 (accOf t)` — consulted only at those points, the only ones that write the block back. The array
the two gathered windows share is held half and half (`q`), the coefficient array and the output array whole. -/

/-! ## The proof data of the second pallas_call, at the region-entry contents `V` and admissible tables `a` -/

section Data

/-- The accumulator's buffer as a whole memref. -/
abbrev mscr : Memref sig .tc .vmem S128x32x128 .f32 := Memref.whole cc1_scratch0
theorem mscr_whole : (mscr).IsWhole := Memref.isWhole_whole _

variable (V : (c : Dev nD) → (b : Ref sig .tc) → Buf (Elt F) ((c : Thread nD τ).loc b))
variable (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The three input blocks at a point, at their literal types: the row of the re-laid transposed input the first table
    names, the row the second table names, and the block of 128 neurons' coefficients. -/
abbrev xa (c : Dev nD) (t : Fin (cfg1 a).N) : Vec F S1x32x128 .f32 := iblk1 V a c 0 t
abbrev xb (c : Dev nD) (t : Fin (cfg1 a).N) : Vec F S1x32x128 .f32 := iblk1 V a c 1 t
abbrev xc (c : Dev nD) (t : Fin (cfg1 a).N) : Vec F S128x4 .f32 := iblk1 V a c 2 t

/-- The accumulator row point `t` computes. -/
def rowAt (c : Dev nD) (t : Fin (cfg1 a).N) : Vec F S1x32x128 .f32 :=
  row1 ((cfg1 a).grid.coords t) (xa V a c t) (xb V a c t) (xc V a c t)

/-- The point of `t`'s block of 128 neurons whose position in the block is `j`. -/
def blockPoint (t : Fin (cfg1 a).N) (j : Fin 128) : Fin (cfg1 a).N :=
  ⟨t.val / 128 * 128 + j.val, by
    have h : (cfg1 a).N = 16384 := N_1
    have := t.isLt; have := j.isLt; omega⟩

/-- The accumulator once every point of `t`'s block has stored its row: row `j` is what the block's `j`-th point computes. -/
def accOf (c : Dev nD) (t : Fin (cfg1 a).N) : Vec F S128x32x128 .f32 :=
  fun y => rowAt V a c (blockPoint a t (y 0)) (ValueIdx.ix3 (0 : Fin 1) (y 1) (y 2))

/-- What the accumulator's buffer holds before point `t` (after point `t - 1`): the rows of the block's points already
    run are theirs; the other rows hold anything. -/
def ScrInv (c : Dev nD) (t : Fin ((cfg1 a).N + 1)) (fs : mscr.view.ty.Contents (Elt F)) : Prop :=
  ∀ (h : t.val < (cfg1 a).N) (y : S128x32x128.Idx), (y 0).val < t.val % 128 → mscr.view.read (Elt F) fs y = accOf V a c ⟨t.val, h⟩ y

/-- The region's invariant between points: the scoped buffers the second pallas_call does not stage, the accumulator
    among them at contents satisfying `ScrInv`; the two tables whole; the generator register. -/
def Phi1 (c : Dev nD) (t : Fin ((cfg1 a).N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ fs : mscr.view.ty.Contents (Elt F), ⌜ScrInv V a c t fs⌝ ∗ (mscr.view.loc (c : Thread nD τ) ↦[mscr.view.set]{fullShare} fs))
    ∗ Pipeline.prefHeld (Ix := Unit) (Name := ℕ) (U := UR sig nD τ) (Lvl := ℕ) pre1 c (fun _ => fullShare) a.1
    ∗ ∃ r, prngReg c r)

/-- The proof data: the arrays as the region finds them; after the body each input's buffer at its block, the output's at
    the re-laid accumulator of the point's block (consulted only where the body stores it: the last point of each block);
    the invariant `Phi1`; the array shared by the two gathered windows held half and half; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out3 (accOf V a c t)
  Φ t := Phi1 V a c t
  q w := match w with
    | ⟨0, _⟩ => fullShare.left
    | ⟨1, _⟩ => fullShare.right
    | ⟨2, _⟩ => fullShare
    | ⟨3, _⟩ => fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = out3 (accOf V a c t) := by dsimp only [dat1]; rfl
theorem q1_0 (c : Dev nD) : (dat1 V a c).q 0 = fullShare.left := by dsimp only [dat1]; rfl
theorem q1_1 (c : Dev nD) : (dat1 V a c).q 1 = fullShare.right := by dsimp only [dat1]; rfl
theorem q1_2 (c : Dev nD) : (dat1 V a c).q 2 = fullShare := by dsimp only [dat1]; rfl
theorem owed1 (c : Dev nD) (t) : (dat1 V a c).owed t = 0 := by dsimp only [dat1]
theorem Phi_eq1 (c : Dev nD) (t) : (dat1 V a c).Φ t = Phi1 V a c t := by dsimp only [dat1]

end Data

end Cert.Kernel.Hand

end
-- ==== Proof.K.Split1.lean ====
/-
  The second launch's array holdings, at entry and at exit. Its four windows name three buffers: input windows
  0 and 1 both read one array, input window 2 another, and the output window 3 a third. A TensorCore's unscoped
  buffers, each held whole at the full share, are the three buffers behind the windowed arrays, the two prefetched
  index tables, and the rest. At entry the full share of the twice-read array is split into its left and right
  halves, one for each of the two windows that read it; the other two arrays go whole to their windows. At exit
  the two halves, at the same unchanged contents, make the full share again, the output array holds what the
  pipeline left in it, and every other buffer is as it was.
-/
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

/-- The buffers behind the second launch's four windowed arrays are three: windows 0 and 1 read one array. -/
theorem arrImage1 : Finset.univ.image (Pipeline.arrRef spec1) = [main_v13, main_v11, main_v14].toFinset := by decide

/-- A TensorCore's unscoped buffers at contents V, dealt for the second launch: the three buffers behind its
    windowed arrays, its two prefetched tables, and the rest. -/
theorem unscopedBufs_eq1 (a : (pcfg1 (F := F)).Adm) (c : Dev nD) (V : (b : Ref sig .tc) → Buf (Elt F) ((c : Thread nD τ).loc b)) :
    (unscopedBufs c V : sProp 𝕄) = iprop(
      ((((c : Thread nD τ).loc main_v13) ↦{fullShare} V main_v13) ∗ (((c : Thread nD τ).loc main_v11) ↦{fullShare} V main_v11)
        ∗ (((c : Thread nD τ).loc main_v14) ↦{fullShare} V main_v14))
      ∗ Pipeline.prefHeld pre1 c (fun _ => fullShare) (fun k => V (pre1.ref k)) ∗ Pipeline.unscopedRestP pre1 spec1 c V) := by
  rw [Pipeline.PerCore.unscopedBufs_split₀ (fun (_ : Dev nD) (_ : Unit) => cfg1 a) () c winFacts₀1.arr_unscoped V]
  show iprop(Pipeline.arrBufs spec1 c V ∗ Pipeline.unscopedRest spec1 c V) = _
  rw [Pipeline.unscopedRest_split preFacts1 c V]
  unfold Pipeline.arrBufs
  rw [bigSep_eq_bigSepL_of_eq [main_v13, main_v11, main_v14] arrImage1 (by decide)]
  rfl

variable (a : (pcfg1 (F := F)).Adm) (c : Dev nD)
variable (dat : Dat τ (Elt F) Unit ℕ (UR sig nD τ) ℕ (cfg1 a) c)

/-- The pipeline's windowed arrays, window by window: each array is a whole buffer, held at the window's share;
    windows 0 and 1 hold the two halves of one buffer. -/
theorem arrays_eq1 (hq0 : dat.q 0 = fullShare.left) (hq1 : dat.q 1 = fullShare.right) (hq2 : dat.q 2 = fullShare)
    (F₀ : (w : Fin (cfg1 a).W) → Buf (Elt F) (((cfg1 a).win w).arr.view.loc (c : Thread nD τ))) :
    (dat.arrays F₀ : sProp 𝕄) = iprop(
        (((c : Thread nD τ).loc main_v13) ↦{fullShare.left} F₀ 0) ∗ (((c : Thread nD τ).loc main_v13) ↦{fullShare.right} F₀ 1)
        ∗ (((c : Thread nD τ).loc main_v11) ↦{fullShare} F₀ 2) ∗ (((c : Thread nD τ).loc main_v14) ↦{fullShare} F₀ 3)) := by
  have s0 : dat.share 0 = fullShare.left := by unfold Dat.share; exact hq0
  have s1 : dat.share 1 = fullShare.right := by unfold Dat.share; exact hq1
  have s2 : dat.share 2 = fullShare := by unfold Dat.share; exact hq2
  have s3 : dat.share 3 = fullShare := by unfold Dat.share; rfl
  unfold Dat.arrays
  refine (bigSep_congr (Ψ := fun w => (((cfg1 a).win w).arr.view.loc (c : Thread nD τ)) ↦{dat.share w} F₀ w)
    fun w _ => by rw [(arr_whole1 w).set_eq_univ]).trans ?_
  refine (bigSep_W1 _).trans ?_
  show iprop((_ ↦{dat.share 0} F₀ 0) ∗ (_ ↦{dat.share 1} F₀ 1) ∗ (_ ↦{dat.share 2} F₀ 2) ∗ (_ ↦{dat.share 3} F₀ 3)) = _
  rw [s0, s1, s2, s3]
  rfl

variable (V V' : (b : Ref sig .tc) → Buf (Elt F) ((c : Thread nD τ).loc b))

/-- Entering the second launch: the full share of the array windows 0 and 1 both read is dealt to them as its two
    halves; the other two arrays go whole to their windows; the tables and the rest stay as they are. -/
theorem entry1 (hq0 : dat.q 0 = fullShare.left) (hq1 : dat.q 1 = fullShare.right) (hq2 : dat.q 2 = fullShare)
    (F₀ : (w : Fin (cfg1 a).W) → Buf (Elt F) (((cfg1 a).win w).arr.view.loc (c : Thread nD τ)))
    (hF : ∀ w, F₀ w = V (Pipeline.arrRef spec1 w)) :
    (unscopedBufs c V : sProp 𝕄) ⊢ iprop(dat.arrays F₀ ∗ Pipeline.prefHeld pre1 c (fun _ => fullShare) (fun k => V (pre1.ref k))
      ∗ Pipeline.unscopedRestP pre1 spec1 c V) := by
  rw [unscopedBufs_eq1 a c V, arrays_eq1 a c dat hq0 hq1 hq2 F₀, hF 0, hF 1, hF 2, hF 3]
  iintro ⟨⟨H13, H11, H14⟩, HP, HR⟩
  ihave H := (pointsTo_share (PosShare.mem_left_op_right fullShare)).1 $$ H13
  icases H with ⟨Hl, Hr⟩
  isplitl [Hl Hr H11 H14]
  · isplitl [Hl]; · iexact Hl
    isplitl [Hr]; · iexact Hr
    isplitl [H11]; · iexact H11
    iexact H14
  · isplitl [HP]; · iexact HP
    iexact HR

/-- Leaving the second launch: the two halves of the shared array, unchanged, are the full share again; the output
    array holds what the pipeline left in it; everything else is as it was. -/
theorem exit1 (hq0 : dat.q 0 = fullShare.left) (hq1 : dat.q 1 = fullShare.right) (hq2 : dat.q 2 = fullShare)
    (F₁ : (w : Fin (cfg1 a).W) → Buf (Elt F) (((cfg1 a).win w).arr.view.loc (c : Thread nD τ)))
    (h0 : F₁ 0 = V main_v13) (h1 : F₁ 1 = V main_v13) (h2 : F₁ 2 = V main_v11)
    (hV' : ∀ b, b ≠ main_v14 → V' b = V b) (h3 : V' main_v14 = F₁ 3) :
    iprop(dat.arrays F₁ ∗ Pipeline.prefHeld pre1 c (fun _ => fullShare) (fun k => V (pre1.ref k))
      ∗ Pipeline.unscopedRestP pre1 spec1 c V) ⊢ (unscopedBufs c V' : sProp 𝕄) := by
  have eP : (fun k => V' (pre1.ref k)) = (fun k => V (pre1.ref k)) := funext fun k => hV' _ (preFacts1.disj k 3)
  have eR : (Pipeline.unscopedRestP pre1 spec1 c V' : sProp 𝕄) = Pipeline.unscopedRestP pre1 spec1 c V := by
    unfold Pipeline.unscopedRestP
    refine bigSep_congr fun b hb => ?_
    have hb' : b ≠ main_v14 := fun e =>
      (Finset.mem_sdiff.mp (Finset.mem_sdiff.mp hb).1).2 (Finset.mem_image.mpr ⟨3, Finset.mem_univ _, e.symm⟩)
    rw [hV' b hb']
  rw [unscopedBufs_eq1 a c V', arrays_eq1 a c dat hq0 hq1 hq2 F₁, h0, h1, h2, ← h3, eP, eR,
    hV' main_v13 (by decide), hV' main_v11 (by decide)]
  iintro ⟨⟨Hl, Hr, H11, H14⟩, HP, HR⟩
  isplitl [Hl Hr H11 H14]
  · isplitl [Hl Hr]
    · iapply (pointsTo_share (PosShare.mem_left_op_right fullShare)).2
      isplitl [Hl]; · iexact Hl
      iexact Hr
    isplitl [H11]; · iexact H11
    iexact H14
  · isplitl [HP]; · iexact HP
    iexact HR

end Split1

end Cert.Kernel.Hand

end
-- ==== Proof.K.Ok.lean ====
/-
  The second launch's side condition on its two prefetched index tables, from a bound on their words. At each
  grid point the block index of either gathered window is (t, 0, 0), t the table word at the offset the point
  names, read unsigned; the block is [1, 32, 128] of an [8192, 32, 128] array, so it is inside the array exactly
  when t + 1 ≤ 8192 (the other two axes hold one block each: 1·32 ≤ 32, 1·128 ≤ 128). Every word of each table
  is below 8192, in particular the one read, whichever index that is. The element type is 32 bits wide, so the
  transfer ends are word-exact.
-/
import proofs.«428619_j54528904790310_2_alg».proof.Kernel

set_option maxRecDepth 16384

noncomputable section

namespace Cert.Kernel.Hand

open Cert.Kernel
open Idealize.ShloMosaic Idealize.SL.Sem

variable {F : FTy → Type} [FloatOps F] [Facts₀]
open Facts₀

/-- The block (t, 0, 0) of extents [1, 32, 128] is inside the [8192, 32, 128] array when t < 8192. -/
theorem block_inb (t : Nat) (ht : t < 8192) :
    ∀ a : Fin 3, ((![t, (0#32 : BitVec 32).toNat, (0#32 : BitVec 32).toNat] : Fin 3 → Nat) a + 1) * S1x32x128.size a
      ≤ S8192x32x128.size a := by
  intro a
  have z : (0#32 : BitVec 32).toNat = 0 := rfl
  fin_cases a
  · show (t + 1) * 1 ≤ 8192
    omega
  · show ((0#32 : BitVec 32).toNat + 1) * 32 ≤ 32
    rw [z]
  · show ((0#32 : BitVec 32).toNat + 1) * 128 ≤ 128
    rw [z]

/-- The side condition holds of any table contents whose words are all below 8192. -/
theorem ok1_of_lt (pf : pre1.Contents (Elt F)) (h0 : ∀ k, ((pf 0) k).toNat < 8192)
    (h1 : ∀ k, ((pf 1) k).toNat < 8192) : ok1 pf := by
  refine ⟨fun i => ⟨fun a => ?_, Or.inl rfl⟩, fun i => ⟨fun a => ?_, Or.inl rfl⟩⟩
  · unfold cc1_transform_0
    exact block_inb _ (h0 _) a
  · unfold cc1_transform_1
    exact block_inb _ (h1 _) a

end Cert.Kernel.Hand

end
-- ==== Proof.K.Host.lean ====
/- The host stretches of the program read as values. Between the kernel regions the program runs plain tensor
   operations: first the softmax of the logits along axis 1 contracted with the 16x4 literal table (the row
   weights), later one reshape of the first region's output. Here each buffer a later region reads is stated
   as a pure term of the launch contents (or of what the first region left): the weights as the sixteen
   operations composed in the printed order, the reshaped array as the row-major recast of the region's output,
   and every argument as launched, since no host operation writes an argument. -/
import proofs.«428619_j54528904790310_2_alg».proof.Proof.Gen.Kernel.Regions
import Idealize.ShloMosaic.Lib.StableHlo.Run

noncomputable section

namespace Cert.Kernel.Hand

open Cert.Kernel Cert.Kernel.Gen Idealize.ShloMosaic Idealize.ShloMosaic.TcCoe Idealize.SL.Sem

variable {F : FTy → Type} [FloatOps F]

/-- Operations %cst … %11: the softmax of the logits along axis 1 (the row maximum subtracted, the exponential,
    the row sum divided out), then the contraction of its 16 entries with the literal table's 4 columns. -/
def coefK (w : FVec F S16384x16 .f32) : FVec F S16384x4 .f32 :=
  let cst : (⟨S16x4, .f32⟩ : BufTy).Contents (Elt F) := fun i => FloatOps.ofBits .f32 (lit0 (S16x4.rowMajor i))
  let cst_0 : (⟨S_, .f32⟩ : BufTy).Contents (Elt F) := constant S_ .f32 0xFF800000#32
  let v0 : (⟨S16384, .f32⟩ : BufTy).Contents (Elt F) := Host.reduce FloatOps.maximumf w cst_0 reducesTo_S16384x16_S16384_d1 h_S_
  let cst_1 : (⟨S_, .f32⟩ : BufTy).Contents (Elt F) := constant S_ .f32 0xFF800000#32
  let v1 : (⟨S16384, .f32⟩ : BufTy).Contents (Elt F) := broadcastInDim S16384 ![] bcast_S_S16384 cst_1
  let v2 : (⟨S16384, .f32⟩ : BufTy).Contents (Elt F) := maximumf v1 v0
  let v3 : (⟨S16384x1, .f32⟩ : BufTy).Contents (Elt F) := broadcastInDim S16384x1 ![0] bcast_S16384_S16384x1_0 v2
  let v4 : (⟨S16384x16, .f32⟩ : BufTy).Contents (Elt F) := broadcastInDim S16384x16 ![0, 1] bcast_S16384x1_S16384x16_0_1 v3
  let v5 : (⟨S16384x16, .f32⟩ : BufTy).Contents (Elt F) := subf w v4
  let v6 : (⟨S16384x16, .f32⟩ : BufTy).Contents (Elt F) := Host.exp v5
  let cst_2 : (⟨S_, .f32⟩ : BufTy).Contents (Elt F) := constant S_ .f32 0x00000000#32
  let v7 : (⟨S16384, .f32⟩ : BufTy).Contents (Elt F) := Host.reduceAdd v6 cst_2 reducesTo_S16384x16_S16384_d1 h_S_
  let v8 : (⟨S16384x1, .f32⟩ : BufTy).Contents (Elt F) := broadcastInDim S16384x1 ![0] bcast_S16384_S16384x1_0 v7
  let v9 : (⟨S16384x16, .f32⟩ : BufTy).Contents (Elt F) := broadcastInDim S16384x16 ![0, 1] bcast_S16384x1_S16384x16_0_1 v8
  let v10 : (⟨S16384x16, .f32⟩ : BufTy).Contents (Elt F) := Host.divf v6 v9
  Host.dotGeneral dot_S16384x16_S16x4_S16384x4_1_0_0_1_n_n none v10 cst

variable (m : (ℓ : Loc nD τ sig) → Buf (Elt F) ℓ) (outs : Outs (F := F))

/-- After the first host stretch the weights' buffer holds the composed term of the launched logits. -/
theorem V1_coef (c : Dev nD) :
    V1 m c (Proc.devRef .tc main_v11) = coefK (m ((c : Thread nD τ).loc main_arg1)) := by
  dsimp only [V1, V0]
  simp only [hostOps0]
  after_results
  rfl

/-- Neither the first region nor the reshape writes the weights: the second region reads them as computed. -/
theorem V3_coef (c : Dev nD) :
    V3 m outs c (Proc.devRef .tc main_v11) = coefK (m ((c : Thread nD τ).loc main_arg1)) :=
  (V3_of m outs c main_v11 (by decide)).trans <| (V2_of m outs c main_v11 (by decide)).trans (V1_coef m c)

/-- The second host stretch is one reshape: the first region's 8192x4096 output recast, in row-major order, as
    8192x32x128. -/
theorem V3_v13 (c : Dev nD) :
    V3 m outs c (Proc.devRef .tc main_v13)
      = shapeCast S8192x32x128 (outs 2 main_v12 c) shapeCasts_S8192x4096_S8192x32x128 := by
  dsimp only [V3, V2]
  simp only [hostOps1]
  after_results
  rw [Function.update_self]
  rfl

/-- No host operation writes an argument: after the first stretch the first argument is as launched. -/
theorem V1_arg0 (c : Dev nD) : V1 m c (Proc.devRef .tc main_arg0) = m ((c : Thread nD τ).loc main_arg0) :=
  (V1_of m c main_arg0 (by decide)).trans rfl

/-- Before the second region every argument still holds its launch contents. -/
theorem V3_arg0 (c : Dev nD) : V3 m outs c (Proc.devRef .tc main_arg0) = m ((c : Thread nD τ).loc main_arg0) :=
  (V3_of m outs c main_arg0 (by decide)).trans <| (V2_of m outs c main_arg0 (by decide)).trans <| (V1_of m c main_arg0 (by decide)).trans rfl
theorem V3_arg2 (c : Dev nD) : V3 m outs c (Proc.devRef .tc main_arg2) = m ((c : Thread nD τ).loc main_arg2) :=
  (V3_of m outs c main_arg2 (by decide)).trans <| (V2_of m outs c main_arg2 (by decide)).trans <| (V1_of m c main_arg2 (by decide)).trans rfl
theorem V3_arg3 (c : Dev nD) : V3 m outs c (Proc.devRef .tc main_arg3) = m ((c : Thread nD τ).loc main_arg3) :=
  (V3_of m outs c main_arg3 (by decide)).trans <| (V2_of m outs c main_arg3 (by decide)).trans <| (V1_of m c main_arg3 (by decide)).trans rfl

end Cert.Kernel.Hand

end
-- ==== Proof.K.Sched1.lean ====
/-
  The second pipeline's schedule over its 128 × 128 grid, in closed form.

  Point t of the grid (row-major, last axis fastest) has coordinates (g, j) = (t / 128, t % 128).
  The words the index maps and the body compute from the coordinates are small, so 32-bit
  arithmetic on them is arithmetic on the naturals: 128 * g + j = t is the position the two
  prefetched tables are read at, j is the row of the coefficient block and of the scratch buffer,
  and the body's store into the output block is guarded by j = 127. The output block is
  (0, g): it changes exactly after the points with j = 127, which are the points where the
  output is written back, and the only points where the body stores into it.
-/
import proofs.«428619_j54528904790310_2_alg».proof.Proof.Gen.Kernel.Launch
import proofs.«428619_j54528904790310_2_alg».proof.Proof.Gen.Kernel.Points
import Idealize.ShloMosaic.Lib.ValueIdx
import Idealize.ShloMosaic.Lib.Pipeline.Cells

namespace Cert.Kernel.Hand

open Cert.Kernel Cert.Kernel.Gen Idealize.ShloMosaic

variable {F : FTy → Type} [FloatOps F]

/-! ## Small words -/

/-- A natural below 2³² is the value of its 32-bit word. -/
theorem toNat_ofNat_small (n : Nat) (h : n < 2 ^ 32) : (BitVec.ofNat 32 n).toNat = n := by
  rw [BitVec.toNat_ofNat]; exact Nat.mod_eq_of_lt h

/-- The word 128 * g + j, for g, j below 128, has that value. -/
theorem off1_word (g j : Nat) (hg : g < 128) (hj : j < 128) :
    (Scalar.indexCast (Scalar.addi (Scalar.muli (BitVec.ofNat 32 g) 128#32) (BitVec.ofNat 32 j))).toNat = g * 128 + j := by
  unfold Scalar.indexCast Scalar.addi Scalar.muli IntOp.addi IntOp.muli
  rw [BitVec.toNat_add, BitVec.toNat_mul, toNat_ofNat_small g (by omega), toNat_ofNat_small j (by omega)]
  show (g * 128 % 2 ^ 32 + j) % 2 ^ 32 = g * 128 + j
  omega

/-- The store's guard, computed on the word of j below 128: it holds exactly when j = 127. -/
theorem cond1_word (n : Nat) (hn : n < 128) :
    Scalar.cmpi .ne (Scalar.extui (Scalar.cmpi .eq (BitVec.ofNat 32 n) 127#32)) 0#32 = 1#1 ↔ n = 127 := by
  by_cases h : n = 127
  · subst h
    simp only [iff_true]
    decide
  · have hne : ¬ BitVec.ofNat 32 n = 127#32 := by
      intro he
      have h2 := congrArg BitVec.toNat he
      rw [toNat_ofNat_small n (by omega)] at h2
      exact h h2
    have hb : (BitVec.ofNat 32 n == 127#32) = false := beq_eq_false_iff_ne.mpr hne
    have h0 : Scalar.cmpi .eq (BitVec.ofNat 32 n) 127#32 = 0#1 := by
      show BitVec.ofBool (BitVec.ofNat 32 n == 127#32) = 0#1
      rw [hb]
      rfl
    rw [h0]
    simp only [h, iff_false]
    decide

/-! ## The index maps, the offsets and the guard as functions of the coordinates -/

theorem cond1_iff (i : grid1.Coords) : k1_cond1 i = 1#1 ↔ (i 1).val = 127 :=
  cond1_word (i 1).val (i 1).isLt

theorem off2_eq (i : grid1.Coords) : k1_off2 i = ![(i 1).val, 0] := k1_off2_eq i

theorem off3_eq (i : grid1.Coords) : k1_off3 i = ![(i 1).val, 0, 0] := k1_off3_eq i

theorem off1_eq (i : grid1.Coords) : k1_off1 i = ![(i 0).val * 128 + (i 1).val] := by
  have hg : (i 0).val < 128 := (i 0).isLt
  have hj : (i 1).val < 128 := (i 1).isLt
  show ![(Scalar.indexCast (Scalar.addi (Scalar.muli (BitVec.ofNat 32 (i 0).val) 128#32) (BitVec.ofNat 32 (i 1).val))).toNat] = _
  rw [off1_word _ _ hg hj]

theorem transform2_eq (i : grid1.Coords) : cc1_transform_2 i = ![(i 0).val, 0] := by
  have hg : (i 0).val < 128 := (i 0).isLt
  show ![(BitVec.ofNat 32 (i 0).val).toNat, (0#32).toNat] = _
  rw [toNat_ofNat_small (i 0).val (by omega)]
  rfl

theorem transform3_eq (i : grid1.Coords) : cc1_transform_3 i = ![0, (i 0).val] := by
  have hg : (i 0).val < 128 := (i 0).isLt
  show ![(0#32).toNat, (BitVec.ofNat 32 (i 0).val).toNat] = _
  rw [toNat_ofNat_small (i 0).val (by omega)]
  rfl

/-- A rank-2 block index with first coordinate 0 is determined by its second coordinate. -/
theorem vec2_ne_iff (x y : Nat) : (![0, x] : Fin 2 → Nat) ≠ ![0, y] ↔ x ≠ y := by
  constructor
  · intro h hxy
    exact h (by rw [hxy])
  · intro h he
    exact h (congrFun he 1)

/-! ## The pipeline at any admissible contents of the two tables -/

section AtContents
variable (a : (pcfg1 (F := F)).Adm)

/-- The grid has 16384 points. -/
theorem lt1 (t : Fin (cfg1 a).N) : t.val < 16384 := by
  have h : t.val < grid1.N := t.isLt
  rwa [N_1] at h

theorem coords1_0 (t : Fin (cfg1 a).N) : (((cfg1 a).grid.coords t) 0).val = t.val / 128 := by
  have ht := lt1 a t
  show t.val / grid1.stride 0 % 128 = t.val / 128
  have hs : grid1.stride 0 = 128 := by decide
  rw [hs]
  omega

theorem coords1_1 (t : Fin (cfg1 a).N) : (((cfg1 a).grid.coords t) 1).val = t.val % 128 := by
  show t.val / grid1.stride 1 % 128 = t.val % 128
  have hs : grid1.stride 1 = 1 := by decide
  rw [hs, Nat.div_one]

theorem idle1_0 (t : Fin (cfg1 a).N) : (cfg1 a).idle 0 ((cfg1 a).grid.coords t) = false := rfl
theorem idle1_1 (t : Fin (cfg1 a).N) : (cfg1 a).idle 1 ((cfg1 a).grid.coords t) = false := rfl
theorem idle1_2 (t : Fin (cfg1 a).N) : (cfg1 a).idle 2 ((cfg1 a).grid.coords t) = false := rfl

theorem idle1_3 (t : Fin (cfg1 a).N) :
    (cfg1 a).idle 3 ((cfg1 a).grid.coords t) = !decide (t.val % 128 = 127) := by
  have h : k1_cond1 ((cfg1 a).grid.coords t) = 1#1 ↔ t.val % 128 = 127 := by
    rw [cond1_iff, coords1_1 a t]
  show (!(k1_cond1 ((cfg1 a).grid.coords t) == 1#1)) = _
  rw [beq_eq_decide, decide_eq_decide.mpr h]

theorem index1_3 (t : Fin (cfg1 a).N) : ((cfg1 a).win 3).index t = ![0, t.val / 128] := by
  show cc1_transform_3 ((cfg1 a).grid.coords t) = _
  rw [transform3_eq, coords1_0 a t]

theorem index1_2 (t : Fin (cfg1 a).N) : ((cfg1 a).win 2).index t = ![t.val / 128, 0] := by
  show cc1_transform_2 ((cfg1 a).grid.coords t) = _
  rw [transform2_eq, coords1_0 a t]

/-- The block of the first gathered operand at a point: the word the first table holds at the point's position
    128 * g + j, then 0, 0. -/
theorem transform0_eq (pf : pre1.Contents (Elt F)) (i : grid1.Coords) (h : (i 0).val * 128 + (i 1).val < 16384) :
    cc1_transform_0 k1_off1_inb numel1_S1 pf i
      = ![BitVec.toNat (pf 0 (ValueIdx.ix1 ⟨(i 0).val * 128 + (i 1).val, h⟩)), 0, 0] := by
  have hk : (Rect.unit (s := S16384) (k1_off1 i) S1.size (k1_off1_inb i)).emb
      (Shape.Idx.first (numel1_S1.symm ▸ Nat.one_pos)) = ValueIdx.ix1 ⟨(i 0).val * 128 + (i 1).val, h⟩ := by
    funext d
    refine Fin.ext ?_
    match d with
    | ⟨0, _⟩ =>
      show k1_off1 i 0 + 1 * 0 = (i 0).val * 128 + (i 1).val
      rw [off1_eq]
      rfl
  funext c
  match c with
  | ⟨0, _⟩ => exact congrArg (fun k => BitVec.toNat (pf 0 k)) hk
  | ⟨1, _⟩ => rfl
  | ⟨2, _⟩ => rfl

/-- The same for the second gathered operand and the second table. -/
theorem transform1_eq (pf : pre1.Contents (Elt F)) (i : grid1.Coords) (h : (i 0).val * 128 + (i 1).val < 16384) :
    cc1_transform_1 k1_off1_inb numel1_S1 pf i
      = ![BitVec.toNat (pf 1 (ValueIdx.ix1 ⟨(i 0).val * 128 + (i 1).val, h⟩)), 0, 0] := by
  have hk : (Rect.unit (s := S16384) (k1_off1 i) S1.size (k1_off1_inb i)).emb
      (Shape.Idx.first (numel1_S1.symm ▸ Nat.one_pos)) = ValueIdx.ix1 ⟨(i 0).val * 128 + (i 1).val, h⟩ := by
    funext d
    refine Fin.ext ?_
    match d with
    | ⟨0, _⟩ =>
      show k1_off1 i 0 + 1 * 0 = (i 0).val * 128 + (i 1).val
      rw [off1_eq]
      rfl
  funext c
  match c with
  | ⟨0, _⟩ => exact congrArg (fun k => BitVec.toNat (pf 1 k)) hk
  | ⟨1, _⟩ => rfl
  | ⟨2, _⟩ => rfl

/-- The coordinates of point t put back together give t. -/
theorem coords1_sum (t : Fin (cfg1 a).N) :
    (((cfg1 a).grid.coords t) 0).val * 128 + (((cfg1 a).grid.coords t) 1).val = t.val := by
  rw [coords1_0 a t, coords1_1 a t]
  omega

theorem index1_0 (t : Fin (cfg1 a).N) :
    ((cfg1 a).win 0).index t = ![BitVec.toNat (a.1 0 (ValueIdx.ix1 ⟨t.val, lt1 a t⟩)), 0, 0] := by
  have hs := coords1_sum a t
  have hlt : (((cfg1 a).grid.coords t) 0).val * 128 + (((cfg1 a).grid.coords t) 1).val < 16384 := by
    rw [hs]; exact lt1 a t
  show cc1_transform_0 k1_off1_inb numel1_S1 a.1 ((cfg1 a).grid.coords t) = _
  rw [transform0_eq a.1 _ hlt]
  have he : (⟨(((cfg1 a).grid.coords t) 0).val * 128 + (((cfg1 a).grid.coords t) 1).val, hlt⟩ : Fin 16384)
      = ⟨t.val, lt1 a t⟩ := Fin.ext hs
  rw [he]

theorem index1_1 (t : Fin (cfg1 a).N) :
    ((cfg1 a).win 1).index t = ![BitVec.toNat (a.1 1 (ValueIdx.ix1 ⟨t.val, lt1 a t⟩)), 0, 0] := by
  have hs := coords1_sum a t
  have hlt : (((cfg1 a).grid.coords t) 0).val * 128 + (((cfg1 a).grid.coords t) 1).val < 16384 := by
    rw [hs]; exact lt1 a t
  show cc1_transform_1 k1_off1_inb numel1_S1 a.1 ((cfg1 a).grid.coords t) = _
  rw [transform1_eq a.1 _ hlt]
  have he : (⟨(((cfg1 a).grid.coords t) 0).val * 128 + (((cfg1 a).grid.coords t) 1).val, hlt⟩ : Fin 16384)
      = ⟨t.val, lt1 a t⟩ := Fin.ext hs
  rw [he]

/-- The output is never fetched. -/
theorem fetch1_3 (t : Fin (cfg1 a).N) : ((cfg1 a).win 3).fetch t = false :=
  Pipeline.Window.fetch_out _ rfl t

/-- The output block (0, g) is written back exactly at the last point of each row of the grid. -/
theorem flush1_3 (t : Fin (cfg1 a).N) : ((cfg1 a).win 3).flush t = decide (t.val % 128 = 127) := by
  have ht := lt1 a t
  have hN := N_1
  show (true && (decide (t.val + 1 = grid1.N) || decide (∃ h : t.val + 1 < grid1.N,
    ((cfg1 a).win 3).index ⟨t.val + 1, h⟩ ≠ ((cfg1 a).win 3).index t))) = _
  rw [Bool.true_and, Bool.eq_iff_iff]
  simp only [Bool.or_eq_true, decide_eq_true_eq]
  constructor
  · rintro (h | ⟨h, hne⟩)
    · omega
    · rw [index1_3 a ⟨t.val + 1, h⟩, index1_3 a t] at hne
      have hne' : (t.val + 1) / 128 ≠ t.val / 128 := (vec2_ne_iff _ _).mp hne
      omega
  · intro h
    by_cases hl : t.val + 1 = grid1.N
    · exact Or.inl hl
    · have hlt : t.val + 1 < grid1.N := by omega
      refine Or.inr ⟨hlt, ?_⟩
      rw [index1_3 a ⟨t.val + 1, hlt⟩, index1_3 a t]
      have hne' : (t.val + 1) / 128 ≠ t.val / 128 := by omega
      exact (vec2_ne_iff _ _).mpr hne'

end AtContents

end Cert.Kernel.Hand
-- ==== Proof.K.Inv1.lean ====
import proofs.«428619_j54528904790310_2_alg».proof.Proof.K.Data1
import proofs.«428619_j54528904790310_2_alg».proof.Proof.K.Sched1
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The accumulator between the points of the second pallas_call

Point `t` of the `[128,128]` grid stores the row it computes at accumulator row `t % 128`. Reading the accumulator
after that store: the stored row at that row, what was there at every other. Hence the invariant "the rows of the
block's points already run are theirs" passes from before a point to after it, and after the last point of a block
(`t % 128 = 127`) the accumulator is the block's whole. -/

/-- A point of `Fin n` read in `Fin (n + 1)` and back is itself. -/
theorem mk_castSucc_val {n : Nat} (t : Fin n) (h : (t.castSucc : Fin (n + 1)).val < n) :
    (⟨(t.castSucc : Fin (n + 1)).val, h⟩ : Fin n) = t := rfl

section Inv

variable (V : (c : Dev nD) → (b : Ref sig .tc) → Buf (Elt F) ((c : Thread nD τ).loc b))
variable (a : (pcfg1 (F := F)).Adm)

/-- Point `t`'s row store is at accumulator row `t % 128`, from its first column and lane. -/
theorem off3_at (t : Fin (cfg1 a).N) : k1_off3 ((cfg1 a).grid.coords t) = ![t.val % 128, 0, 0] := by
  rw [off3_eq, coords1_1]

/-- The accumulator read after one row store at row `t % 128`: the stored row there, the earlier contents elsewhere. -/
theorem read_row_store (t : Fin (cfg1 a).N) (fs : mscr.view.ty.Contents (Elt F)) (w : Vec F S1x32x128 .f32)
    (y : S128x32x128.Idx) :
    mscr.view.read (Elt F) (mscr.view.writes (Elt F) fs [⟨rRow ((cfg1 a).grid.coords t), w⟩]) y
      = if (y 0).val = t.val % 128 then w (ValueIdx.ix3 (0 : Fin 1) (y 1) (y 2)) else mscr.view.read (Elt F) fs y := by
  have hoff := off3_at a t
  by_cases h : (y 0).val = t.val % 128
  · rw [if_pos h]
    refine View.read_writes_cons_unit_of_mem mscr.view fs _ w [] y (ValueIdx.ix3 (0 : Fin 1) (y 1) (y 2)) hoff ?_
    intro d
    match d with
    | ⟨0, _⟩ => exact h
    | ⟨1, _⟩ => exact (Nat.zero_add _).symm
    | ⟨2, _⟩ => exact (Nat.zero_add _).symm
  · rw [if_neg h]
    refine (View.read_writes_cons_unit_of_not_mem mscr.view fs _ w [] y hoff (0 : Fin 3) ?_).trans rfl
    show (y 0).val < t.val % 128 ∨ t.val % 128 + 1 ≤ (y 0).val
    omega

/-- The block's whole depends on the block alone: two points of one block of 128 have the same one. -/
theorem accOf_congr (c : Dev nD) (t t' : Fin (cfg1 a).N) (h : t'.val / 128 = t.val / 128) :
    accOf V a c t' = accOf V a c t := by
  funext y
  have hb : blockPoint a t' (y 0) = blockPoint a t (y 0) := Fin.ext (by
    show t'.val / 128 * 128 + (y 0).val = t.val / 128 * 128 + (y 0).val
    rw [h])
  unfold accOf
  rw [hb]

/-- The point of `t`'s block at `t`'s own position is `t`. -/
theorem blockPoint_self (t : Fin (cfg1 a).N) (j : Fin 128) (hj : j.val = t.val % 128) : blockPoint a t j = t :=
  Fin.ext (by
    show t.val / 128 * 128 + j.val = t.val
    omega)

/-- The invariant passes over point `t`'s row store: within a block the rows of the points already run, `t`'s now among
    them, are theirs; past a block's last point (and past the last point of all) it asks nothing. -/
theorem inv_step (c : Dev nD) (t : Fin (cfg1 a).N) (fs : mscr.view.ty.Contents (Elt F))
    (h : ScrInv V a c t.castSucc fs) :
    ScrInv V a c t.succ (mscr.view.writes (Elt F) fs [⟨rRow ((cfg1 a).grid.coords t), rowAt V a c t⟩]) := by
  intro hlt y hy
  have hs : (t.succ : Fin ((cfg1 a).N + 1)).val = t.val + 1 := Fin.val_succ t
  rw [hs] at hy
  have hlt' : t.val + 1 < (cfg1 a).N := hs ▸ hlt
  have hmod : t.val % 128 < 127 := by omega
  have hdiv : (t.val + 1) / 128 = t.val / 128 := by omega
  have hcg : accOf V a c ⟨(t.succ : Fin ((cfg1 a).N + 1)).val, hlt⟩ = accOf V a c t :=
    accOf_congr V a c t ⟨(t.succ : Fin ((cfg1 a).N + 1)).val, hlt⟩ (by
      show (t.succ : Fin ((cfg1 a).N + 1)).val / 128 = t.val / 128
      rw [hs]; exact hdiv)
  rw [hcg, read_row_store a t fs _ y]
  by_cases h0 : (y 0).val = t.val % 128
  · rw [if_pos h0]
    show rowAt V a c t _ = rowAt V a c (blockPoint a t (y 0)) _
    rw [blockPoint_self a t (y 0) h0]
  · rw [if_neg h0]
    have hc : (t.castSucc : Fin ((cfg1 a).N + 1)).val = t.val := Fin.coe_castSucc t
    have hlt0 : (t.castSucc : Fin ((cfg1 a).N + 1)).val < (cfg1 a).N := lt_of_eq_of_lt hc t.isLt
    have hy' : (y 0).val < (t.castSucc : Fin ((cfg1 a).N + 1)).val % 128 := by rw [hc]; omega
    have ht : (⟨(t.castSucc : Fin ((cfg1 a).N + 1)).val, hlt0⟩ : Fin (cfg1 a).N) = t := mk_castSucc_val t hlt0
    have hr := h hlt0 y hy'
    rw [ht] at hr
    exact hr

/-- After the last point of a block the accumulator is the block's whole. -/
theorem inv_full (c : Dev nD) (t : Fin (cfg1 a).N) (fs : mscr.view.ty.Contents (Elt F))
    (hlast : t.val % 128 = 127)
    (h : ScrInv V a c t.castSucc fs) :
    mscr.view.read (Elt F) (mscr.view.writes (Elt F) fs [⟨rRow ((cfg1 a).grid.coords t), rowAt V a c t⟩]) = accOf V a c t := by
  funext y
  have hy0 : (y 0).val < 128 := (y 0).isLt
  rw [read_row_store a t fs _ y]
  by_cases h0 : (y 0).val = t.val % 128
  · rw [if_pos h0]
    show rowAt V a c t _ = rowAt V a c (blockPoint a t (y 0)) _
    rw [blockPoint_self a t (y 0) h0]
  · rw [if_neg h0]
    have hc : (t.castSucc : Fin ((cfg1 a).N + 1)).val = t.val := Fin.coe_castSucc t
    have hlt0 : (t.castSucc : Fin ((cfg1 a).N + 1)).val < (cfg1 a).N := lt_of_eq_of_lt hc t.isLt
    have hy' : (y 0).val < (t.castSucc : Fin ((cfg1 a).N + 1)).val % 128 := by rw [hc]; omega
    have ht : (⟨(t.castSucc : Fin ((cfg1 a).N + 1)).val, hlt0⟩ : Fin (cfg1 a).N) = t := mk_castSucc_val t hlt0
    have hr := h hlt0 y hy'
    rw [ht] at hr
    exact hr

end Inv

end Cert.Kernel.Hand

end
-- ==== Proof.K.Oblig1.lean ====
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import proofs.«428619_j54528904790310_2_alg».proof.Proof.K.Data1
import proofs.«428619_j54528904790310_2_alg».proof.Proof.K.Sched1
import proofs.«428619_j54528904790310_2_alg».proof.Proof.K.Inv1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: its body obligation and its invariant at the region's ends

At every point the body reads its three input blocks and overwrites its own row of the accumulator; the rows the
block's earlier points stored are still theirs. At the last point of a block of 128 neurons every row of the accumulator
is therefore the row its point computed, and the body stores the accumulator, re-laid, over the output block; at the
other points the output block's buffer is handed back as it was found. -/

section Obligation

variable (V : (c : Dev nD) → (b : Ref sig .tc) → Buf (Elt F) ((c : Thread nD τ).loc b))
variable (a : (pcfg1 (F := F)).Adm)

/-! ## What each input window's staging buffer holds when the body runs -/

/-- An input window's current buffer holds its block at every point, fetched there or not: an unfetched point has the
    block index of the point before (the table's word did not change), and the body leaves the block in place. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg2) (Memref.isWhole_whole _) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _)

/-- What the body is called with at point `t`, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- and what it returns: the output window's buffer as found where the point stores nothing into it. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare ((dat1 V a c).after 3 t)
        | false => owns (c : Thread nD τ) (st1_3 a t) fullShare ((dat1 V a c).after 3 t)))

set_option maxHeartbeats 1000000 in
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2]
  rw [Phi_eq1, Phi_eq1, after1_0, after1_1, after1_2, after1_3,
    show (dat1 V a c).owesAt () t.succ = (dat1 V a c).owesAt () t.castSucc from rfl]
  unfold Phi1
  iintro ⟨⟨Ha, Hb, Hc, Hd, ⟨%fs, %hinv, Hs⟩, Hpf, Hr⟩, Ho, ⟨%d0, H0⟩, ⟨%d1, H1⟩, ⟨%d2, H2⟩, H3⟩
  by_cases hj : k1_cond1 ((cfg1 a).grid.coords t) = 1#1
  · have hlast : t.val % 128 = 127 := by rw [← coords1_1 a t]; exact (cond1_iff _).mp hj
    have hidle : (cfg1 a).idle 3 ((cfg1 a).grid.coords t) = false := by rw [idle1_3 a t, hlast]; rfl
    rw [show (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare (out3 (accOf V a c t))
        | false => owns (c : Thread nD τ) (st1_3 a t) fullShare (out3 (accOf V a c t)))
        = (owns (c : Thread nD τ) (st1_3 a t) fullShare (out3 (accOf V a c t)) : sProp 𝕄) from by rw [hidle]]
    have hfull := inv_full V a c t fs hlast hinv
    iapply (sound_kernel1_B c Set.univ _ hj _ _ _ _ _ _ _ _ mscr mscr_whole (xa V a c t) (xb V a c t) (xc V a c t) fs _)
    isplitl [H0]; · iexact H0
    isplitl [H1]; · iexact H1
    isplitl [H2]; · iexact H2
    isplitl [H3]; · icases H3 with ⟨%d3, H3⟩; iexists _; iexact H3
    isplitl [Hs]; · iexact Hs
    iintro ⟨H0, H1, H2, H3, Hs⟩
    isplitl [Ha Hb Hc Hd Hs Hpf Hr]
    · isplitl [Ha]; · iexact Ha
      isplitl [Hb]; · iexact Hb
      isplitl [Hc]; · iexact Hc
      isplitl [Hd]; · iexact Hd
      isplitl [Hs]
      · iexists _; isplitr; · ipureintro; exact inv_step V a c t fs hinv
        iexact Hs
      isplitl [Hpf]; · iexact Hpf
      iexact Hr
    isplitl [Ho]; · iexact Ho
    isplitl [H0]; · iexact H0
    isplitl [H1]; · iexact H1
    isplitl [H2]; · iexact H2
    rw [← hfull]
    iexact H3
  · have hnl : ¬ t.val % 128 = 127 := fun h => hj ((cond1_iff _).mpr (by rw [coords1_1]; exact h))
    have hidle : (cfg1 a).idle 3 ((cfg1 a).grid.coords t) = true := by rw [idle1_3 a t]; simp [hnl]
    have hflush : ((cfg1 a).win 3).flush t = false := by rw [flush1_3 a t]; simp [hnl]
    rw [show (match (cfg1 a).idle 3 ((cfg1 a).grid.coords t) with
        | true =>
          match ((cfg1 a).win 3).flush t with
          | false => iprop(∃ d, owns (c : Thread nD τ) (st1_3 a t) fullShare ((dat1 V a c).before 3 t d))
          | true => owns (c : Thread nD τ) (st1_3 a t) fullShare (out3 (accOf V a c t))
        | false => owns (c : Thread nD τ) (st1_3 a t) fullShare (out3 (accOf V a c t)))
        = (iprop(∃ d, owns (c : Thread nD τ) (st1_3 a t) fullShare ((dat1 V a c).before 3 t d)) : sProp 𝕄) from by rw [hidle, hflush]]
    iapply (sound_kernel1_A c Set.univ _ hj _ _ _ _ _ _ _ _ mscr mscr_whole (xa V a c t) (xb V a c t) (xc V a c t) fs _)
    isplitl [H0]; · iexact H0
    isplitl [H1]; · iexact H1
    isplitl [H2]; · iexact H2
    isplitl [Hs]; · iexact Hs
    iintro ⟨H0, H1, H2, Hs⟩
    isplitl [Ha Hb Hc Hd Hs Hpf Hr]
    · isplitl [Ha]; · iexact Ha
      isplitl [Hb]; · iexact Hb
      isplitl [Hc]; · iexact Hc
      isplitl [Hd]; · iexact Hd
      isplitl [Hs]
      · iexists _; isplitr; · ipureintro; exact inv_step V a c t fs hinv
        iexact Hs
      isplitl [Hpf]; · iexact Hpf
      iexact Hr
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## The invariant at the region's two ends -/

/-- At the first point: the scoped buffers the region does not stage as the region finds them (the accumulator at
    anything: no row of the first block has been stored yet), the tables, the generator register. -/
theorem phi1_intro (c : Dev nD) :
    iprop((∃ r, prngReg c r) ∗ Pipeline.prefHeld (Ix := Unit) (Name := ℕ) (U := UR sig nD τ) (Lvl := ℕ) pre1 c (fun _ => fullShare) a.1
      ∗ Pipeline.scopedRest (Ix := Unit) (Name := ℕ) (U := UR sig nD τ) (Lvl := ℕ) (Val := Elt F) spec1 c) ⊢ (Phi1 V a c 0 : sProp 𝕄) := by
  rw [scopedRest1_eq]
  unfold Phi1
  iintro ⟨Hr, Hpf, Ha, Hb, Hc, Hd, ⟨%fs, Hs⟩⟩
  isplitl [Ha]; · iexact Ha
  isplitl [Hb]; · iexact Hb
  isplitl [Hc]; · iexact Hc
  isplitl [Hd]; · iexact Hd
  isplitl [Hs]
  · iexists fs
    isplitr
    · ipureintro
      intro h y hy
      exact absurd hy (by simp)
    rw [mscr_whole.set_eq_univ]
    iexact Hs
  isplitl [Hpf]; · iexact Hpf
  iexact Hr

/-- At the last point the same resources come back, the accumulator at whatever it then holds. -/
theorem phi1_exit (c : Dev nD) (t : Fin ((cfg1 a).N + 1)) :
    (Phi1 V a c t : sProp 𝕄) ⊢ iprop(((∃ r, prngReg c r) ∗ Pipeline.prefHeld (Ix := Unit) (Name := ℕ) (U := UR sig nD τ) (Lvl := ℕ) pre1 c (fun _ => fullShare) a.1)
      ∗ Pipeline.scopedRest (Ix := Unit) (Name := ℕ) (U := UR sig nD τ) (Lvl := ℕ) (Val := Elt F) spec1 c) := by
  rw [scopedRest1_eq]
  unfold Phi1
  iintro ⟨Ha, Hb, Hc, Hd, ⟨%fs, -, Hs⟩, Hpf, Hr⟩
  isplitl [Hr Hpf]
  · isplitl [Hr]; · iexact Hr
    iexact Hpf
  isplitl [Ha]; · iexact Ha
  isplitl [Hb]; · iexact Hb
  isplitl [Hc]; · iexact Hc
  isplitl [Hd]; · iexact Hd
  iexists fs
  rw [mscr_whole.set_eq_univ]
  iexact Hs

end Obligation

end Cert.Kernel.Hand

end
-- ==== Proof.K.Run.lean ====
/-
  THE RUN of the program: @main is a host stretch, the first TensorCore region (the blockwise transpose), a second host
  stretch, and the second TensorCore region (the gather-and-accumulate, whose index maps read two prefetched tables).
  Between items a core holds every unscoped buffer whole at a known valuation, beside its generator register at some
  state and the fact that it owes nothing. The valuations are a fold from the launch memory: a host stretch's
  operations applied, a region's output array replaced by what its pipeline's write-backs leave. The tables are the
  two index arguments as launched; under the bound on their words every block the second region's index maps name is
  inside the gathered array, which is what makes the tables admissible. Each region is entered by sorting its arrays
  out of the unscoped buffers and left by putting them back; the second region's two gathered windows read one array,
  whose full share is dealt to them in halves and rejoined. The launch theorem then says: every weakly fair execution
  terminates, the result array holds what the second pipeline leaves, and every argument is as launched.
-/
import proofs.«428619_j54528904790310_2_alg».proof.Proof.Gen.Kernel.Launch
import proofs.«428619_j54528904790310_2_alg».proof.Proof.Gen.Kernel.Skeleton
import proofs.«428619_j54528904790310_2_alg».proof.Proof.Gen.Kernel.Points
import proofs.«428619_j54528904790310_2_alg».proof.Proof.Gen.Kernel.Regions
import proofs.«428619_j54528904790310_2_alg».proof.Proof.K.Region0
import proofs.«428619_j54528904790310_2_alg».proof.Proof.K.Data1
import proofs.«428619_j54528904790310_2_alg».proof.Proof.K.Split1
import proofs.«428619_j54528904790310_2_alg».proof.Proof.K.Ok
import proofs.«428619_j54528904790310_2_alg».proof.Proof.K.Host
import proofs.«428619_j54528904790310_2_alg».proof.Proof.K.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-! ## The prefetched tables and their admissibility -/

/-- The two index tables' contents: what the launch memory holds at them (the mesh has one device). -/
def tbl : pre1.Contents (Elt F) := fun k => m (((0 : Dev nD) : Thread nD τ).loc (pre1.ref k))

variable (h0 : ∀ k, ((tbl m 0) k).toNat < 8192) (h1 : ∀ k, ((tbl m 1) k).toNat < 8192)

/-- The tables, admissible: every word of either names a row of the gathered array. -/
def adm1 : (pcfg1 (F := F)).Adm := ⟨tbl m, ok1_of_lt (tbl m) h0 h1⟩

theorem adm1_val : (adm1 m h0 h1).1 = tbl m := rfl

/-- Every pipeline's admissible table contents: pipeline 0 has no table. -/
def adm : (p : Fin 2) → (pcfgs (F := F) p).Adm
  | ⟨0, _⟩ => cfg0.toPCfg_adm
  | ⟨1, _⟩ => adm1 m h0 h1

/-! ## The buffers' contents at the regions' ends -/

/-- The contents the first region is entered from, read at the TensorCore's references. -/
abbrev V1r : (c : Dev nD) → (b : Ref sig .tc) → Buf (Elt F) ((c : Thread nD τ).loc b) := fun c b => V1 m c b

/-- What the first region leaves in its output array. -/
def out12 (c : Dev nD) : Buf (Elt F) ((c : Thread nD τ).loc main_v12) := (dat0 (V1r m) c).arrAt 1 cfg0.N

/-- The regions' leavings, first stage: the first region's output array; elsewhere (never read) the entry contents. -/
def outsA : Outs (F := F) := fun _ r c => if h : r = main_v12 then h ▸ out12 m c else V1 m c r

theorem outsA_12 (J : ℕ) (c : Dev nD) : outsA m J main_v12 c = out12 m c := by
  unfold outsA; rw [dif_pos rfl]

/-- The first region's output array, as the second host stretch reads it. -/
theorem outsA_12' (c : Dev nD) : outsA m 2 main_v12 c = (dat0 (V1r m) c).arrAt 1 cfg0.N := outsA_12 m 2 c

/-- The contents the second region is entered from, read at the TensorCore's references. -/
abbrev V3r : (c : Dev nD) → (b : Ref sig .tc) → Buf (Elt F) ((c : Thread nD τ).loc b) := fun c b => V3 m (outsA m) c b

/-- What the second region leaves in its output array. -/
def out14 (c : Dev nD) : Buf (Elt F) ((c : Thread nD τ).loc main_v14) :=
  (dat1 (V3r m) (adm1 m h0 h1) c).arrAt 3 (cfg1 (adm1 m h0 h1)).N

/-- The regions' leavings: each region's output array as its pipeline leaves it. -/
def outs : Outs (F := F) := fun J r c => if h : r = main_v14 then h ▸ out14 m h0 h1 c else outsA m J r c

theorem outs_12 (J : ℕ) (c : Dev nD) : outs m h0 h1 J main_v12 c = out12 m c := by
  unfold outs; rw [dif_neg (by decide), outsA_12]

theorem outs_14 (J : ℕ) (c : Dev nD) : outs m h0 h1 J main_v14 c = out14 m h0 h1 c := by
  unfold outs; rw [dif_pos rfl]

/-- The second host stretch reads of the regions' leavings only the first region's output array. -/
theorem V2_outs (c : Dev nD) : V2 m (outs m h0 h1) c = V2 m (outsA m) c := by
  dsimp only [V2]; rw [outs_12, outsA_12]

theorem V3_outs (c : Dev nD) : V3 m (outs m h0 h1) c = V3 m (outsA m) c := by
  dsimp only [V3]; rw [V2_outs]

/-! ## The proof data family -/

/-- Every pipeline's proof data, each at its region's entry contents. -/
def pdats : (p : Fin 2) → (c : Dev nD) → Dat τ (Elt F) Unit ℕ (UR sig nD τ) ℕ (Pipeline.pin (pcfgs (F := F)) (adm m h0 h1) p) c
  | ⟨0, _⟩ => fun c => dat0 (V1r m) c
  | ⟨1, _⟩ => fun c => dat1 (V3r m) (adm1 m h0 h1) c

/-! ## The thread state -/

/-- No core waits on another: no level is assigned. -/
abbrev Lv : GSem nD τ sig → Finset Unit := fun _ => ∅
abbrev lv0 : GSem nD τ sig → Unit → ℕ := fun _ _ => 0
/-- What rides beside the buffers between items: the generator register at some state, and the core owing nothing. -/
abbrev Rest (c : Dev nD) : sProp 𝕄 :=
  iprop((∃ r, prngReg c r) ∗ ∃ W, owes (c : Thread nD τ) (0 : CellTallies nD τ sig Unit) W)

/-! ## The first region -/

/-- What the first region's arrays hold when it is left: the input as entered, the output as the pipeline leaves it. -/
theorem hF0 (c : Dev nD) : ∀ w : Fin cfg0.W, (dat0 (V1r m) c).arrAt w cfg0.N = V2 m (outs m h0 h1) c (Pipeline.arrRef spec0 w)
  | ⟨0, _⟩ => (((dat0 (V1r m) c).arrAt_in 0 rfl _).trans (A_eq0 (V1r m) c 0)).trans (V2_of m (outs m h0 h1) c main_arg0 (by decide)).symm
  | ⟨1, _⟩ => by
    show out12 m c = Function.update (V1 m c) (Proc.devRef .tc main_v12) (outs m h0 h1 2 main_v12 c) (Proc.devRef .tc main_v12)
    rw [Function.update_self, outs_12]

/-- Off its arrays the first region changes nothing. -/
theorem hrest0 (c : Dev nD) (b : Ref sig .tc) (hb : b ∉ Finset.univ.image (Pipeline.arrRef spec0)) :
    V2 m (outs m h0 h1) c b = V1 m c b :=
  V2_of m (outs m h0 h1) c b fun hm =>
    hb (by rw [List.mem_singleton.mp hm]; exact Finset.mem_image.mpr ⟨1, Finset.mem_univ _, rfl⟩)

set_option backward.isDefEq.respectTransparency.types false in
/-- The first region over the thread state: entered from every unscoped buffer at the contents after the first host
    stretch, left at those contents with the output array replaced by what the pipeline leaves. -/
def reg0 : Pipeline.RegionSeg (pcfgs (F := F)) (adm m h0 h1) (pdats m h0 h1) () defs₀ Variants.none Lv lv0 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1r m) c).loose
  hwaits := Pipeline.hwaits_of_owed_zero _ _ _ _ Lv lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m h0 h1) c) ∗ Rest c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    have hsplit := Pipeline.arrays_of_unscopedBufs (p := 0) (pcfgs (F := F)) (adm m h0 h1) (pdats m h0 h1) (launch0 (F := F)).win (launch0 (F := F)).arr_whole c
      ((pdats m h0 h1 0 c).share_full fun _ => rfl) (V1r m c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m h0 h1 0 c).Φ 0 = Pipeline.ΦA spec0 c from rfl]
    unfold Pipeline.ΦA
    iintro ⟨Hprng, -, Hsc⟩
    isplitl [Hsc]; · iexact Hsc
    iexact Hprng
  hout c := by
    rw [Pipeline.ownSems0_none, show (pdats m h0 h1 0 c).Φ (Fin.last _) = Pipeline.ΦA spec0 c from rfl]
    unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) (adm m h0 h1) (Ix := Unit) (Name := ℕ) (U := UR sig nD τ) (Lvl := ℕ)
      (launch0 (F := F)).win (launch0 (F := F)).arr_whole c (pdats m h0 h1) ((pdats m h0 h1 0 c).share_full fun _ => rfl)
      (V1r m c) (fun b => V2 m (outs m h0 h1) c b) ((pdats m h0 h1 0 c).arrAt · cfg0.N) (hF0 m h0 h1 c) (hrest0 m h0 h1 c)
    rw [Pipeline.unscopedBufs_held] at hjoin
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

/-! ## The second region -/

/-- The second region finds the two index tables as launched: no host stretch writes an argument, the first region
    changes none, and the mesh has one device. -/
theorem tbl_eq (c : Dev nD) : ((fun k => V3r m c (pre1.ref k)) : pre1.Contents (Elt F)) = tbl m := by
  obtain rfl : c = 0 := Subsingleton.elim _ _
  funext k
  revert k
  show ∀ k : Fin 2, V3r m 0 (pre1.ref k) = tbl m k
  intro k
  fin_cases k
  · exact V3_arg2 m (outsA m) 0
  · exact V3_arg3 m (outsA m) 0

/-- Off its output array the second region changes nothing. -/
theorem hrest1 (c : Dev nD) (b : Ref sig .tc) (hb : b ≠ main_v14) : V4 m (outs m h0 h1) c b = V3r m c b :=
  (V4_of m (outs m h0 h1) c b fun hm => hb (List.mem_singleton.mp hm)).trans (congrFun (V3_outs m h0 h1 c) _)

/-- Its output array is left as the pipeline leaves it. -/
theorem hout14 (c : Dev nD) : V4 m (outs m h0 h1) c main_v14 = (dat1 (V3r m) (adm1 m h0 h1) c).arrAt 3 (cfg1 (adm1 m h0 h1)).N := by
  show Function.update (V3 m (outs m h0 h1) c) (Proc.devRef .tc main_v14) (outs m h0 h1 4 main_v14 c) (Proc.devRef .tc main_v14) = _
  rw [Function.update_self, outs_14]
  rfl

/-- An input window's array ends as the region found it. -/
theorem arrAt1_in (c : Dev nD) (w : Fin (cfg1 (adm1 m h0 h1)).W) (hw : ((cfg1 (adm1 m h0 h1)).win w).isOut = false) (n : ℕ) :
    (dat1 (V3r m) (adm1 m h0 h1) c).arrAt w n = V3r m c (Pipeline.arrRef spec1 w) :=
  ((dat1 (V3r m) (adm1 m h0 h1) c).arrAt_in w hw n).trans (A_eq1 (V3r m) (adm1 m h0 h1) c w)

set_option backward.isDefEq.respectTransparency.types false in
/-- The second region over the thread state: entered from every unscoped buffer at the contents after the second host
    stretch, left at those contents with the output array replaced by what the pipeline leaves. The array its two
    gathered windows both read is dealt to them in halves and made whole again; the tables go into the invariant and
    come back beside the generator register. -/
def reg1 : Pipeline.RegionSeg (pcfgs (F := F)) (adm m h0 h1) (pdats m h0 h1) () defs₀ Variants.none Lv lv0 1 where
  win := winFacts₀1
  block_pos := block_pos1
  stage_whole := stage_whole1
  K := PEmpty
  osem k := k.elim
  ho := Pipeline.OwnSemFacts.none _
  hbody c := (body_obligation1 (V3r m) (adm1 m h0 h1) c).loose
  hwaits := Pipeline.hwaits_of_owed_zero _ _ _ _ Lv lv0 1 fun c t => owed1 (V3r m) (adm1 m h0 h1) c t
  pre c := iprop(StableHlo.held (c : Thread nD τ) (Pipeline.ucRefs τ sig) (V3 m (outsA m) c) ∗ Rest c)
  post c := iprop(StableHlo.held (c : Thread nD τ) (Pipeline.ucRefs τ sig) (V4 m (outs m h0 h1) c) ∗ Rest c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (V3r m c)
  hentry c := by
    have hsplit := entry1 (adm1 m h0 h1) c (pdats m h0 h1 1 c) (V3r m c) (q1_0 _ _ c) (q1_1 _ _ c) (q1_2 _ _ c)
      ((pdats m h0 h1 1 c).arrAt · 0) (fun w => A_eq1 (V3r m) (adm1 m h0 h1) c w)
    rw [tbl_eq m c, Pipeline.unscopedBufs_held] at hsplit
    rw [Pipeline.ownSems0_none]
    iintro ⟨⟨Hbufs, Hprng, Howes⟩, -, -⟩
    ihave Hs := hsplit $$ Hbufs
    icases Hs with ⟨Harr, Htbl, Hrest⟩
    imodintro
    isplitl [Harr]; · iexact Harr
    isplitl [Htbl]; · iexact Htbl
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m h0 h1 1 c).Φ 0 = Phi1 (V3r m) (adm1 m h0 h1) c 0 from Phi_eq1 (V3r m) (adm1 m h0 h1) c 0]
    exact phi1_intro (V3r m) (adm1 m h0 h1) c
  hout c := by
    rw [Pipeline.ownSems0_none,
      show (pdats m h0 h1 1 c).Φ (Fin.last _) = Phi1 (V3r m) (adm1 m h0 h1) c (Fin.last _) from Phi_eq1 (V3r m) (adm1 m h0 h1) c _]
    refine (phi1_exit (V3r m) (adm1 m h0 h1) c (Fin.last _)).trans ?_
    iintro ⟨HY, Hsc⟩
    isplitl [HY]; · iexact HY
    isplitr; · iempintro
    iexact Hsc
  hexit c := by
    have hjoin := exit1 (adm1 m h0 h1) c (pdats m h0 h1 1 c) (V3r m c) (fun b => V4 m (outs m h0 h1) c b)
      (q1_0 _ _ c) (q1_1 _ _ c) (q1_2 _ _ c) ((pdats m h0 h1 1 c).arrAt · (cfg1 (adm1 m h0 h1)).N)
      (arrAt1_in m h0 h1 c 0 rfl _) (arrAt1_in m h0 h1 c 1 rfl _) (arrAt1_in m h0 h1 c 2 rfl _)
      (hrest1 m h0 h1 c) (hout14 m h0 h1 c)
    rw [tbl_eq m c, Pipeline.unscopedBufs_held] at hjoin
    iintro ⟨Harr, Howes, ⟨Hprng, Htbl⟩, Hrest⟩
    imodintro
    isplitl [Harr Htbl Hrest]
    · iapply hjoin
      isplitl [Harr]; · iexact Harr
      isplitl [Htbl]; · iexact Htbl
      iexact Hrest
    isplitl [Hprng]; · iexact Hprng
    unfold Pipeline.Dat.owesAt Pipeline.owesWithin
    icases Howes with ⟨%W, -, Howes⟩
    iexists W
    iexact Howes

/-! ## @main as segments, and the launch -/

/-- The rest of the thread state between items: the same at every boundary. -/
abbrev Ej : Fin 3 → Dev nD → sProp 𝕄 := fun _ c => Rest c

variable (ρ : Dev nD → PrngReg)

set_option backward.isDefEq.respectTransparency.types false in
/-- THE RUN. From any memory with zero counters, every weakly fair execution of @main on the TensorCore terminates,
    and every final memory holds, in the result array, what the second pipeline leaves in its output array from the
    contents the second host stretch leaves, and every argument array as launched. -/
theorem run_main : θ_run defs (onTc (τ := τ) (main (F := F))) ⟨m, fun _ => 0, ρ⟩ (fun r => ∀ c : Dev nD,
      r.2.mem ((c.tc : Thread nD τ).loc main_v14) = (dat1 (V3r m) (adm1 m h0 h1) c).arrAt 3 (cfg1 (adm1 m h0 h1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) (adm m h0 h1) (pdats m h0 h1) () (cellOf_inj (adm m h0 h1)) emb₁ defs₀ Variants.none Lv lv0 m ρ main
    (segs m (outs m h0 h1) Variants.none Lv lv0 Ej () (adm m h0 h1) (pdats m h0 h1) (reg0 m h0 h1) (reg1 m h0 h1))
    (fun c Q => by
      rewrite [main_chain c, Pipeline.Seg.run_eq_chain,
        show (segs m (outs m h0 h1) Variants.none Lv lv0 Ej () (adm m h0 h1) (pdats m h0 h1) (reg0 m h0 h1) (reg1 m h0 h1) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m h0 h1)) (cellOf_inj (adm m h0 h1)))
      (Pipeline.launchToks (Pipeline.pin (pcfgs (F := F)) (adm m h0 h1)) (cellOf_inj (adm m h0 h1))))
    (hu₀ := ?_)
    (T₀ := fun c => iprop(StableHlo.held (c : Thread nD τ) (Pipeline.ucRefs τ sig) (V0 m c) ∗ Rest c))
    (Tₙ := fun c => iprop(StableHlo.held (c : Thread nD τ) (Pipeline.ucRefs τ sig) (V4 m (outs m h0 h1) c) ∗ ∃ r, prngReg c r))
    (hch := fun c => ⟨.rfl, .rfl, .rfl,
      Entails.of_eq (show iprop(StableHlo.held (c : Thread nD τ) (Pipeline.ucRefs τ sig) (V3 m (outs m h0 h1) c) ∗ Rest c)
        = iprop(StableHlo.held (c : Thread nD τ) (Pipeline.ucRefs τ sig) (V3 m (outsA m) c) ∗ Rest c) from by rw [V3_outs]),
      show iprop(StableHlo.held (c : Thread nD τ) (Pipeline.ucRefs τ sig) (V4 m (outs m h0 h1) c) ∗ Rest c)
        ⊢ iprop((StableHlo.held (c : Thread nD τ) (Pipeline.ucRefs τ sig) (V4 m (outs m h0 h1) c) ∗ ∃ r, prngReg c r)
          ∗ ∃ W, owes (c : Thread nD τ) (0 : CellTallies nD τ sig Unit) W) from ?_⟩)
    (hinit := ?_)
    (QY := fun c s =>
      s.mem ((c.tc : Thread nD τ).loc main_v14) = (dat1 (V3r m) (adm1 m h0 h1) c).arrAt 3 (cfg1 (adm1 m h0 h1)).N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipelines' rounds state, whole; no other ghost resource
    have hG : (BI.emp : sProp 𝕄) ⊢ bigSep Finset.univ (fun _ : Dev nD => (BI.emp : sProp 𝕄)) :=
      Entails.of_eq (BI.bigSep_emp_const _).symm
    rw [ownU_emb₁]
    iintro Hu
    imodintro
    isplitl [Hu]; · iexact Hu
    iapply hG
    iempintro
  · -- the last region's state, regrouped: the core owing nothing stands apart
    iintro ⟨Hh, Hp, Ho⟩
    isplitr [Ho]
    · isplitl [Hh]; · iexact Hh
      iexact Hp
    iexact Ho
  · -- the launch: on each core the unscoped buffers at the launch contents, the generator register, nothing owed
    refine Pipeline.initEach Lv lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, Ho, -, Hp, -⟩, -⟩
    imodintro
    isplitl [Hh]; · iexact Hh
    isplitl [Hp]; · iexists _; iexact Hp
    iexists ∅; iexact Ho
  · -- the end: the result array and each argument read off the last valuation
    unfold StableHlo.held
    iintro ⟨⟨Hh, -⟩, HSI⟩
    ihave Hr := (pointsTo_read_all (Pipeline.ucRefs τ sig) (fun b => ((c : Thread nD τ).1, b)) (V4 m (outs m h0 h1) c) s') $$ [Hh HSI]
    · isplitl [Hh] <;> iassumption
    icases Hr with ⟨%h, HSI⟩
    imodintro
    isplitr
    · ipureintro
      exact ⟨(h (Proc.devRef .tc main_v14) (Finset.mem_filter.mpr ⟨StableHlo.devRef_mem_tcRefs main_v14, by decide⟩)).trans (hout14 m h0 h1 c),
        (h (Proc.devRef .tc main_arg0) (Finset.mem_filter.mpr ⟨StableHlo.devRef_mem_tcRefs main_arg0, by decide⟩)).trans (V4_main_arg0 m (outs m h0 h1) c),
        (h (Proc.devRef .tc main_arg1) (Finset.mem_filter.mpr ⟨StableHlo.devRef_mem_tcRefs main_arg1, by decide⟩)).trans (V4_main_arg1 m (outs m h0 h1) c),
        (h (Proc.devRef .tc main_arg2) (Finset.mem_filter.mpr ⟨StableHlo.devRef_mem_tcRefs main_arg2, by decide⟩)).trans (V4_main_arg2 m (outs m h0 h1) c),
        (h (Proc.devRef .tc main_arg3) (Finset.mem_filter.mpr ⟨StableHlo.devRef_mem_tcRefs main_arg3, by decide⟩)).trans (V4_main_arg3 m (outs m h0 h1) c)⟩
    · iexact HSI

end Run

end Cert.Kernel.Hand

end
-- ==== Proof.Final.lean ====
/- The closing module: the two kernels' runs, named, handed to the claims. The idealized kernel's result array is what
   its second pipeline leaves in its output array; read back through the write-backs, the accumulator's rows, the
   first pipeline's transpose and the host stretches, that is the specification's function of the launched arguments. -/
import proofs.«428619_j54528904790310_2_alg».proof.Proof.Claims
import proofs.«428619_j54528904790310_2_alg».proof.Proof.KI.Run
import proofs.«428619_j54528904790310_2_alg».proof.Proof.KI.Host
import proofs.«428619_j54528904790310_2_alg».proof.Proof.KI.Value0
import proofs.«428619_j54528904790310_2_alg».proof.Proof.KI.ValueK
import proofs.«428619_j54528904790310_2_alg».proof.Proof.KI.Value1
import proofs.«428619_j54528904790310_2_alg».proof.Proof.K.Run

set_option maxRecDepth 16384

noncomputable section

namespace Cert.Proof.Final

open Idealize.ShloMosaic Idealize.ShloMosaic.TcCoe Idealize.SL.Sem

/-! ## The idealized kernel -/

section KI

open Cert.KernelIdeal Cert.KernelIdeal.Gen Cert.KernelIdeal.Hand

/-- The idealized kernel's result array after the run: what the second pipeline leaves in its output array. -/
def OutKI (m : (ℓ : Loc Cert.KernelIdeal.nD Cert.KernelIdeal.τ Cert.KernelIdeal.sig) → Buf (Elt Ideal) ℓ)
    (h0 : ∀ k, (m (((0 : Dev Cert.KernelIdeal.nD).tc : Thread Cert.KernelIdeal.nD Cert.KernelIdeal.τ).loc Cert.KernelIdeal.main_arg2) k).toNat < 8192) (h1 : ∀ k, (m (((0 : Dev Cert.KernelIdeal.nD).tc : Thread Cert.KernelIdeal.nD Cert.KernelIdeal.τ).loc Cert.KernelIdeal.main_arg3) k).toNat < 8192)
    (c : Dev Cert.KernelIdeal.nD) : Buf (Elt Ideal) ((c.tc : Thread Cert.KernelIdeal.nD Cert.KernelIdeal.τ).loc Cert.KernelIdeal.main_v14) :=
  (dat1 (F := Ideal) (V3r m) (adm1 m h0 h1) c).arrAt 3 (cfg1 (adm1 m h0 h1)).N

theorem runKI (m : (ℓ : Loc Cert.KernelIdeal.nD Cert.KernelIdeal.τ Cert.KernelIdeal.sig) → Buf (Elt Ideal) ℓ) (ρ : Dev Cert.KernelIdeal.nD → PrngReg)
    (h0 : ∀ k, (m (((0 : Dev Cert.KernelIdeal.nD).tc : Thread Cert.KernelIdeal.nD Cert.KernelIdeal.τ).loc Cert.KernelIdeal.main_arg2) k).toNat < 8192) (h1 : ∀ k, (m (((0 : Dev Cert.KernelIdeal.nD).tc : Thread Cert.KernelIdeal.nD Cert.KernelIdeal.τ).loc Cert.KernelIdeal.main_arg3) k).toNat < 8192) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14) = OutKI m h0 h1 c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  run_main (F := Ideal) m h0 h1 ρ

/-- Its value: the specification's function of the launched arguments, with the kernel program's weights. -/
theorem valKI (m : (ℓ : Loc Cert.KernelIdeal.nD Cert.KernelIdeal.τ Cert.KernelIdeal.sig) → Buf (Elt Ideal) ℓ)
    (h0 : ∀ k, (m (((0 : Dev Cert.KernelIdeal.nD).tc : Thread Cert.KernelIdeal.nD Cert.KernelIdeal.τ).loc Cert.KernelIdeal.main_arg2) k).toNat < 8192) (h1 : ∀ k, (m (((0 : Dev Cert.KernelIdeal.nD).tc : Thread Cert.KernelIdeal.nD Cert.KernelIdeal.τ).loc Cert.KernelIdeal.main_arg3) k).toNat < 8192) (c : Dev Cert.KernelIdeal.nD) :
    OutKI m h0 h1 c = Cert.Spec.G (m ((c.tc : Thread Cert.KernelIdeal.nD Cert.KernelIdeal.τ).loc Cert.KernelIdeal.main_arg0)) (Cert.KernelIdeal.Hand.coefK (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain rfl : c = 0 := Subsingleton.elim _ _
  -- the weights' buffer and the re-laid transposed input, as the second region finds them
  have hV11 : (V3r m 0 main_v11 : Vec Ideal S16384x4 .f32) = coefK (F := Ideal) (m (((0 : Dev nD).tc : Thread nD τ).loc main_arg1)) :=
    V3_coef m (outsA m) 0
  have hx : V1r m 0 main_arg0 = m (((0 : Dev nD).tc : Thread nD τ).loc main_arg0) := V1_arg0 m 0
  have hV13 : (V3r m 0 main_v13 : Vec Ideal S8192x32x128 .f32)
      = shapeCast S8192x32x128 (fun i : S8192x4096.Idx => m (((0 : Dev nD).tc : Thread nD τ).loc main_arg0) (ValueIdx.ix2 (i 1) (i 0)))
          shapeCasts_S8192x4096_S8192x32x128 :=
    (V3_v13 m (outsA m) 0).trans (by rw [outsA_12', final0, hx])
  unfold OutKI
  rw [final1 (V3r m) (adm1 m h0 h1) 0]
  exact Gout_eq (V3r m) (adm1 m h0 h1) 0 _ _ _ _ hV11 hV13 rfl rfl h0 h1

end KI

/-! ## The kernel as printed -/

section K

open Cert.Kernel Cert.Kernel.Gen Cert.Kernel.Hand

/-- The kernel's result array after the run: what the second pipeline leaves in its output array. -/
def OutK (m : (ℓ : Loc Cert.Kernel.nD Cert.Kernel.τ Cert.Kernel.sig) → Buf (Elt Bits) ℓ)
    (h0 : ∀ k, (m (((0 : Dev Cert.Kernel.nD).tc : Thread Cert.Kernel.nD Cert.Kernel.τ).loc Cert.Kernel.main_arg2) k).toNat < 8192) (h1 : ∀ k, (m (((0 : Dev Cert.Kernel.nD).tc : Thread Cert.Kernel.nD Cert.Kernel.τ).loc Cert.Kernel.main_arg3) k).toNat < 8192)
    (c : Dev Cert.Kernel.nD) : Buf (Elt Bits) ((c.tc : Thread Cert.Kernel.nD Cert.Kernel.τ).loc Cert.Kernel.main_v14) :=
  (dat1 (F := Bits) (V3r m) (adm1 m h0 h1) c).arrAt 3 (cfg1 (adm1 m h0 h1)).N

theorem runK (m : (ℓ : Loc Cert.Kernel.nD Cert.Kernel.τ Cert.Kernel.sig) → Buf (Elt Bits) ℓ) (ρ : Dev Cert.Kernel.nD → PrngReg)
    (h0 : ∀ k, (m (((0 : Dev Cert.Kernel.nD).tc : Thread Cert.Kernel.nD Cert.Kernel.τ).loc Cert.Kernel.main_arg2) k).toNat < 8192) (h1 : ∀ k, (m (((0 : Dev Cert.Kernel.nD).tc : Thread Cert.Kernel.nD Cert.Kernel.τ).loc Cert.Kernel.main_arg3) k).toNat < 8192) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_v14) = OutK m h0 h1 c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)) :=
  run_main (F := Bits) m h0 h1 ρ

end K

/-! ## The claim -/

theorem claim : Cert.Claim := Cert.Proof.Claims.claim OutKI runKI valKI OutK runK

end Cert.Proof.Final

end
-- ==== Proof.lean ====
/-
  The kernel against its reference, over the extended reals.

  Both programs first collapse the sixteen logits of each of the 16384 output neurons into four affine coefficients
  (a softmax along the logits, then the product with a fixed 16x4 table): the same host operations on the same
  argument, one function `coef` that is never opened. The reference then gathers, for neuron `o`, the columns
  `x[:, idx_a[o]]` and `x[:, idx_b[o]]` and returns `((c0 + c1*a) + c2*b) + c3*(a*b)` entry by entry.

  The kernel transposes `x` by 1024x1024 tiles (first launch), re-lays the transpose as `[8192, 32, 128]`, and in its
  second launch walks the neurons in blocks of 128: at point `(g, j)` it fetches the two rows of the re-laid transpose
  that the index tables name for neuron `128 g + j` (a row of the transpose is a column of `x`), combines them with
  that neuron's four coefficients in the same order as the reference, and stores the result as row `j` of a
  `[128, 32, 128]` accumulator; at `j = 127` the accumulator, its axes rotated and flattened to `[4096, 128]`, is the
  output block of columns `128 g .. 128 g + 127`. Entry `(p, o)` of the output is therefore the reference's, index
  by index, with no algebraic law in between: the two sides are the same operations on the same entries.

  The index tables must name columns of `x`: with a word outside `[0, 8192)` the second launch would fetch a block
  outside its array, and the reference would index out of range; the precondition states the range, and it is the
  only part of the precondition the proof uses.
-/
import proofs.«428619_j54528904790310_2_alg».proof.Proof.Final

noncomputable section

namespace Cert.Proof

theorem claim : Cert.Claim := Cert.Proof.Final.claim

end Cert.Proof

end
